-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x4 : Shape := ⟨3, ![8, 4096, 4]⟩
abbrev S8x4096 : Shape := ⟨2, ![8, 4096]⟩
abbrev S_ : Shape := ⟨0, ![]⟩

class Facts : Prop where
  bcast_S_S8x4096x4 : S_.BroadcastsInDim S8x4096x4 (![] : Fin 0 → Fin S8x4096x4.rank)
  reducesTo_S8x4096x4_S_d0_1_2 : S8x4096x4.ReducesTo [0, 1, 2] S_
  h_S_ : 0 < S_.numel

variable [Facts]

def fn {F : FTy → Type} [FloatOps F] (main_arg0 : FVec F S8x4096x4 .f32) (main_arg1 : IVec S8x4096 32) : IVec S_ 1 :=
  let main_v0 : FVec F S8x4096x4 .f32 := Host.absf main_arg0
  let main_cst : FVec F S_ .f32 := constant S_ .f32 0x7F800000#32
  let main_v1 : FVec F S8x4096x4 .f32 := broadcastInDim S8x4096x4 ![] bcast_S_S8x4096x4 main_cst
  let main_v2 : IVec S8x4096x4 1 := cmpf .olt main_v0 main_v1
  let main_c : IVec S_ 1 := constantI S_ 1 1#1
  let main_v3 : IVec S_ 1 := (fun x v => Host.reduce IntOp.andi x v reducesTo_S8x4096x4_S_d0_1_2 h_S_) main_v2 main_c
  main_v3
-- ==== Kernel.lean ====
abbrev S8x4096x4 : Shape := ⟨3, ![8, 4096, 4]⟩
abbrev S8x4096 : Shape := ⟨2, ![8, 4096]⟩
abbrev S8x4096x1 : Shape := ⟨3, ![8, 4096, 1]⟩
abbrev S1x512x4 : Shape := ⟨3, ![1, 512, 4]⟩
abbrev S1x512x1 : Shape := ⟨3, ![1, 512, 1]⟩
abbrev S512x1 : Shape := ⟨2, ![512, 1]⟩
abbrev S512x4 : Shape := ⟨2, ![512, 4]⟩
abbrev S4x512 : Shape := ⟨2, ![4, 512]⟩
abbrev S1x512 : Shape := ⟨2, ![1, 512]⟩
abbrev S512x512 : Shape := ⟨2, ![512, 512]⟩
abbrev S512 : Shape := ⟨1, ![512]⟩
abbrev S_ : Shape := ⟨0, ![]⟩

abbrev nBuf : Space → Nat
  | .hbm => 10
  | .vmem => 13
  | .smem => 0
  | _ => 0

abbrev bufTy : (tb : Table) → Fin (tcTables nBuf tb) → BufTy
  | .hbm, ⟨0, _⟩ => ⟨S8x4096x4, .f32⟩
  | .hbm, ⟨1, _⟩ => ⟨S8x4096, .i32⟩
  | .hbm, ⟨2, _⟩ => ⟨S8x4096x1, .i32⟩
  | .hbm, ⟨3, _⟩ => ⟨S8x4096x4, .f32⟩
  | .hbm, ⟨4, _⟩ => ⟨S8x4096x1, .i32⟩
  | .hbm, ⟨5, _⟩ => ⟨S8x4096, .i32⟩
  | .hbm, ⟨6, _⟩ => ⟨S_, .i32⟩
  | .hbm, ⟨7, _⟩ => ⟨S8x4096, .i32⟩
  | .hbm, ⟨8, _⟩ => ⟨S8x4096, .i1⟩
  | .hbm, ⟨9, _⟩ => ⟨S8x4096, .i1⟩
  | .local _ .vmem, ⟨0, _⟩ => ⟨S1x512x4, .f32⟩
  | .local _ .vmem, ⟨1, _⟩ => ⟨S1x512x4, .f32⟩
  | .local _ .vmem, ⟨2, _⟩ => ⟨S1x512x4, .f32⟩
  | .local _ .vmem, ⟨3, _⟩ => ⟨S1x512x4, .f32⟩
  | .local _ .vmem, ⟨4, _⟩ => ⟨S1x512x1, .i32⟩
  | .local _ .vmem, ⟨5, _⟩ => ⟨S1x512x1, .i32⟩
  | .local _ .vmem, ⟨6, _⟩ => ⟨S1x512x1, .i32⟩
  | .local _ .vmem, ⟨7, _⟩ => ⟨S1x512x1, .i32⟩
  | .local _ .vmem, ⟨8, _⟩ => ⟨S1x512x4, .f32⟩
  | .local _ .vmem, ⟨9, _⟩ => ⟨S1x512x4, .f32⟩
  | .local _ .vmem, ⟨10, _⟩ => ⟨S1x512x1, .i32⟩
  | .local _ .vmem, ⟨11, _⟩ => ⟨S1x512x1, .i32⟩
  | .local _ .vmem, ⟨12, _⟩ => ⟨S512x1, .f32⟩
  | _, _ => ⟨S8x4096x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 8, 8], ![false, false, false]⟩

def k0_cond2 (i : grid0.Coords) : BitVec 1 :=
  let arg2 : BitVec 32 := BitVec.ofNat 32 (i 2).val
  let c7_i32 : BitVec 32 := 7#32
  let v66 : BitVec 1 := Scalar.cmpi .eq arg2 c7_i32
  let v67 : BitVec 32 := Scalar.extui v66
  let c0_i32_18 : BitVec 32 := 0#32
  let v68 : BitVec 1 := Scalar.cmpi .ne v67 c0_i32_18
  v68

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x512x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x512x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S8x4096_S8x4096x1 : S8x4096.ShapeCasts S8x4096x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512x4_S1x512x4_0_0_0 : ∀ a, (![0, 0, 0] : Fin 3 → Nat) a + S1x512x4.size a ≤ S1x512x4.size a
  h_S1x512x4 : 0 < S1x512x4.numel
  shapeCasts_S1x512x4_S512x4 : S1x512x4.ShapeCasts S512x4
  transposes_S512x4_p1_0_S4x512 : S512x4.Transposes [1, 0] S4x512
  slices_S512x4_o0_0_S512x1 : S512x4.Slices ![0, 0] S512x1
  slices_S512x4_o0_1_S512x1 : S512x4.Slices ![0, 1] S512x1
  slices_S512x4_o0_2_S512x1 : S512x4.Slices ![0, 2] S512x1
  slices_S512x4_o0_3_S512x1 : S512x4.Slices ![0, 3] S512x1
  slices_S4x512_o0_0_S1x512 : S4x512.Slices ![0, 0] S1x512
  slices_S4x512_o1_0_S1x512 : S4x512.Slices ![1, 0] S1x512
  slices_S4x512_o2_0_S1x512 : S4x512.Slices ![2, 0] S1x512
  slices_S4x512_o3_0_S1x512 : S4x512.Slices ![3, 0] S1x512
  broadcasts_S1x512_S512x512 : S1x512.Broadcasts S512x512
  broadcasts_S512x1_S512x512 : S512x1.Broadcasts S512x512
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  transposes_S512x1_p1_0_S1x512 : S512x1.Transposes [1, 0] S1x512
  iota_S512x1_d0_w32 : S512x1.Iotas .tc 32 [0]
  iota_S1x512_d1_w32 : S1x512.Iotas .tc 32 [1]
  shapeCasts_S1x512_S1x512 : S1x512.ShapeCasts S1x512
  reduces_S512x512_S512 : S512x512.Reduces [1] S512
  shapeCasts_S512_S512x1 : S512.ShapeCasts S512x1
  natLt_1_32 : 1 < 32
  shapeCasts_S512x1_S1x512x1 : S512x1.ShapeCasts S1x512x1
  broadcasts_S512x1_S512x4 : S512x1.Broadcasts S512x4
  shapeCasts_S512x4_S1x512x4 : S512x4.ShapeCasts S1x512x4
  shapeCasts_S8x4096x1_S8x4096 : S8x4096x1.ShapeCasts S8x4096
  bcast_S_S8x4096 : S_.BroadcastsInDim S8x4096 (![] : Fin 0 → Fin S8x4096.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x4.size a ≤ S8x4096x4.size a
  hwx0_0 : ∀ i : grid0.Coords, EltTy.bits .f32 = 32 ∨ (Rect.block (s := S8x4096x4) S1x512x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x4.size a ≤ S8x4096x4.size a
  hwx0_1 : ∀ i : grid0.Coords, EltTy.bits .f32 = 32 ∨ (Rect.block (s := S8x4096x4) S1x512x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1.size a ≤ S8x4096x1.size a
  hwx0_2 : ∀ i : grid0.Coords, EltTy.bits .i32 = 32 ∨ (Rect.block (s := S8x4096x1) S1x512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1.size a ≤ S8x4096x1.size a
  hwx0_3 : ∀ i : grid0.Coords, EltTy.bits .i32 = 32 ∨ (Rect.block (s := S8x4096x1) S1x512x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x4.size a ≤ S8x4096x4.size a
  hwx0_4 : ∀ i : grid0.Coords, EltTy.bits .f32 = 32 ∨ (Rect.block (s := S8x4096x4) S1x512x4.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1.size a ≤ S8x4096x1.size a
  hwx0_5 : ∀ i : grid0.Coords, EltTy.bits .i32 = 32 ∨ (Rect.block (s := S8x4096x1) S1x512x1.size (cc0_transform_5 i) (hinb0_5 i)).WholeWords (EltTy.packing .i32)

variable [Facts₀]

abbrev win0_0 : Pipeline.Window sig grid0 :=
  Pipeline.Window.ofSpec (Memref.whole main_arg0) S1x512x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x512x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S1x512x4.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S1x512x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8x4096x4 : Shape := ⟨3, ![8, 4096, 4]⟩
abbrev S8x4096 : Shape := ⟨2, ![8, 4096]⟩
abbrev S8x4096x1 : Shape := ⟨3, ![8, 4096, 1]⟩
abbrev S8x1x4096 : Shape := ⟨3, ![8, 1, 4096]⟩
abbrev S8x4096x4096 : Shape := ⟨3, ![8, 4096, 4096]⟩
abbrev S4096x4096 : Shape := ⟨2, ![4096, 4096]⟩
abbrev S_ : Shape := ⟨0, ![]⟩
abbrev S1x4096x4096 : Shape := ⟨3, ![1, 4096, 4096]⟩

abbrev nBuf : Space → Nat
  | .hbm => 70
  | .vmem => 0
  | .smem => 0
  | _ => 0

abbrev bufTy : (tb : Table) → Fin (tcTables nBuf tb) → BufTy
  | .hbm, ⟨0, _⟩ => ⟨S8x4096x4, .f32⟩
  | .hbm, ⟨1, _⟩ => ⟨S8x4096, .i32⟩
  | .hbm, ⟨2, _⟩ => ⟨S8x4096x1, .f32⟩
  | .hbm, ⟨3, _⟩ => ⟨S8x4096, .f32⟩
  | .hbm, ⟨4, _⟩ => ⟨S8x4096x1, .f32⟩
  | .hbm, ⟨5, _⟩ => ⟨S8x4096, .f32⟩
  | .hbm, ⟨6, _⟩ => ⟨S8x4096x1, .f32⟩
  | .hbm, ⟨7, _⟩ => ⟨S8x4096, .f32⟩
  | .hbm, ⟨8, _⟩ => ⟨S8x4096x1, .f32⟩
  | .hbm, ⟨9, _⟩ => ⟨S8x4096, .f32⟩
  | .hbm, ⟨10, _⟩ => ⟨S8x4096, .f32⟩
  | .hbm, ⟨11, _⟩ => ⟨S8x4096, .f32⟩
  | .hbm, ⟨12, _⟩ => ⟨S8x4096, .f32⟩
  | .hbm, ⟨13, _⟩ => ⟨S8x1x4096, .f32⟩
  | .hbm, ⟨14, _⟩ => ⟨S8x4096x1, .f32⟩
  | .hbm, ⟨15, _⟩ => ⟨S8x4096x4096, .f32⟩
  | .hbm, ⟨16, _⟩ => ⟨S8x4096x4096, .f32⟩
  | .hbm, ⟨17, _⟩ => ⟨S8x4096x4096, .i1⟩
  | .hbm, ⟨18, _⟩ => ⟨S8x1x4096, .f32⟩
  | .hbm, ⟨19, _⟩ => ⟨S8x4096x1, .f32⟩
  | .hbm, ⟨20, _⟩ => ⟨S8x4096x4096, .f32⟩
  | .hbm, ⟨21, _⟩ => ⟨S8x4096x4096, .f32⟩
  | .hbm, ⟨22, _⟩ => ⟨S8x4096x4096, .i1⟩
  | .hbm, ⟨23, _⟩ => ⟨S8x4096x4096, .i1⟩
  | .hbm, ⟨24, _⟩ => ⟨S8x1x4096, .f32⟩
  | .hbm, ⟨25, _⟩ => ⟨S8x4096x1, .f32⟩
  | .hbm, ⟨26, _⟩ => ⟨S8x4096x4096, .f32⟩
  | .hbm, ⟨27, _⟩ => ⟨S8x4096x4096, .f32⟩
  | .hbm, ⟨28, _⟩ => ⟨S8x4096x4096, .i1⟩
  | .hbm, ⟨29, _⟩ => ⟨S8x4096x4096, .i1⟩
  | .hbm, ⟨30, _⟩ => ⟨S8x1x4096, .f32⟩
  | .hbm, ⟨31, _⟩ => ⟨S8x4096x1, .f32⟩
  | .hbm, ⟨32, _⟩ => ⟨S8x4096x4096, .f32⟩
  | .hbm, ⟨33, _⟩ => ⟨S8x4096x4096, .f32⟩
  | .hbm, ⟨34, _⟩ => ⟨S8x4096x4096, .i1⟩
  | .hbm, ⟨35, _⟩ => ⟨S8x4096x4096, .i1⟩
  | .hbm, ⟨36, _⟩ => ⟨S8x4096x1, .i32⟩
  | .hbm, ⟨37, _⟩ => ⟨S8x1x4096, .i32⟩
  | .hbm, ⟨38, _⟩ => ⟨S8x4096x4096, .i32⟩
  | .hbm, ⟨39, _⟩ => ⟨S8x4096x4096, .i32⟩
  | .hbm, ⟨40, _⟩ => ⟨S8x4096x4096, .i1⟩
  | .hbm, ⟨41, _⟩ => ⟨S4096x4096, .i32⟩
  | .hbm, ⟨42, _⟩ => ⟨S4096x4096, .i32⟩
  | .hbm, ⟨43, _⟩ => ⟨S_, .i32⟩
  | .hbm, ⟨44, _⟩ => ⟨S4096x4096, .i32⟩
  | .hbm, ⟨45, _⟩ => ⟨S4096x4096, .i32⟩
  | .hbm, ⟨46, _⟩ => ⟨S4096x4096, .i1⟩
  | .hbm, ⟨47, _⟩ => ⟨S1x4096x4096, .i1⟩
  | .hbm, ⟨48, _⟩ => ⟨S1x4096x4096, .i1⟩
  | .hbm, ⟨49, _⟩ => ⟨S8x4096x4096, .i1⟩
  | .hbm, ⟨50, _⟩ => ⟨S8x4096x4096, .i1⟩
  | .hbm, ⟨51, _⟩ => ⟨S8x4096x4096, .i1⟩
  | .hbm, ⟨52, _⟩ => ⟨S8x1x4096, .f32⟩
  | .hbm, ⟨53, _⟩ => ⟨S_, .f32⟩
  | .hbm, ⟨54, _⟩ => ⟨S8x4096x4096, .f32⟩
  | .hbm, ⟨55, _⟩ => ⟨S8x4096x4096, .f32⟩
  | .hbm, ⟨56, _⟩ => ⟨S8x4096x4096, .f32⟩
  | .hbm, ⟨57, _⟩ => ⟨S_, .f32⟩
  | .hbm, ⟨58, _⟩ => ⟨S8x4096, .f32⟩
  | .hbm, ⟨59, _⟩ => ⟨S_, .f32⟩
  | .hbm, ⟨60, _⟩ => ⟨S8x4096, .f32⟩
  | .hbm, ⟨61, _⟩ => ⟨S8x4096, .f32⟩
  | .hbm, ⟨62, _⟩ => ⟨S_, .f32⟩
  | .hbm, ⟨63, _⟩ => ⟨S8x4096, .f32⟩
  | .hbm, ⟨64, _⟩ => ⟨S8x4096, .f32⟩
  | .hbm, ⟨65, _⟩ => ⟨S8x4096, .i1⟩
  | .hbm, ⟨66, _⟩ => ⟨S8x4096x1, .i1⟩
  | .hbm, ⟨67, _⟩ => ⟨S8x4096x1, .f32⟩
  | .hbm, ⟨68, _⟩ => ⟨S8x4096x4, .f32⟩
  | .hbm, ⟨69, _⟩ => ⟨S8x4096x4, .f32⟩
  | _, _ => ⟨S8x4096x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_c : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_cst : Ref sig .tc := ⟨.hbm, 53, rfl⟩
abbrev main_call0_v0 : Ref sig .tc := ⟨.hbm, 54, rfl⟩
abbrev main_call0_v1 : Ref sig .tc := ⟨.hbm, 55, rfl⟩
abbrev main_v50 : Ref sig .tc := ⟨.hbm, 56, rfl⟩
abbrev main_cst_0 : Ref sig .tc := ⟨.hbm, 57, rfl⟩
abbrev main_v51 : Ref sig .tc := ⟨.hbm, 58, rfl⟩
abbrev main_cst_1 : Ref sig .tc := ⟨.hbm, 59, rfl⟩
abbrev main_v52 : Ref sig .tc := ⟨.hbm, 60, rfl⟩
abbrev main_v53 : Ref sig .tc := ⟨.hbm, 61, rfl⟩
abbrev main_cst_2 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩

abbrev nD : Nat := 1
abbrev τ : Topo := Topo.v7x

variable {F : FTy → Type} [FloatOps F]

class Facts₀ : Prop where
  slices_S8x4096x4_S8x4096x1_0_0_0 : S8x4096x4.Slices ![0, 0, 0] S8x4096x1
  shapeCasts_S8x4096x1_S8x4096 : S8x4096x1.ShapeCasts S8x4096
  slices_S8x4096x4_S8x4096x1_0_0_1 : S8x4096x4.Slices ![0, 0, 1] S8x4096x1
  slices_S8x4096x4_S8x4096x1_0_0_2 : S8x4096x4.Slices ![0, 0, 2] S8x4096x1
  slices_S8x4096x4_S8x4096x1_0_0_3 : S8x4096x4.Slices ![0, 0, 3] S8x4096x1
  bcast_S8x4096_S8x1x4096_0_2 : S8x4096.BroadcastsInDim S8x1x4096 (![0, 2] : Fin 2 → Fin S8x1x4096.rank)
  bcast_S8x4096_S8x4096x1_0_1 : S8x4096.BroadcastsInDim S8x4096x1 (![0, 1] : Fin 2 → Fin S8x4096x1.rank)
  bcast_S8x1x4096_S8x4096x4096_0_1_2 : S8x1x4096.BroadcastsInDim S8x4096x4096 (![0, 1, 2] : Fin 3 → Fin S8x4096x4096.rank)
  bcast_S8x4096x1_S8x4096x4096_0_1_2 : S8x4096x1.BroadcastsInDim S8x4096x4096 (![0, 1, 2] : Fin 3 → Fin S8x4096x4096.rank)
  bcast_S_S4096x4096 : S_.BroadcastsInDim S4096x4096 (![] : Fin 0 → Fin S4096x4096.rank)
  bcast_S4096x4096_S1x4096x4096_1_2 : S4096x4096.BroadcastsInDim S1x4096x4096 (![1, 2] : Fin 2 → Fin S1x4096x4096.rank)
  bcast_S1x4096x4096_S8x4096x4096_0_1_2 : S1x4096x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d2 : S8x4096x4096.ReducesTo [2] S8x4096
  h_S_ : 0 < S_.numel
  bcast_S_S8x4096 : S_.BroadcastsInDim S8x4096 (![] : Fin 0 → Fin S8x4096.rank)
  bcast_S8x4096x1_S8x4096x4_0_1_2 : S8x4096x1.BroadcastsInDim S8x4096x4 (![0, 1, 2] : Fin 3 → Fin S8x4096x4.rank)

variable [Facts₀]

class Facts : Prop extends Facts₀ where

variable [Facts]
-- ==== Proof.KB.Runs.lean ====
/-
  What the three runs of the kernel body share: the arrays as the region finds them, each window's block at a
  grid point, the two branch conditions in closed form over the grid (the point's position in its row of eight),
  where the two result windows are idle, and the staging and scratch memrefs the body is called with.

  The grid is 8 × 8 × 8, the last axis fastest: point `t` has column block `t % 8`. The running row sums are reset
  at column block 0, added to at every point, and turned into the two results at column block 7, the only points
  where the result windows are stored and written back.
-/
import proofs.«136803_j33380485824748_1_alg».proof.Proof.Gen.Kernel.Launch
import proofs.«136803_j33380485824748_1_alg».proof.Proof.Gen.Kernel.Skeleton
import proofs.«136803_j33380485824748_1_alg».proof.Proof.Gen.Kernel.Points
import Idealize.ShloMosaic.Lib.Pipeline.FrameBody
import Idealize.ShloMosaic.Lib.Pipeline.FrameSuffix
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered -/

/-- Core `c`'s buffers at launch, as a valuation, -/
abbrev V₀ (c : Dev nD) : Valuation τ sig (Elt F) := fun b => m (c, b)
/-- after the one host line before the region (the class words reshaped to a column), -/
abbrev V0 (c : Dev nD) : Valuation τ sig (Elt F) := StableHlo.after hostOps0 (V₀ m c)
/-- and the same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: between two
    fetches the block index does not move and the body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- "This is the first column block": the reset's condition, as the body computes it from the grid coordinates. -/
abbrev cond0_0 (i : grid0.Coords) : Prop := (Scalar.cmpi .ne (Scalar.extui (Scalar.cmpi .eq (BitVec.ofNat 32 (i 2).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last column block": the condition under which the results are stored. -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
/-- Off the last column block the two result windows are idle and not written back; on it they are live. -/
theorem idleAt0_4 : ∀ t : Fin cfg0.N, ¬cond0_1 (grid0.coords t) → cfg0.idle 4 (grid0.coords t) = true := by decide +kernel
theorem idleAt0_5 : ∀ t : Fin cfg0.N, ¬cond0_1 (grid0.coords t) → cfg0.idle 5 (grid0.coords t) = true := by decide +kernel
theorem noFlush0_4 : ∀ t : Fin cfg0.N, ¬cond0_1 (grid0.coords t) → (cfg0.win 4).flush t = false := by decide +kernel
theorem noFlush0_5 : ∀ t : Fin cfg0.N, ¬cond0_1 (grid0.coords t) → (cfg0.win 5).flush t = false := by decide +kernel
theorem liveAt0_4 : ∀ t : Fin cfg0.N, cond0_1 (grid0.coords t) → cfg0.idle 4 (grid0.coords t) = false := by decide +kernel
theorem liveAt0_5 : ∀ t : Fin cfg0.N, cond0_1 (grid0.coords t) → cfg0.idle 5 (grid0.coords t) = false := by decide +kernel

/-! ## The memrefs the body is called with -/

/-- One staging buffer of each result window, through which its contents are stated. -/
abbrev VO0_4 : View sig .tc .vmem S1x512x4 .f32 := (Memref.whole cc0_stg4_0 : Memref sig .tc .vmem S1x512x4 .f32).view
abbrev VO0_5 : View sig .tc .vmem S1x512x1 .i32 := (Memref.whole cc0_stg5_0 : Memref sig .tc .vmem S1x512x1 .i32).view
/-- Each window's current staging memref at point `t`, and its wholeness. -/
abbrev ms0_0 (t : Fin cfg0.N) : Memref sig .tc .vmem S1x512x4 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x4 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x1 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512x4 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512x1 .i32 := win0_5.stage (cfg0.slots t 5)
abbrev hs0_5 (t : Fin cfg0.N) : (ms0_5 t).IsWhole := hstage0_5 ((cfg0.slots t 5).cast nbuf0_5)
/-- The scratch holding the running row sums, a whole scoped buffer, and as a view. -/
abbrev scM0_0 : Memref sig .tc .vmem S512x1 .f32 := Memref.whole cc0_scratch0
abbrev VS0_0 : View sig .tc .vmem S512x1 .f32 := scM0_0.view

/-- The region's plain invariant (the scratch at some contents, the generator register at some state) with the
    scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Fr

end
-- ==== Proof.KB.RunA.lean ====
/-
  The kernel body run at a point of the FIRST column block: the running row sums are reset to zero, the block's
  contribution is added, and nothing is stored into the two result windows, which are handed back untouched.
  The run finds the pieces the stores leave in the scratch; they are its witness.
-/
import proofs.«136803_j33380485824748_1_alg».proof.Proof.KB.Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Case A (reset taken, results not stored). -/
noncomputable def kernelRun0_A (c : Dev nD) (i : grid0.Coords) (arg3 : Memref sig .tc .vmem S1x512x4 .f32) (harg3 : arg3.IsWhole) (arg4 : Memref sig .tc .vmem S1x512x4 .f32) (harg4 : arg4.IsWhole) (arg5 : Memref sig .tc .vmem S1x512x1 .i32) (harg5 : arg5.IsWhole) (arg6 : Memref sig .tc .vmem S1x512x1 .i32) (harg6 : arg6.IsWhole) (arg7 : Memref sig .tc .vmem S1x512x4 .f32) (harg7 : arg7.IsWhole) (arg8 : Memref sig .tc .vmem S1x512x1 .i32) (harg8 : arg8.IsWhole) (arg9 : Memref sig .tc .vmem S512x1 .f32) (harg9 : arg9.IsWhole) (hc0 : cond0_0 i) (hc1 : ¬cond0_1 i)
    (x0 : Vec F S1x512x4 .f32) (x1 : Vec F S1x512x4 .f32) (x2 : Vec F S1x512x1 .i32) (x3 : Vec F S1x512x1 .i32) :
    { LS0 : List (View.Piece (Elt F) S512x1 .f32) //
      ∀ (xi4 : Vec F S1x512x4 .f32) (xi5 : Vec F S1x512x1 .i32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc0__kernel i arg3 harg3 arg4 harg4 arg5 harg5 arg6 harg6 arg7 harg7 arg8 harg8 arg9 harg9) K } := by
  refine ⟨?_, fun xi4 xi5 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.Kernel.Fr

end
-- ==== Proof.KB.RunB.lean ====
/-
  The kernel body run at a point of a MIDDLE column block: the block's contribution is added to the running row
  sums the point before left, and the two result windows are handed back untouched.
-/
import proofs.«136803_j33380485824748_1_alg».proof.Proof.KB.RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Case B (reset not taken, results not stored). -/
noncomputable def kernelRun0_B (c : Dev nD) (i : grid0.Coords) (arg3 : Memref sig .tc .vmem S1x512x4 .f32) (harg3 : arg3.IsWhole) (arg4 : Memref sig .tc .vmem S1x512x4 .f32) (harg4 : arg4.IsWhole) (arg5 : Memref sig .tc .vmem S1x512x1 .i32) (harg5 : arg5.IsWhole) (arg6 : Memref sig .tc .vmem S1x512x1 .i32) (harg6 : arg6.IsWhole) (arg7 : Memref sig .tc .vmem S1x512x4 .f32) (harg7 : arg7.IsWhole) (arg8 : Memref sig .tc .vmem S1x512x1 .i32) (harg8 : arg8.IsWhole) (arg9 : Memref sig .tc .vmem S512x1 .f32) (harg9 : arg9.IsWhole) (hc0 : ¬cond0_0 i) (hc1 : ¬cond0_1 i)
    (x0 : Vec F S1x512x4 .f32) (x1 : Vec F S1x512x4 .f32) (x2 : Vec F S1x512x1 .i32) (x3 : Vec F S1x512x1 .i32) (xs0 : Vec F S512x1 .f32) :
    { LS0 : List (View.Piece (Elt F) S512x1 .f32) //
      ∀ (xi4 : Vec F S1x512x4 .f32) (xi5 : Vec F S1x512x1 .i32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xi5 ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc0__kernel i arg3 harg3 arg4 harg4 arg5 harg5 arg6 harg6 arg7 harg7 arg8 harg8 arg9 harg9) K } := by
  refine ⟨?_, fun xi4 xi5 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.Kernel.Fr

end
-- ==== Proof.KB.RunC.lean ====
/-
  The kernel body run at a point of the LAST column block: the block's contribution is added to the running row
  sums, and from the finished sums the keep bits and the masked boxes are stored into the two result windows.
-/
import proofs.«136803_j33380485824748_1_alg».proof.Proof.KB.RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Case C (reset not taken, results stored). -/
noncomputable def kernelRun0_C (c : Dev nD) (i : grid0.Coords) (arg3 : Memref sig .tc .vmem S1x512x4 .f32) (harg3 : arg3.IsWhole) (arg4 : Memref sig .tc .vmem S1x512x4 .f32) (harg4 : arg4.IsWhole) (arg5 : Memref sig .tc .vmem S1x512x1 .i32) (harg5 : arg5.IsWhole) (arg6 : Memref sig .tc .vmem S1x512x1 .i32) (harg6 : arg6.IsWhole) (arg7 : Memref sig .tc .vmem S1x512x4 .f32) (harg7 : arg7.IsWhole) (arg8 : Memref sig .tc .vmem S1x512x1 .i32) (harg8 : arg8.IsWhole) (arg9 : Memref sig .tc .vmem S512x1 .f32) (harg9 : arg9.IsWhole) (hc0 : ¬cond0_0 i) (hc1 : cond0_1 i)
    (x0 : Vec F S1x512x4 .f32) (x1 : Vec F S1x512x4 .f32) (x2 : Vec F S1x512x1 .i32) (x3 : Vec F S1x512x1 .i32) (xs0 : Vec F S512x1 .f32) :
    Σ' (L4 : List (View.Piece (Elt F) S1x512x4 .f32)) (L5 : List (View.Piece (Elt F) S1x512x1 .i32)), { LS0 : List (View.Piece (Elt F) S512x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc0__kernel i arg3 harg3 arg4 harg4 arg5 harg5 arg6 harg6 arg7 harg7 arg8 harg8 arg9 harg9) K } := by
  refine ⟨?_, ?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3
    obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [H5]; · iexists _; iexact H5
    iexists _; iexact HS0

end Cert.Kernel.Fr

end
-- ==== Proof.KB.Data.lean ====
/-
  What the kernel leaves behind, point by point, and the pipeline's proof data.

  After the body at point `t` the scratch holds the running row sums: at a first column block the block's
  contribution over zero, elsewhere the contribution over what the point before left. At a last column block the
  two result windows hold the masked boxes and the keep words computed from the finished sums; at the other
  points they are idle. `outsAt0` is that recursion over the points; the region's invariant carries the scratch
  at its component; the body obligation is a case split on the point's column block, each case one run.
-/
import proofs.«136803_j33380485824748_1_alg».proof.Proof.KB.RunC
import Idealize.ShloMosaic.Lib.Ring

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

theorem scover0_A (c : Dev nD) (i : grid0.Coords) (arg3 : Memref sig .tc .vmem S1x512x4 .f32) (harg3 : arg3.IsWhole) (arg4 : Memref sig .tc .vmem S1x512x4 .f32) (harg4 : arg4.IsWhole) (arg5 : Memref sig .tc .vmem S1x512x1 .i32) (harg5 : arg5.IsWhole) (arg6 : Memref sig .tc .vmem S1x512x1 .i32) (harg6 : arg6.IsWhole) (arg7 : Memref sig .tc .vmem S1x512x4 .f32) (harg7 : arg7.IsWhole) (arg8 : Memref sig .tc .vmem S1x512x1 .i32) (harg8 : arg8.IsWhole) (arg9 : Memref sig .tc .vmem S512x1 .f32) (harg9 : arg9.IsWhole) (hc0 : cond0_0 i) (hc1 : ¬cond0_1 i)
    (x0 : Vec F S1x512x4 .f32) (x1 : Vec F S1x512x4 .f32) (x2 : Vec F S1x512x1 .i32) (x3 : Vec F S1x512x1 .i32) (y : S512x1.Idx) :
    ∃ pc ∈ (kernelRun0_A c i arg3 harg3 arg4 harg4 arg5 harg5 arg6 harg6 arg7 harg7 arg8 harg8 arg9 harg9 hc0 hc1 x0 x1 x2 x3).1, y ∈ pc.1.set :=
  View.cover_of_tiledL (kernelRun0_A c i arg3 harg3 arg4 harg4 arg5 harg5 arg6 harg6 arg7 harg7 arg8 harg8 arg9 harg9 hc0 hc1 x0 x1 x2 x3).1 S512x1.size (by sl_kernel_rfl) y

/-- What case A leaves in the scratch: its pieces read back. -/
def sout0_A (c : Dev nD) (i : grid0.Coords) (arg3 : Memref sig .tc .vmem S1x512x4 .f32) (harg3 : arg3.IsWhole) (arg4 : Memref sig .tc .vmem S1x512x4 .f32) (harg4 : arg4.IsWhole) (arg5 : Memref sig .tc .vmem S1x512x1 .i32) (harg5 : arg5.IsWhole) (arg6 : Memref sig .tc .vmem S1x512x1 .i32) (harg6 : arg6.IsWhole) (arg7 : Memref sig .tc .vmem S1x512x4 .f32) (harg7 : arg7.IsWhole) (arg8 : Memref sig .tc .vmem S1x512x1 .i32) (harg8 : arg8.IsWhole) (arg9 : Memref sig .tc .vmem S512x1 .f32) (harg9 : arg9.IsWhole) (hc0 : cond0_0 i) (hc1 : ¬cond0_1 i)
    (x0 : Vec F S1x512x4 .f32) (x1 : Vec F S1x512x4 .f32) (x2 : Vec F S1x512x1 .i32) (x3 : Vec F S1x512x1 .i32) : Vec F S512x1 .f32 :=
  VS0_0.read (Elt F) (VS0_0.writes (Elt F) VS0_0.junk (kernelRun0_A c i arg3 harg3 arg4 harg4 arg5 harg5 arg6 harg6 arg7 harg7 arg8 harg8 arg9 harg9 hc0 hc1 x0 x1 x2 x3).1)

theorem scover0_B (c : Dev nD) (i : grid0.Coords) (arg3 : Memref sig .tc .vmem S1x512x4 .f32) (harg3 : arg3.IsWhole) (arg4 : Memref sig .tc .vmem S1x512x4 .f32) (harg4 : arg4.IsWhole) (arg5 : Memref sig .tc .vmem S1x512x1 .i32) (harg5 : arg5.IsWhole) (arg6 : Memref sig .tc .vmem S1x512x1 .i32) (harg6 : arg6.IsWhole) (arg7 : Memref sig .tc .vmem S1x512x4 .f32) (harg7 : arg7.IsWhole) (arg8 : Memref sig .tc .vmem S1x512x1 .i32) (harg8 : arg8.IsWhole) (arg9 : Memref sig .tc .vmem S512x1 .f32) (harg9 : arg9.IsWhole) (hc0 : ¬cond0_0 i) (hc1 : ¬cond0_1 i)
    (x0 : Vec F S1x512x4 .f32) (x1 : Vec F S1x512x4 .f32) (x2 : Vec F S1x512x1 .i32) (x3 : Vec F S1x512x1 .i32) (xs0 : Vec F S512x1 .f32) (y : S512x1.Idx) :
    ∃ pc ∈ (kernelRun0_B c i arg3 harg3 arg4 harg4 arg5 harg5 arg6 harg6 arg7 harg7 arg8 harg8 arg9 harg9 hc0 hc1 x0 x1 x2 x3 xs0).1, y ∈ pc.1.set :=
  View.cover_of_tiledL (kernelRun0_B c i arg3 harg3 arg4 harg4 arg5 harg5 arg6 harg6 arg7 harg7 arg8 harg8 arg9 harg9 hc0 hc1 x0 x1 x2 x3 xs0).1 S512x1.size (by sl_kernel_rfl) y

/-- What case B leaves in the scratch. -/
def sout0_B (c : Dev nD) (i : grid0.Coords) (arg3 : Memref sig .tc .vmem S1x512x4 .f32) (harg3 : arg3.IsWhole) (arg4 : Memref sig .tc .vmem S1x512x4 .f32) (harg4 : arg4.IsWhole) (arg5 : Memref sig .tc .vmem S1x512x1 .i32) (harg5 : arg5.IsWhole) (arg6 : Memref sig .tc .vmem S1x512x1 .i32) (harg6 : arg6.IsWhole) (arg7 : Memref sig .tc .vmem S1x512x4 .f32) (harg7 : arg7.IsWhole) (arg8 : Memref sig .tc .vmem S1x512x1 .i32) (harg8 : arg8.IsWhole) (arg9 : Memref sig .tc .vmem S512x1 .f32) (harg9 : arg9.IsWhole) (hc0 : ¬cond0_0 i) (hc1 : ¬cond0_1 i)
    (x0 : Vec F S1x512x4 .f32) (x1 : Vec F S1x512x4 .f32) (x2 : Vec F S1x512x1 .i32) (x3 : Vec F S1x512x1 .i32) (xs0 : Vec F S512x1 .f32) : Vec F S512x1 .f32 :=
  VS0_0.read (Elt F) (VS0_0.writes (Elt F) VS0_0.junk (kernelRun0_B c i arg3 harg3 arg4 harg4 arg5 harg5 arg6 harg6 arg7 harg7 arg8 harg8 arg9 harg9 hc0 hc1 x0 x1 x2 x3 xs0).1)

theorem cover0_C_4 (c : Dev nD) (i : grid0.Coords) (arg3 : Memref sig .tc .vmem S1x512x4 .f32) (harg3 : arg3.IsWhole) (arg4 : Memref sig .tc .vmem S1x512x4 .f32) (harg4 : arg4.IsWhole) (arg5 : Memref sig .tc .vmem S1x512x1 .i32) (harg5 : arg5.IsWhole) (arg6 : Memref sig .tc .vmem S1x512x1 .i32) (harg6 : arg6.IsWhole) (arg7 : Memref sig .tc .vmem S1x512x4 .f32) (harg7 : arg7.IsWhole) (arg8 : Memref sig .tc .vmem S1x512x1 .i32) (harg8 : arg8.IsWhole) (arg9 : Memref sig .tc .vmem S512x1 .f32) (harg9 : arg9.IsWhole) (hc0 : ¬cond0_0 i) (hc1 : cond0_1 i)
    (x0 : Vec F S1x512x4 .f32) (x1 : Vec F S1x512x4 .f32) (x2 : Vec F S1x512x1 .i32) (x3 : Vec F S1x512x1 .i32) (xs0 : Vec F S512x1 .f32) (y : S1x512x4.Idx) :
    ∃ pc ∈ (kernelRun0_C c i arg3 harg3 arg4 harg4 arg5 harg5 arg6 harg6 arg7 harg7 arg8 harg8 arg9 harg9 hc0 hc1 x0 x1 x2 x3 xs0).1, y ∈ pc.1.set :=
  View.cover_of_tiledL (kernelRun0_C c i arg3 harg3 arg4 harg4 arg5 harg5 arg6 harg6 arg7 harg7 arg8 harg8 arg9 harg9 hc0 hc1 x0 x1 x2 x3 xs0).1 S1x512x4.size (by sl_kernel_rfl) y
theorem cover0_C_5 (c : Dev nD) (i : grid0.Coords) (arg3 : Memref sig .tc .vmem S1x512x4 .f32) (harg3 : arg3.IsWhole) (arg4 : Memref sig .tc .vmem S1x512x4 .f32) (harg4 : arg4.IsWhole) (arg5 : Memref sig .tc .vmem S1x512x1 .i32) (harg5 : arg5.IsWhole) (arg6 : Memref sig .tc .vmem S1x512x1 .i32) (harg6 : arg6.IsWhole) (arg7 : Memref sig .tc .vmem S1x512x4 .f32) (harg7 : arg7.IsWhole) (arg8 : Memref sig .tc .vmem S1x512x1 .i32) (harg8 : arg8.IsWhole) (arg9 : Memref sig .tc .vmem S512x1 .f32) (harg9 : arg9.IsWhole) (hc0 : ¬cond0_0 i) (hc1 : cond0_1 i)
    (x0 : Vec F S1x512x4 .f32) (x1 : Vec F S1x512x4 .f32) (x2 : Vec F S1x512x1 .i32) (x3 : Vec F S1x512x1 .i32) (xs0 : Vec F S512x1 .f32) (y : S1x512x1.Idx) :
    ∃ pc ∈ (kernelRun0_C c i arg3 harg3 arg4 harg4 arg5 harg5 arg6 harg6 arg7 harg7 arg8 harg8 arg9 harg9 hc0 hc1 x0 x1 x2 x3 xs0).2.1, y ∈ pc.1.set :=
  View.cover_of_tiledL (kernelRun0_C c i arg3 harg3 arg4 harg4 arg5 harg5 arg6 harg6 arg7 harg7 arg8 harg8 arg9 harg9 hc0 hc1 x0 x1 x2 x3 xs0).2.1 S1x512x1.size (by sl_kernel_rfl) y
theorem scover0_C (c : Dev nD) (i : grid0.Coords) (arg3 : Memref sig .tc .vmem S1x512x4 .f32) (harg3 : arg3.IsWhole) (arg4 : Memref sig .tc .vmem S1x512x4 .f32) (harg4 : arg4.IsWhole) (arg5 : Memref sig .tc .vmem S1x512x1 .i32) (harg5 : arg5.IsWhole) (arg6 : Memref sig .tc .vmem S1x512x1 .i32) (harg6 : arg6.IsWhole) (arg7 : Memref sig .tc .vmem S1x512x4 .f32) (harg7 : arg7.IsWhole) (arg8 : Memref sig .tc .vmem S1x512x1 .i32) (harg8 : arg8.IsWhole) (arg9 : Memref sig .tc .vmem S512x1 .f32) (harg9 : arg9.IsWhole) (hc0 : ¬cond0_0 i) (hc1 : cond0_1 i)
    (x0 : Vec F S1x512x4 .f32) (x1 : Vec F S1x512x4 .f32) (x2 : Vec F S1x512x1 .i32) (x3 : Vec F S1x512x1 .i32) (xs0 : Vec F S512x1 .f32) (y : S512x1.Idx) :
    ∃ pc ∈ (kernelRun0_C c i arg3 harg3 arg4 harg4 arg5 harg5 arg6 harg6 arg7 harg7 arg8 harg8 arg9 harg9 hc0 hc1 x0 x1 x2 x3 xs0).2.2.1, y ∈ pc.1.set :=
  View.cover_of_tiledL (kernelRun0_C c i arg3 harg3 arg4 harg4 arg5 harg5 arg6 harg6 arg7 harg7 arg8 harg8 arg9 harg9 hc0 hc1 x0 x1 x2 x3 xs0).2.2.1 S512x1.size (by sl_kernel_rfl) y

/-- What case C leaves in the boxes' result window, in the keep words' result window, and in the scratch. -/
def out0_C_4 (c : Dev nD) (i : grid0.Coords) (arg3 : Memref sig .tc .vmem S1x512x4 .f32) (harg3 : arg3.IsWhole) (arg4 : Memref sig .tc .vmem S1x512x4 .f32) (harg4 : arg4.IsWhole) (arg5 : Memref sig .tc .vmem S1x512x1 .i32) (harg5 : arg5.IsWhole) (arg6 : Memref sig .tc .vmem S1x512x1 .i32) (harg6 : arg6.IsWhole) (arg7 : Memref sig .tc .vmem S1x512x4 .f32) (harg7 : arg7.IsWhole) (arg8 : Memref sig .tc .vmem S1x512x1 .i32) (harg8 : arg8.IsWhole) (arg9 : Memref sig .tc .vmem S512x1 .f32) (harg9 : arg9.IsWhole) (hc0 : ¬cond0_0 i) (hc1 : cond0_1 i)
    (x0 : Vec F S1x512x4 .f32) (x1 : Vec F S1x512x4 .f32) (x2 : Vec F S1x512x1 .i32) (x3 : Vec F S1x512x1 .i32) (xs0 : Vec F S512x1 .f32) : Vec F S1x512x4 .f32 :=
  VO0_4.read (Elt F) (VO0_4.writes (Elt F) VO0_4.junk (kernelRun0_C c i arg3 harg3 arg4 harg4 arg5 harg5 arg6 harg6 arg7 harg7 arg8 harg8 arg9 harg9 hc0 hc1 x0 x1 x2 x3 xs0).1)
def out0_C_5 (c : Dev nD) (i : grid0.Coords) (arg3 : Memref sig .tc .vmem S1x512x4 .f32) (harg3 : arg3.IsWhole) (arg4 : Memref sig .tc .vmem S1x512x4 .f32) (harg4 : arg4.IsWhole) (arg5 : Memref sig .tc .vmem S1x512x1 .i32) (harg5 : arg5.IsWhole) (arg6 : Memref sig .tc .vmem S1x512x1 .i32) (harg6 : arg6.IsWhole) (arg7 : Memref sig .tc .vmem S1x512x4 .f32) (harg7 : arg7.IsWhole) (arg8 : Memref sig .tc .vmem S1x512x1 .i32) (harg8 : arg8.IsWhole) (arg9 : Memref sig .tc .vmem S512x1 .f32) (harg9 : arg9.IsWhole) (hc0 : ¬cond0_0 i) (hc1 : cond0_1 i)
    (x0 : Vec F S1x512x4 .f32) (x1 : Vec F S1x512x4 .f32) (x2 : Vec F S1x512x1 .i32) (x3 : Vec F S1x512x1 .i32) (xs0 : Vec F S512x1 .f32) : Vec F S1x512x1 .i32 :=
  VO0_5.read (Elt F) (VO0_5.writes (Elt F) VO0_5.junk (kernelRun0_C c i arg3 harg3 arg4 harg4 arg5 harg5 arg6 harg6 arg7 harg7 arg8 harg8 arg9 harg9 hc0 hc1 x0 x1 x2 x3 xs0).2.1)
def sout0_C (c : Dev nD) (i : grid0.Coords) (arg3 : Memref sig .tc .vmem S1x512x4 .f32) (harg3 : arg3.IsWhole) (arg4 : Memref sig .tc .vmem S1x512x4 .f32) (harg4 : arg4.IsWhole) (arg5 : Memref sig .tc .vmem S1x512x1 .i32) (harg5 : arg5.IsWhole) (arg6 : Memref sig .tc .vmem S1x512x1 .i32) (harg6 : arg6.IsWhole) (arg7 : Memref sig .tc .vmem S1x512x4 .f32) (harg7 : arg7.IsWhole) (arg8 : Memref sig .tc .vmem S1x512x1 .i32) (harg8 : arg8.IsWhole) (arg9 : Memref sig .tc .vmem S512x1 .f32) (harg9 : arg9.IsWhole) (hc0 : ¬cond0_0 i) (hc1 : cond0_1 i)
    (x0 : Vec F S1x512x4 .f32) (x1 : Vec F S1x512x4 .f32) (x2 : Vec F S1x512x1 .i32) (x3 : Vec F S1x512x1 .i32) (xs0 : Vec F S512x1 .f32) : Vec F S512x1 .f32 :=
  VS0_0.read (Elt F) (VS0_0.writes (Elt F) VS0_0.junk (kernelRun0_C c i arg3 harg3 arg4 harg4 arg5 harg5 arg6 harg6 arg7 harg7 arg8 harg8 arg9 harg9 hc0 hc1 x0 x1 x2 x3 xs0).2.2.1)

/-- The placeholders for a result window at a point that stores nothing into it (never consulted: the window is
    neither written back there nor read at the next point). -/
def idle4 : Vec F S1x512x4 .f32 := VO0_4.read (Elt F) VO0_4.junk
def idle5 : Vec F S1x512x1 .i32 := VO0_5.read (Elt F) VO0_5.junk

/-! ## Point by point -/

/-- What the two result windows' staging buffers and the scratch hold after the body at position `n`. -/
def outsAt0 (c : Dev nD) : (n : ℕ) → n < cfg0.N → Vec F S1x512x4 .f32 × Vec F S1x512x1 .i32 × Vec F S512x1 .f32
  | 0, hn => (idle4, idle5, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 8 = 0 then
      (idle4, idle5, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => (fun h => by (try dsimp only at h); omega) ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 8 = 7 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2,
         out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2,
         sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2)
      else
        (idle4, idle5, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2)

/-- At a first column block: case A's contents. -/
theorem outsAt0_A (c : Dev nD) (t : Fin cfg0.N) (h0 : t.val % 8 = 0) (h1 : ¬t.val % 8 = 7) :
    outsAt0 m c t.val t.isLt = (idle4, idle5, sout0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans rfl

/-- At a middle column block: case B's contents, over what the point before left. -/
theorem outsAt0_B (c : Dev nD) (t : Fin cfg0.N) (h0 : ¬t.val % 8 = 0) (h1 : ¬t.val % 8 = 7) :
    outsAt0 m c t.val t.isLt = (idle4, idle5, sout0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- At a last column block: case C's contents, over what the point before left. -/
theorem outsAt0_C (c : Dev nD) (t : Fin cfg0.N) (h0 : ¬t.val % 8 = 0) (h1 : t.val % 8 = 7) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2,
      out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2,
      sout0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the plain one (the scratch at anything);
    afterwards the scratch at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl
theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

/-! ## The pipeline's proof data -/

/-- Half of the full share: the two windows that read the boxes' array hold one half each, and so do the two
    that read the class words' column. -/
abbrev halfL : PosShare TreeShare := fullShare.left
abbrev halfR : PosShare TreeShare := fullShare.right

/-- The proof data on core `c`: the arrays as the region finds them; after the body each input's buffer at its
    block and the results' at `outsAt0`; the invariant `PhiS`; nothing owed; each shared input array split in halves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
  Φ t := PhiS m c t.val (Nat.le_of_lt_succ t.isLt)
  q w := match w with
    | ⟨0, _⟩ => halfL
    | ⟨1, _⟩ => halfR
    | ⟨2, _⟩ => halfL
    | ⟨3, _⟩ => halfR
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem leaves_in0 (c : Dev nD) (t : Fin cfg0.N) : (dats m 0 c).leavesExact 0 t = owns (c : Thread nD τ) (ms0_0 t) fullShare (iblk m c 0 t) := by
  unfold Dat.leavesExact; rw [liveAt0_0 t, after0_0]
theorem leaves_in1 (c : Dev nD) (t : Fin cfg0.N) : (dats m 0 c).leavesExact 1 t = owns (c : Thread nD τ) (ms0_1 t) fullShare (iblk m c 1 t) := by
  unfold Dat.leavesExact; rw [liveAt0_1 t, after0_1]
theorem leaves_in2 (c : Dev nD) (t : Fin cfg0.N) : (dats m 0 c).leavesExact 2 t = owns (c : Thread nD τ) (ms0_2 t) fullShare (iblk m c 2 t) := by
  unfold Dat.leavesExact; rw [liveAt0_2 t, after0_2]
theorem leaves_in3 (c : Dev nD) (t : Fin cfg0.N) : (dats m 0 c).leavesExact 3 t = owns (c : Thread nD τ) (ms0_3 t) fullShare (iblk m c 3 t) := by
  unfold Dat.leavesExact; rw [liveAt0_3 t, after0_3]

set_option maxHeartbeats 4800000 in
/-- The body at any point: a case split on the column block, each case its run. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [leaves_in0, leaves_in1, leaves_in2, leaves_in3]
  have hN : t.val < 512 := lt_of_lt_of_eq t.isLt (show cfg0.N = 512 from N_0)
  by_cases h0 : t.val % 8 = 0
  · have h1 : ¬t.val % 8 = 7 := by omega
    rw [Dat.leavesExact_idle (dats m 0 c) 4 t (idleAt0_4 t (fun h => h1 ((hcond0_1 t).mp h))) (noFlush0_4 t (fun h => h1 ((hcond0_1 t).mp h)))]
    rw [Dat.leavesExact_idle (dats m 0 c) 5 t (idleAt0_5 t (fun h => h1 ((hcond0_1 t).mp h))) (noFlush0_5 t (fun h => h1 ((hcond0_1 t).mp h)))]
    rw [outsAt0_A m c t h0 h1]
    unfold sout0_A; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ ((hcond0_0 t).mpr h0) (fun h => h1 ((hcond0_1 t).mp h)) (iblk m c 0 t) (iblk m c 1 t) (iblk m c 2 t) (iblk m c 3 t)).2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hg]
      · isplitl [HS0]
        · unfold owns; iexists _; isplitr
          swap; · iexact HS0
          ipureintro; exact View.read_writes_of_cover _ _ _ _ _ (scover0_A c _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ ((hcond0_0 t).mpr h0) (fun h => h1 ((hcond0_1 t).mp h)) (iblk m c 0 t) (iblk m c 1 t) (iblk m c 2 t) (iblk m c 3 t)).2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      iintro ⟨H0, H1, H2, H3, H4, H5, ⟨%es0, HS0⟩⟩
      isplitl [HS0 Hg]
      · isplitl [HS0]
        · unfold owns; iexists _; isplitr
          swap; · iexact HS0
          ipureintro; exact View.read_writes_of_cover _ _ _ _ _ (scover0_A c _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
  · have hz : t.val ≠ 0 := fun h => h0 (by rw [h])
    by_cases h1 : t.val % 8 = 7
    · rw [show (dats m 0 c).leavesExact 4 t = owns (c : Thread nD τ) (ms0_4 t) fullShare ((dats m 0 c).after 4 t) from by
        unfold Dat.leavesExact; rw [liveAt0_4 t ((hcond0_1 t).mpr h1)], after0_4]
      rw [show (dats m 0 c).leavesExact 5 t = owns (c : Thread nD τ) (ms0_5 t) fullShare ((dats m 0 c).after 5 t) from by
        unfold Dat.leavesExact; rw [liveAt0_5 t ((hcond0_1 t).mpr h1)], after0_5]
      rw [outsAt0_C m c t h0 h1]
      unfold out0_C_4 out0_C_5 sout0_C; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩⟩
      iapply ((kernelRun0_C c (grid0.coords t) _ _ _ _ _ _ _ _ _ _ _ _ _ _ (fun h => h0 ((hcond0_0 t).mp h)) ((hcond0_1 t).mpr h1) (iblk m c 0 t) (iblk m c 1 t) (iblk m c 2 t) (iblk m c 3 t) _).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      iintro ⟨H0, H1, H2, H3, ⟨%e4, H4⟩, ⟨%e5, H5⟩, ⟨%es0, HS0⟩⟩
      isplitl [HS0 Hg]
      · isplitl [HS0]
        · unfold owns; iexists _; isplitr
          swap; · iexact HS0
          ipureintro; exact View.read_writes_of_cover _ _ _ _ _ (scover0_C c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_C_4 c _ _ _ _ _ _ _ _ _ _ _ _ _ _ _ _ _ _ _ _ _ _)
      unfold owns; iexists _; isplitr
      swap; · iexact H5
      ipureintro; exact View.read_writes_of_cover _ _ _ _ _ (cover0_C_5 c _ _ _ _ _ _ _ _ _ _ _ _ _ _ _ _ _ _ _ _ _ _)
    · rw [Dat.leavesExact_idle (dats m 0 c) 4 t (idleAt0_4 t (fun h => h1 ((hcond0_1 t).mp h))) (noFlush0_4 t (fun h => h1 ((hcond0_1 t).mp h)))]
      rw [Dat.leavesExact_idle (dats m 0 c) 5 t (idleAt0_5 t (fun h => h1 ((hcond0_1 t).mp h))) (noFlush0_5 t (fun h => h1 ((hcond0_1 t).mp h)))]
      rw [outsAt0_B m c t h0 h1]
      unfold sout0_B; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ (fun h => h0 ((hcond0_0 t).mp h)) (fun h => h1 ((hcond0_1 t).mp h)) (iblk m c 0 t) (iblk m c 1 t) (iblk m c 2 t) (iblk m c 3 t) _).2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hg]
      · isplitl [HS0]
        · unfold owns; iexists _; isplitr
          swap; · iexact HS0
          ipureintro; exact View.read_writes_of_cover _ _ _ _ _ (scover0_B c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point, -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the plain one back, the running sums forgotten; -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- so after the last point. -/
theorem hout (c : Dev nD) : (dats m 0 c).Φ (Fin.last cfg0.N) ⊢ Pipeline.ΦA spec0 c :=
  Phi_out m c _ (by rw [Fin.val_last]; have : cfg0.N = 512 := N_0; omega)

end Cert.Kernel.Fr

end
-- ==== Proof.KB.Exit.lean ====
/-
  The buffers' contents when the region is left and when the program ends: at the region's exit every array of
  the pipeline holds what the write-backs left in it and every other buffer what it held at the region's entry;
  the five host lines after the region compute from that.
-/
import proofs.«136803_j33380485824748_1_alg».proof.Proof.KB.Data

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host lines allocate no buffer. -/
theorem hostOps0_fresh : ∀ op ∈ (hostOps0 : List (HloOp τ sig (Elt F))), op.fresh = ∅ := by
  intro _ h; (repeat (cases h with | head => rfl | tail _ h => ?_)); exact nomatch h
theorem hostOps1_fresh : ∀ op ∈ (hostOps1 : List (HloOp τ sig (Elt F))), op.fresh = ∅ := by
  intro _ h; (repeat (cases h with | head => rfl | tail _ h => ?_)); exact nomatch h

/-- Core `c`'s buffers when the region is left: the pipeline's arrays at their final contents, the rest as the
    region found them. -/
def W1 (c : Dev nD) : Valuation τ sig (Elt F) :=
  Pipeline.withArrays spec0 c (V0 m c) (fun w => (dats m 0 c).arrAt w cfg0.N)

/-- Core `c`'s buffers when the program ends: after the host lines that follow the region. -/
def Wfin (c : Dev nD) : Valuation τ sig (Elt F) := StableHlo.after hostOps1 (W1 m c)

end Cert.Kernel.Fr

end
-- ==== Proof.KB.Launch.lean ====
/-
  The launch: the program as three stretches — the host line before the region, the region, the host lines after
  it — run one after the other from the launch memory.

  Two of the region's input windows read the boxes' array and two read the class words' column; each pair holds
  its array in two halves of the full share for the region's duration: at the region's entry the array's whole
  share is split, at its exit — an input array ends as it began — the halves are joined again. The host lines
  after the region then read the keep words the region wrote and compute the keep bits beside them.
-/
import proofs.«136803_j33380485824748_1_alg».proof.Proof.KB.Exit
import Idealize.ShloMosaic.Lib.Pipeline.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at their shares -/

/-- The pipeline's arrays, window by window, at the shares the proof data state. -/
theorem arrays_eq' (c : Dev nD) (G : (w : Fin cfg0.W) → Buf (Elt F) ((cfg0.win w).arr.view.loc (c : Thread nD τ))) :
    ((dats m 0 c).arrays G : sProp 𝕄) = iprop(
      (((c : Thread nD τ).loc main_arg0) ↦{halfL} G 0) ∗ (((c : Thread nD τ).loc main_arg0) ↦{halfR} G 1)
      ∗ (((c : Thread nD τ).loc main_v0) ↦{halfL} G 2) ∗ (((c : Thread nD τ).loc main_v0) ↦{halfR} G 3)
      ∗ (((c : Thread nD τ).loc main_v1_0) ↦{fullShare} G 4) ∗ (((c : Thread nD τ).loc main_v1_1) ↦{fullShare} G 5)) := by
  unfold Dat.arrays
  rw [bigSep_W0, (arr_whole0 0).set_eq_univ, (arr_whole0 2).set_eq_univ, (arr_whole0 4).set_eq_univ, (arr_whole0 5).set_eq_univ]
  rfl

/-- The buffers behind the windows' arrays, whole at contents `Vr`, listed. -/
theorem arrBufs_eq' (c : Dev nD) (Vr : (b : Ref sig .tc) → Buf (Elt F) ((c : Thread nD τ).loc b)) :
    (Pipeline.arrBufs spec0 c Vr : sProp 𝕄) = iprop(
      (((c : Thread nD τ).loc main_arg0) ↦{fullShare} Vr main_arg0) ∗ (((c : Thread nD τ).loc main_v0) ↦{fullShare} Vr main_v0)
      ∗ (((c : Thread nD τ).loc main_v1_0) ↦{fullShare} Vr main_v1_0) ∗ (((c : Thread nD τ).loc main_v1_1) ↦{fullShare} Vr main_v1_1)) := by
  unfold Pipeline.arrBufs
  exact bigSep_eq_bigSepL_of_eq [main_arg0, main_v0, main_v1_0, main_v1_1] (by decide) (by decide) _

/-- ENTRY: the arrays' buffers, each whole, make the pipeline's arrays at the same contents, the two shared ones
    split in halves. -/
theorem arrays_split (c : Dev nD) (Vr : (b : Ref sig .tc) → Buf (Elt F) ((c : Thread nD τ).loc b))
    (G : (w : Fin cfg0.W) → Buf (Elt F) ((cfg0.win w).arr.view.loc (c : Thread nD τ))) (hG : ∀ w, G w = Vr (Pipeline.arrRef spec0 w)) :
    (Pipeline.arrBufs spec0 c Vr : sProp 𝕄) ⊢ (dats m 0 c).arrays G := by
  rw [arrBufs_eq', arrays_eq', hG 0, hG 1, hG 2, hG 3, hG 4, hG 5]
  iintro ⟨H0, H2, H4, H5⟩
  ihave H0 := (pointsTo_share (PosShare.mem_left_op_right fullShare)).1 $$ H0
  icases H0 with ⟨H0, H1⟩
  ihave H2 := (pointsTo_share (PosShare.mem_left_op_right fullShare)).1 $$ H2
  icases H2 with ⟨H2, H3⟩
  isplitl [H0]; · iexact H0
  isplitl [H1]; · iexact H1
  isplitl [H2]; · iexact H2
  isplitl [H3]; · iexact H3
  isplitl [H4]; · iexact H4
  iexact H5

/-- EXIT: the pipeline's arrays, the two windows of each shared array at the same contents, make the arrays'
    buffers whole again. -/
theorem arrays_join (c : Dev nD) (Vr : (b : Ref sig .tc) → Buf (Elt F) ((c : Thread nD τ).loc b))
    (G : (w : Fin cfg0.W) → Buf (Elt F) ((cfg0.win w).arr.view.loc (c : Thread nD τ))) (hG : ∀ w, G w = Vr (Pipeline.arrRef spec0 w)) :
    (dats m 0 c).arrays G ⊢ (Pipeline.arrBufs spec0 c Vr : sProp 𝕄) := by
  rw [arrBufs_eq', arrays_eq', hG 0, hG 1, hG 2, hG 3, hG 4, hG 5]
  iintro ⟨H0, H1, H2, H3, H4, H5⟩
  isplitl [H0 H1]
  · iapply (pointsTo_share (PosShare.mem_left_op_right fullShare)).2
    isplitl [H0] <;> iassumption
  isplitl [H2 H3]
  · iapply (pointsTo_share (PosShare.mem_left_op_right fullShare)).2
    isplitl [H2] <;> iassumption
  isplitl [H4]; · iexact H4
  iexact H5

/-! ## The segments -/

/-- The pipeline library's algebra is the whole user algebra. -/
abbrev EP : Emb (UR sig nD τ) (MT nD τ sig Unit (Elt F) ℕ (UR sig nD τ) ℕ) := emb₁
abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm

/-- What rides beside the buffers through the host lines: the core's `owes` and its generator register. -/
abbrev R (c : Dev nD) : sProp 𝕄 :=
  iprop((∃ W, owes (c : Thread nD τ) (0 : CellTallies nD τ sig Unit) W) ∗ ∃ r, prngReg c r)

/-- The host line before the region, over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    hostOps0_fresh (V₀ m) R

/-- The host lines after the region, from the region's exit contents. -/
def seg1 : Pipeline.HostSeg (Name := ℕ) (U := UR sig nD τ) (pcfgs (F := F)) defs₀ 𝒱₀ L lv :=
  Pipeline.HostSeg.ofOps _ _ _ _ _ (Pipeline.ucRefs τ sig) hostOps1 (fun op h => Pipeline.sub_ucRefs op ((List.forall_iff_forall_mem.mp hostOps1_sub) op h))
    hostOps1_fresh (W1 m) R

/-! ## Entry and exit of the region -/

/-- An input window's array ends as the region found it. -/
theorem arrAt_in' (c : Dev nD) (w : Fin cfg0.W) (hw : (cfg0.win w).isOut = false) (n : ℕ) :
    (dats m 0 c).arrAt w n = V m c (Pipeline.arrRef spec0 w) :=
  ((dats m 0 c).arrAt_in w hw n).trans (A_eq m c w)

/-- The library's exit valuation read at a window's array, for windows that may share arrays: the two windows of a
    shared array holding the same contents, whichever of them is asked the answer is the same. -/
theorem withArrays_arr' (c : Dev nD) (Vv : Valuation τ sig (Elt F))
    (A : (w : Fin cfg0.W) → Buf (Elt F) ((spec0 w).arr.view.loc (c : Thread nD τ)))
    (h01 : A 0 = A 1) (h23 : A 2 = A 3) (w : Fin cfg0.W) :
    Pipeline.withArrays spec0 c Vv A (Proc.devRef .tc (Pipeline.arrRef spec0 w)) = A w := by
  unfold Pipeline.withArrays
  have h : ∃ w', Proc.devRef .tc (Pipeline.arrRef spec0 w') = Proc.devRef (τ := τ) .tc (Pipeline.arrRef spec0 w) := ⟨w, rfl⟩
  rw [dif_pos h]
  suffices ∀ (w' : Fin cfg0.W) (e : Proc.devRef .tc (Pipeline.arrRef spec0 w') = Proc.devRef (τ := τ) .tc (Pipeline.arrRef spec0 w)),
      cast (congrArg (fun b' : DevRef τ sig => b'.ty.Contents (Elt F)) e) (A w') = A w from this _ h.choose_spec
  intro w' e
  have e' : Pipeline.arrRef spec0 w' = Pipeline.arrRef spec0 w := Proc.devRef_injective (τ := τ) _ e
  fin_cases w <;> fin_cases w' <;> first
    | rfl
    | exact absurd e' (by decide)
    | exact h01
    | exact h01.symm
    | exact h23
    | exact h23.symm

/-- At the region's exit each window's array holds its final contents. -/
theorem W1_arr (c : Dev nD) (w : Fin cfg0.W) :
    W1 m c (Proc.devRef .tc (Pipeline.arrRef spec0 w)) = (dats m 0 c).arrAt w cfg0.N := by
  unfold W1
  exact withArrays_arr' c (V0 m c) (fun w => (dats m 0 c).arrAt w cfg0.N)
    ((arrAt_in' m c 0 rfl _).trans (arrAt_in' m c 1 rfl _).symm) ((arrAt_in' m c 2 rfl _).trans (arrAt_in' m c 3 rfl _).symm) w

/-- A buffer that is no window's array leaves the region as it entered it. -/
theorem W1_rest (c : Dev nD) (b : Ref sig .tc) (hb : ∀ w, Pipeline.arrRef spec0 w ≠ b) :
    W1 m c (Proc.devRef .tc b) = V m c b := by
  unfold W1; exact Pipeline.withArrays_of_ne spec0 c (V0 m c) _ b hb

/-- ENTRY: the unscoped buffers as the host line left them are the pipeline's arrays at their entry contents and
    the buffers that bypass the region. -/
theorem entry_bufs (c : Dev nD) :
    (StableHlo.held (c : Thread nD τ) (Pipeline.ucRefs τ sig) (V0 m c) : sProp 𝕄)
      ⊢ iprop((dats m 0 c).arrays ((dats m 0 c).arrAt · 0) ∗ Pipeline.unscopedRest spec0 c (V m c)) := by
  rw [← Pipeline.unscopedBufs_held c (V0 m c), Pipeline.unscopedBufs_split₀ cfgs 0 winFacts₀0.arr_unscoped c (V m c)]
  exact sep_mono (arrays_split m c (V m c) _ (fun w => A_eq m c w)) .rfl

/-- EXIT: the arrays at their final contents and the bypassing buffers are the unscoped buffers at the exit contents. -/
theorem exit_bufs (c : Dev nD) :
    iprop((dats m 0 c).arrays ((dats m 0 c).arrAt · cfg0.N) ∗ Pipeline.unscopedRest spec0 c (V m c))
      ⊢ (StableHlo.held (c : Thread nD τ) (Pipeline.ucRefs τ sig) (W1 m c) : sProp 𝕄) := by
  rw [← Pipeline.unscopedBufs_held c (W1 m c), Pipeline.unscopedBufs_split₀ cfgs 0 winFacts₀0.arr_unscoped c (fun b => W1 m c (Proc.devRef .tc b))]
  refine sep_mono (arrays_join m c (fun b => W1 m c (Proc.devRef .tc b)) _ (fun w => (W1_arr m c w).symm)) (Entails.of_eq ?_)
  unfold Pipeline.unscopedRest
  refine bigSep_congr fun b hb => ?_
  rw [show (fun b => W1 m c (Proc.devRef .tc b)) b = V m c b from W1_rest m c b (fun w hw => (Finset.mem_sdiff.mp hb).2 (Finset.mem_image.mpr ⟨w, Finset.mem_univ _, hw⟩))]

-- a library lemma stated over the pinned configuration unifies only when unification may unfold plain definitions in a metavariable's type
set_option backward.isDefEq.respectTransparency.types false in
/-- THE REGION: entered from what the first host line left — the arrays into the pipeline (the shared ones split in
    halves), the generator register into the invariant, every other buffer bypassing —, left with the arrays at their
    final contents (the halves joined). -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest spec0 c (V m c)
  hentry c := by
    iintro ⟨⟨Hh, ⟨%W, HO⟩, Hg⟩, -, -⟩
    ihave H := (entry_bufs m c) $$ Hh
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun _ _ => Or.inl trivial
      iexact HO
    isplitl [Hg]; · iexact Hg
    iexact Hr
  hin c := (show _ ⊢ Pipeline.ΦA spec0 c from by
      unfold Pipeline.ΦA
      iintro ⟨Hg, -, Hr⟩
      isplitl [Hr] <;> iassumption).trans (hin m c)
  hout c := by
    refine (hout m c).trans ?_
    rw [Pipeline.ownSems0_none]; unfold Pipeline.ΦA
    iintro ⟨Hr, Hg⟩
    isplitl [Hg]; · iexact Hg
    isplitr; · iempintro
    iexact Hr
  hexit c := by
    iintro ⟨Ha, HO, Hg, Hr⟩
    ihave Hh := (exit_bufs m c) $$ [Ha Hr]
    · isplitl [Ha] <;> iassumption
    imodintro
    isplitl [Hh]; · iexact Hh
    isplitl [HO]
    · unfold Pipeline.Dat.owesAt Pipeline.owesWithin
      icases HO with ⟨%W, -, HO⟩; iexists W; iexact HO
    iexact Hg

/-- @main as the three segments. -/
abbrev segs : List (Pipeline.Seg (pcfgs (F := F)) adm (dats m) () defs₀ 𝒱₀ L lv) := [.host (seg0 m), .region (reg0 m), .host (seg1 m)]

/-- What is held at the end: the unscoped buffers at the final contents, and the generator register. -/
abbrev Tₙ (c : Dev nD) : sProp 𝕄 :=
  iprop(StableHlo.held (c : Thread nD τ) (Pipeline.ucRefs τ sig) (Wfin m c) ∗ ∃ r, prngReg c r)

/-- The physical post: every unscoped buffer of every core at the final contents. -/
def QC : PUnit × MemSt nD τ sig (Elt F) → Prop := fun r =>
  ∀ c : Dev nD, ∀ b ∈ (Finset.univ.filter fun b : Ref sig .tc => ¬ b.isScoped),
    r.2.mem ((c : Thread nD τ).loc b) = Wfin m c (Proc.devRef .tc b)

-- the launch theorem's implicit arguments are found by unifying its conclusion with this one, which takes unfolding plain definitions in a metavariable's type
set_option backward.isDefEq.respectTransparency.types false in
/-- At the compiled mesh, for any float values, from any memory with zero counters: every weakly fair execution of
    @main on the TensorCores terminates, and in every final state every unscoped buffer holds the final contents. -/
theorem run_main : θ_run defs (onTc (τ := τ) (main (F := F))) (s₀ m ρ) (QC m) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c)) (Tₙ := Tₙ m)
    (hch := ⟨fun _ => .rfl, fun _ => .rfl, fun _ => .rfl, fun c => by
      show iprop(StableHlo.held (c : Thread nD τ) (Pipeline.ucRefs τ sig) (StableHlo.after hostOps1 (W1 m c)) ∗ R c)
        ⊢ iprop(Tₙ m c ∗ ∃ W, owes (c : Thread nD τ) (0 : CellTallies nD τ sig Unit) W)
      dsimp only [Tₙ]; unfold Wfin
      iintro ⟨Hh, HO, Hg⟩
      isplitr [HO]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, Hg, -⟩, -⟩
      imodintro
      isplitl [Hh]; · iexact Hh
      isplitl [HO]; · iexists ∅; iexact HO
      iexists _; iexact Hg)
    (QY := fun c s => ∀ b ∈ (Finset.univ.filter fun b : Ref sig .tc => ¬ b.isScoped), s.mem ((c : Thread nD τ).loc b) = Wfin m c (Proc.devRef .tc b))
    (hfin := fun c s' => by
      dsimp only [Tₙ]
      rw [← Pipeline.unscopedBufs_held c (Wfin m c)]
      unfold unscopedBufs
      iintro ⟨⟨Hh, -⟩, HSI⟩
      imodintro
      iapply (pointsTo_read_all (Finset.univ.filter fun b : Ref sig .tc => ¬ b.isScoped) (fun b => (c : Thread nD τ).loc b) (fun b => Wfin m c (Proc.devRef .tc b)) s')
      isplitl [Hh] <;> iassumption)
    (hQ := fun _ h => h)

/-- info: 'Cert.Kernel.Fr.run_main' depends on axioms: [propext, Classical.choice, Quot.sound] -/
#guard_msgs in #print axioms run_main

end Cert.Kernel.Fr

end
-- ==== Proof.KB.Tail.lean ====
/-
  What the buffers hold when the region is left and when the program ends, buffer by buffer.

  When the region is left, each of the pipeline's arrays holds what its window's write-backs left and every other
  buffer what it held when the region was entered. Two pairs of windows read one array each (the boxes, and the
  class words as a column); no window writes those back, so whichever window of the pair is asked, the array is as
  the region found it, which for the boxes is as launched (the one host line before the region writes only the
  column of class words). The two result arrays have one window each.

  The five host lines after the region write only their own results: the boxes' result array and the two
  arguments end as the region left them. The last result is the keep words' result array with its unit axis
  dropped, compared with the zero word: at (b, n) the bit "the keep word of box n of batch b is not zero".
-/
import proofs.«136803_j33380485824748_1_alg».proof.Proof.KB.Exit
import Idealize.ShloMosaic.Lib.ValueIdx
import Idealize.ShloMosaic.Lib.Pipeline.Value

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is left -/

/-- The exit valuation at a window's array: whichever window of that array is picked, its final contents. -/
theorem withArrays_at (c : Dev nD) (V : Valuation τ sig (Elt F))
    (A : (w : Fin 6) → Buf (Elt F) ((spec0 w).arr.view.loc (c.tc : Thread nD τ))) (b : Ref sig .tc)
    (X : (Proc.devRef (τ := τ) .tc b).ty.Contents (Elt F)) (hex : ∃ w, Pipeline.arrRef spec0 w = b)
    (hX : ∀ (w : Fin 6) (e : Proc.devRef (τ := τ) .tc (Pipeline.arrRef spec0 w) = Proc.devRef .tc b),
      cast (congrArg (fun b' : DevRef τ sig => b'.ty.Contents (Elt F)) e) (A w) = X) :
    Pipeline.withArrays spec0 c V A (Proc.devRef .tc b) = X := by
  unfold Pipeline.withArrays
  have h : ∃ w', Proc.devRef (τ := τ) .tc (Pipeline.arrRef spec0 w') = Proc.devRef .tc b := by
    obtain ⟨w, e⟩ := hex
    exact ⟨w, congrArg _ e⟩
  rw [dif_pos h]
  exact hX _ h.choose_spec

/-- The boxes' result array holds what the write-backs of window 4 left. -/
theorem W1_v1_0 (c : Dev nD) : W1 m c (Proc.devRef .tc main_v1_0) = (dats m 0 c).arrAt 4 cfg0.N := by
  unfold W1
  have hne : ∀ w : Fin 6, w ≠ 4 → Pipeline.arrRef spec0 w ≠ main_v1_0 := by decide
  refine withArrays_at c _ _ main_v1_0 _ ⟨4, rfl⟩ (fun w => ?_)
  by_cases hw : w = 4
  · subst hw; exact fun e => rfl
  · exact fun e => absurd (Proc.devRef_injective _ e) (hne w hw)

/-- The keep words' result array holds what the write-backs of window 5 left. -/
theorem W1_v1_1 (c : Dev nD) : W1 m c (Proc.devRef .tc main_v1_1) = (dats m 0 c).arrAt 5 cfg0.N := by
  unfold W1
  have hne : ∀ w : Fin 6, w ≠ 5 → Pipeline.arrRef spec0 w ≠ main_v1_1 := by decide
  refine withArrays_at c _ _ main_v1_1 _ ⟨5, rfl⟩ (fun w => ?_)
  by_cases hw : w = 5
  · subst hw; exact fun e => rfl
  · exact fun e => absurd (Proc.devRef_injective _ e) (hne w hw)

/-- The one host line before the region writes neither argument. -/
theorem not_written0 (b : Ref sig .tc) (hb : b ≠ main_v0) :
    ∀ op ∈ (hostOps0 : List (HloOp τ sig (Elt F))), Proc.devRef .tc b ∉ op.writes := by
  intro op hop
  simp only [List.mem_cons, List.mem_nil_iff, or_false] at hop
  subst hop
  simp only [StableHlo.reshape_writes, Finset.mem_singleton]
  exact StableHlo.devRef_ne_of_ne hb

/-- The boxes reach the region as launched. -/
theorem V_at_arg0 (c : Dev nD) : V m c main_arg0 = m ((c : Thread nD τ).loc main_arg0) :=
  StableHlo.after_of_forall_not_mem (b := Proc.devRef .tc main_arg0) hostOps0 (V₀ m c) (not_written0 main_arg0 (by decide))

/-- The class words reach the region as launched. -/
theorem V_at_arg1 (c : Dev nD) : V m c main_arg1 = m ((c : Thread nD τ).loc main_arg1) :=
  StableHlo.after_of_forall_not_mem (b := Proc.devRef .tc main_arg1) hostOps0 (V₀ m c) (not_written0 main_arg1 (by decide))

/-- The boxes' array, read by two windows and written back by none, leaves the region as launched. -/
theorem W1_arg0 (c : Dev nD) : W1 m c (Proc.devRef .tc main_arg0) = m ((c : Thread nD τ).loc main_arg0) := by
  unfold W1
  have hne : ∀ w : Fin 6, w ≠ 0 → w ≠ 1 → Pipeline.arrRef spec0 w ≠ main_arg0 := by decide
  have h10 : (dats m 0 c).arrAt 0 cfg0.N = (dats m 0 c).A 0 := (dats m 0 c).arrAt_in 0 rfl cfg0.N
  have h20 : (dats m 0 c).A 0 = V m c main_arg0 := A_eq m c 0
  have h11 : (dats m 0 c).arrAt 1 cfg0.N = (dats m 0 c).A 1 := (dats m 0 c).arrAt_in 1 rfl cfg0.N
  have h21 : (dats m 0 c).A 1 = V m c main_arg0 := A_eq m c 1
  have e0 : (dats m 0 c).arrAt 0 cfg0.N = m ((c : Thread nD τ).loc main_arg0) := h10.trans (h20.trans (V_at_arg0 m c))
  have e1 : (dats m 0 c).arrAt 1 cfg0.N = m ((c : Thread nD τ).loc main_arg0) := h11.trans (h21.trans (V_at_arg0 m c))
  refine withArrays_at c _ _ main_arg0 _ ⟨0, rfl⟩ (fun w => ?_)
  by_cases hw0 : w = 0
  · subst hw0
    intro e
    exact (cast_eq _ _).trans e0
  by_cases hw1 : w = 1
  · subst hw1
    intro e
    exact (cast_eq _ _).trans e1
  exact fun e => absurd (Proc.devRef_injective _ e) (hne w hw0 hw1)

/-- The class words' array is no window's: it leaves the region as it entered, as launched. -/
theorem W1_arg1 (c : Dev nD) : W1 m c (Proc.devRef .tc main_arg1) = m ((c : Thread nD τ).loc main_arg1) := by
  unfold W1
  exact (Pipeline.withArrays_of_ne spec0 c _ _ main_arg1 (by decide)).trans (V_at_arg1 m c)

/-! ## The buffers when the program ends -/

/-- The five host lines after the region write only their own results. -/
theorem not_written1 (b : Ref sig .tc)
    (hb : b ≠ main_v2 ∧ b ≠ main_c ∧ b ≠ main_v3 ∧ b ≠ main_v4 ∧ b ≠ main_v5) :
    ∀ op ∈ (hostOps1 : List (HloOp τ sig (Elt F))), Proc.devRef .tc b ∉ op.writes := by
  obtain ⟨h2, hc, h3, h4, h5⟩ := hb
  intro op hop
  simp only [List.mem_cons, List.mem_nil_iff, or_false] at hop
  rcases hop with rfl | rfl | rfl | rfl | rfl <;>
    simp only [StableHlo.unary_writes, StableHlo.binary_writes, StableHlo.nullary_writes, StableHlo.reshape_writes,
      Finset.mem_singleton] <;>
    exact StableHlo.devRef_ne_of_ne ‹_›

/-- The boxes' result array ends as the region left it. -/
theorem Wfin_v1_0 (c : Dev nD) : Wfin m c (Proc.devRef .tc main_v1_0) = (dats m 0 c).arrAt 4 cfg0.N := by
  unfold Wfin
  exact (StableHlo.after_of_forall_not_mem (b := Proc.devRef .tc main_v1_0) hostOps1 (W1 m c)
    (not_written1 main_v1_0 (by decide))).trans (W1_v1_0 m c)

/-- The boxes end as launched. -/
theorem Wfin_arg0 (c : Dev nD) : Wfin m c (Proc.devRef .tc main_arg0) = m ((c : Thread nD τ).loc main_arg0) := by
  unfold Wfin
  exact (StableHlo.after_of_forall_not_mem (b := Proc.devRef .tc main_arg0) hostOps1 (W1 m c)
    (not_written1 main_arg0 (by decide))).trans (W1_arg0 m c)

/-- The class words end as launched. -/
theorem Wfin_arg1 (c : Dev nD) : Wfin m c (Proc.devRef .tc main_arg1) = m ((c : Thread nD τ).loc main_arg1) := by
  unfold Wfin
  exact (StableHlo.after_of_forall_not_mem (b := Proc.devRef .tc main_arg1) hostOps1 (W1 m c)
    (not_written1 main_arg1 (by decide))).trans (W1_arg1 m c)

/-- The keep bits: the keep words' result array, its unit axis dropped, compared with zero. -/
theorem Wfin_v5 (c : Dev nD) : (Wfin m c (Proc.devRef .tc main_v5) : S8x4096.Idx → BitVec 1)
    = cmpi .ne (shapeCast S8x4096 ((dats m 0 c).arrAt 5 cfg0.N : S8x4096x1.Idx → BitVec 32) shapeCasts_S8x4096x1_S8x4096)
        (broadcastInDim S8x4096 ![] bcast_S_S8x4096 (constantI S_ 32 0#32)) := by
  unfold Wfin
  show StableHlo.after hostOps1 (W1 m c) (Proc.devRef .tc main_v5) = _
  after_results
  rw [W1_v1_1]
  rfl

/-- A keep bit at an index: the stored keep word there compared with zero. -/
theorem Wfin_v5_at (c : Dev nD) (b : Fin 8) (n : Fin 4096) :
    Wfin m c (Proc.devRef .tc main_v5) (ix2 b n) = IntOp.cmpi .ne ((dats m 0 c).arrAt 5 cfg0.N (ix3 b n 0)) 0#32 := by
  refine (congrFun (Wfin_v5 m c) (ix2 b n)).trans ?_
  show IntOp.cmpi .ne (shapeCast S8x4096 ((dats m 0 c).arrAt 5 cfg0.N : S8x4096x1.Idx → BitVec 32) shapeCasts_S8x4096x1_S8x4096 (ix2 b n)) 0#32 = _
  refine congrArg (fun x => IntOp.cmpi .ne x 0#32) ?_
  refine shapeCast_apply _ _ (ix2 b n) (ix3 b n 0) ?_
  rw [Shape.rowMajor_val_three, Shape.rowMajor_val_two]
  show (b.val * 4096 + n.val) * 1 + 0 = b.val * 4096 + n.val
  omega

end Cert.Kernel.Fr

end
-- ==== Proof.KB.FrameOf.lean ====
/-
  The program runs and leaves its two argument arrays as it found them.

  At the end every buffer that outlives the program holds its final contents; the two argument arrays are among
  those buffers, no line of the program writes them, and so their final contents are the launch's.
-/
import proofs.«136803_j33380485824748_1_alg».proof.Proof.KB.Launch
import proofs.«136803_j33380485824748_1_alg».proof.Proof.KB.Tail

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two argument arrays are among the buffers that outlive the program. -/
theorem arg0_unscoped : main_arg0 ∈ (Finset.univ.filter fun b : Ref sig .tc => ¬ b.isScoped) := by decide
theorem arg1_unscoped : main_arg1 ∈ (Finset.univ.filter fun b : Ref sig .tc => ¬ b.isScoped) := by decide

/-- The program runs and leaves its two argument arrays as launched. -/
theorem frame_run : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c main_arg0 arg0_unscoped).trans (Wfin_arg0 m c),
      (h c main_arg1 arg1_unscoped).trans (Wfin_arg1 m c)⟩)
    (run_main m ρ)

end Cert.Kernel.Fr

end
-- ==== Proof.KI.Runs.lean ====
/-
  What the three runs of the kernel body share: the arrays as the region finds them, each window's block at a
  grid point, the two branch conditions in closed form over the grid (the point's position in its row of eight),
  where the two result windows are idle, and the staging and scratch memrefs the body is called with.

  The grid is 8 × 8 × 8, the last axis fastest: point `t` has column block `t % 8`. The running row sums are reset
  at column block 0, added to at every point, and turned into the two results at column block 7, the only points
  where the result windows are stored and written back.
-/
import proofs.«136803_j33380485824748_1_alg».proof.Proof.Gen.KernelIdeal.Launch
import proofs.«136803_j33380485824748_1_alg».proof.Proof.Gen.KernelIdeal.Skeleton
import proofs.«136803_j33380485824748_1_alg».proof.Proof.Gen.KernelIdeal.Points
import Idealize.ShloMosaic.Lib.Pipeline.FrameBody
import Idealize.ShloMosaic.Lib.Pipeline.FrameSuffix
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered -/

/-- Core `c`'s buffers at launch, as a valuation, -/
abbrev V₀ (c : Dev nD) : Valuation τ sig (Elt F) := fun b => m (c, b)
/-- after the one host line before the region (the class words reshaped to a column), -/
abbrev V0 (c : Dev nD) : Valuation τ sig (Elt F) := StableHlo.after hostOps0 (V₀ m c)
/-- and the same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: between two
    fetches the block index does not move and the body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- "This is the first column block": the reset's condition, as the body computes it from the grid coordinates. -/
abbrev cond0_0 (i : grid0.Coords) : Prop := (Scalar.cmpi .ne (Scalar.extui (Scalar.cmpi .eq (BitVec.ofNat 32 (i 2).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last column block": the condition under which the results are stored. -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
/-- Off the last column block the two result windows are idle and not written back; on it they are live. -/
theorem idleAt0_4 : ∀ t : Fin cfg0.N, ¬cond0_1 (grid0.coords t) → cfg0.idle 4 (grid0.coords t) = true := by decide +kernel
theorem idleAt0_5 : ∀ t : Fin cfg0.N, ¬cond0_1 (grid0.coords t) → cfg0.idle 5 (grid0.coords t) = true := by decide +kernel
theorem noFlush0_4 : ∀ t : Fin cfg0.N, ¬cond0_1 (grid0.coords t) → (cfg0.win 4).flush t = false := by decide +kernel
theorem noFlush0_5 : ∀ t : Fin cfg0.N, ¬cond0_1 (grid0.coords t) → (cfg0.win 5).flush t = false := by decide +kernel
theorem liveAt0_4 : ∀ t : Fin cfg0.N, cond0_1 (grid0.coords t) → cfg0.idle 4 (grid0.coords t) = false := by decide +kernel
theorem liveAt0_5 : ∀ t : Fin cfg0.N, cond0_1 (grid0.coords t) → cfg0.idle 5 (grid0.coords t) = false := by decide +kernel

/-! ## The memrefs the body is called with -/

/-- One staging buffer of each result window, through which its contents are stated. -/
abbrev VO0_4 : View sig .tc .vmem S1x512x4 .f32 := (Memref.whole cc0_stg4_0 : Memref sig .tc .vmem S1x512x4 .f32).view
abbrev VO0_5 : View sig .tc .vmem S1x512x1 .i32 := (Memref.whole cc0_stg5_0 : Memref sig .tc .vmem S1x512x1 .i32).view
/-- Each window's current staging memref at point `t`, and its wholeness. -/
abbrev ms0_0 (t : Fin cfg0.N) : Memref sig .tc .vmem S1x512x4 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x4 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x1 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512x4 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512x1 .i32 := win0_5.stage (cfg0.slots t 5)
abbrev hs0_5 (t : Fin cfg0.N) : (ms0_5 t).IsWhole := hstage0_5 ((cfg0.slots t 5).cast nbuf0_5)
/-- The scratch holding the running row sums, a whole scoped buffer, and as a view. -/
abbrev scM0_0 : Memref sig .tc .vmem S512x1 .f32 := Memref.whole cc0_scratch0
abbrev VS0_0 : View sig .tc .vmem S512x1 .f32 := scM0_0.view

/-- The region's plain invariant (the scratch at some contents, the generator register at some state) with the
    scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Fr

end
-- ==== Proof.KI.RunA.lean ====
/-
  The kernel body run at a point of the FIRST column block: the running row sums are reset to zero, the block's
  contribution is added, and nothing is stored into the two result windows, which are handed back untouched.
  The run finds the pieces the stores leave in the scratch; they are its witness.
-/
import proofs.«136803_j33380485824748_1_alg».proof.Proof.KI.Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Case A (reset taken, results not stored). -/
noncomputable def kernelRun0_A (c : Dev nD) (i : grid0.Coords) (arg3 : Memref sig .tc .vmem S1x512x4 .f32) (harg3 : arg3.IsWhole) (arg4 : Memref sig .tc .vmem S1x512x4 .f32) (harg4 : arg4.IsWhole) (arg5 : Memref sig .tc .vmem S1x512x1 .i32) (harg5 : arg5.IsWhole) (arg6 : Memref sig .tc .vmem S1x512x1 .i32) (harg6 : arg6.IsWhole) (arg7 : Memref sig .tc .vmem S1x512x4 .f32) (harg7 : arg7.IsWhole) (arg8 : Memref sig .tc .vmem S1x512x1 .i32) (harg8 : arg8.IsWhole) (arg9 : Memref sig .tc .vmem S512x1 .f32) (harg9 : arg9.IsWhole) (hc0 : cond0_0 i) (hc1 : ¬cond0_1 i)
    (x0 : Vec F S1x512x4 .f32) (x1 : Vec F S1x512x4 .f32) (x2 : Vec F S1x512x1 .i32) (x3 : Vec F S1x512x1 .i32) :
    { LS0 : List (View.Piece (Elt F) S512x1 .f32) //
      ∀ (xi4 : Vec F S1x512x4 .f32) (xi5 : Vec F S1x512x1 .i32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc0__kernel i arg3 harg3 arg4 harg4 arg5 harg5 arg6 harg6 arg7 harg7 arg8 harg8 arg9 harg9) K } := by
  refine ⟨?_, fun xi4 xi5 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.KernelIdeal.Fr

end
-- ==== Proof.KI.RunB.lean ====
/-
  The kernel body run at a point of a MIDDLE column block: the block's contribution is added to the running row
  sums the point before left, and the two result windows are handed back untouched.
-/
import proofs.«136803_j33380485824748_1_alg».proof.Proof.KI.RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Case B (reset not taken, results not stored). -/
noncomputable def kernelRun0_B (c : Dev nD) (i : grid0.Coords) (arg3 : Memref sig .tc .vmem S1x512x4 .f32) (harg3 : arg3.IsWhole) (arg4 : Memref sig .tc .vmem S1x512x4 .f32) (harg4 : arg4.IsWhole) (arg5 : Memref sig .tc .vmem S1x512x1 .i32) (harg5 : arg5.IsWhole) (arg6 : Memref sig .tc .vmem S1x512x1 .i32) (harg6 : arg6.IsWhole) (arg7 : Memref sig .tc .vmem S1x512x4 .f32) (harg7 : arg7.IsWhole) (arg8 : Memref sig .tc .vmem S1x512x1 .i32) (harg8 : arg8.IsWhole) (arg9 : Memref sig .tc .vmem S512x1 .f32) (harg9 : arg9.IsWhole) (hc0 : ¬cond0_0 i) (hc1 : ¬cond0_1 i)
    (x0 : Vec F S1x512x4 .f32) (x1 : Vec F S1x512x4 .f32) (x2 : Vec F S1x512x1 .i32) (x3 : Vec F S1x512x1 .i32) (xs0 : Vec F S512x1 .f32) :
    { LS0 : List (View.Piece (Elt F) S512x1 .f32) //
      ∀ (xi4 : Vec F S1x512x4 .f32) (xi5 : Vec F S1x512x1 .i32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xi5 ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc0__kernel i arg3 harg3 arg4 harg4 arg5 harg5 arg6 harg6 arg7 harg7 arg8 harg8 arg9 harg9) K } := by
  refine ⟨?_, fun xi4 xi5 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.KernelIdeal.Fr

end
-- ==== Proof.KI.RunC.lean ====
/-
  The kernel body run at a point of the LAST column block: the block's contribution is added to the running row
  sums, and from the finished sums the keep bits and the masked boxes are stored into the two result windows.
-/
import proofs.«136803_j33380485824748_1_alg».proof.Proof.KI.RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Case C (reset not taken, results stored). -/
noncomputable def kernelRun0_C (c : Dev nD) (i : grid0.Coords) (arg3 : Memref sig .tc .vmem S1x512x4 .f32) (harg3 : arg3.IsWhole) (arg4 : Memref sig .tc .vmem S1x512x4 .f32) (harg4 : arg4.IsWhole) (arg5 : Memref sig .tc .vmem S1x512x1 .i32) (harg5 : arg5.IsWhole) (arg6 : Memref sig .tc .vmem S1x512x1 .i32) (harg6 : arg6.IsWhole) (arg7 : Memref sig .tc .vmem S1x512x4 .f32) (harg7 : arg7.IsWhole) (arg8 : Memref sig .tc .vmem S1x512x1 .i32) (harg8 : arg8.IsWhole) (arg9 : Memref sig .tc .vmem S512x1 .f32) (harg9 : arg9.IsWhole) (hc0 : ¬cond0_0 i) (hc1 : cond0_1 i)
    (x0 : Vec F S1x512x4 .f32) (x1 : Vec F S1x512x4 .f32) (x2 : Vec F S1x512x1 .i32) (x3 : Vec F S1x512x1 .i32) (xs0 : Vec F S512x1 .f32) :
    Σ' (L4 : List (View.Piece (Elt F) S1x512x4 .f32)) (L5 : List (View.Piece (Elt F) S1x512x1 .i32)), { LS0 : List (View.Piece (Elt F) S512x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc0__kernel i arg3 harg3 arg4 harg4 arg5 harg5 arg6 harg6 arg7 harg7 arg8 harg8 arg9 harg9) K } := by
  refine ⟨?_, ?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3
    obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [H5]; · iexists _; iexact H5
    iexists _; iexact HS0

end Cert.KernelIdeal.Fr

end
-- ==== Proof.KI.Data.lean ====
/-
  What the kernel leaves behind, point by point, and the pipeline's proof data.

  After the body at point `t` the scratch holds the running row sums: at a first column block the block's
  contribution over zero, elsewhere the contribution over what the point before left. At a last column block the
  two result windows hold the masked boxes and the keep words computed from the finished sums; at the other
  points they are idle. `outsAt0` is that recursion over the points; the region's invariant carries the scratch
  at its component; the body obligation is a case split on the point's column block, each case one run.
-/
import proofs.«136803_j33380485824748_1_alg».proof.Proof.KI.RunC
import Idealize.ShloMosaic.Lib.Ring

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

theorem scover0_A (c : Dev nD) (i : grid0.Coords) (arg3 : Memref sig .tc .vmem S1x512x4 .f32) (harg3 : arg3.IsWhole) (arg4 : Memref sig .tc .vmem S1x512x4 .f32) (harg4 : arg4.IsWhole) (arg5 : Memref sig .tc .vmem S1x512x1 .i32) (harg5 : arg5.IsWhole) (arg6 : Memref sig .tc .vmem S1x512x1 .i32) (harg6 : arg6.IsWhole) (arg7 : Memref sig .tc .vmem S1x512x4 .f32) (harg7 : arg7.IsWhole) (arg8 : Memref sig .tc .vmem S1x512x1 .i32) (harg8 : arg8.IsWhole) (arg9 : Memref sig .tc .vmem S512x1 .f32) (harg9 : arg9.IsWhole) (hc0 : cond0_0 i) (hc1 : ¬cond0_1 i)
    (x0 : Vec F S1x512x4 .f32) (x1 : Vec F S1x512x4 .f32) (x2 : Vec F S1x512x1 .i32) (x3 : Vec F S1x512x1 .i32) (y : S512x1.Idx) :
    ∃ pc ∈ (kernelRun0_A c i arg3 harg3 arg4 harg4 arg5 harg5 arg6 harg6 arg7 harg7 arg8 harg8 arg9 harg9 hc0 hc1 x0 x1 x2 x3).1, y ∈ pc.1.set :=
  View.cover_of_tiledL (kernelRun0_A c i arg3 harg3 arg4 harg4 arg5 harg5 arg6 harg6 arg7 harg7 arg8 harg8 arg9 harg9 hc0 hc1 x0 x1 x2 x3).1 S512x1.size (by sl_kernel_rfl) y

/-- What case A leaves in the scratch: its pieces read back. -/
def sout0_A (c : Dev nD) (i : grid0.Coords) (arg3 : Memref sig .tc .vmem S1x512x4 .f32) (harg3 : arg3.IsWhole) (arg4 : Memref sig .tc .vmem S1x512x4 .f32) (harg4 : arg4.IsWhole) (arg5 : Memref sig .tc .vmem S1x512x1 .i32) (harg5 : arg5.IsWhole) (arg6 : Memref sig .tc .vmem S1x512x1 .i32) (harg6 : arg6.IsWhole) (arg7 : Memref sig .tc .vmem S1x512x4 .f32) (harg7 : arg7.IsWhole) (arg8 : Memref sig .tc .vmem S1x512x1 .i32) (harg8 : arg8.IsWhole) (arg9 : Memref sig .tc .vmem S512x1 .f32) (harg9 : arg9.IsWhole) (hc0 : cond0_0 i) (hc1 : ¬cond0_1 i)
    (x0 : Vec F S1x512x4 .f32) (x1 : Vec F S1x512x4 .f32) (x2 : Vec F S1x512x1 .i32) (x3 : Vec F S1x512x1 .i32) : Vec F S512x1 .f32 :=
  VS0_0.read (Elt F) (VS0_0.writes (Elt F) VS0_0.junk (kernelRun0_A c i arg3 harg3 arg4 harg4 arg5 harg5 arg6 harg6 arg7 harg7 arg8 harg8 arg9 harg9 hc0 hc1 x0 x1 x2 x3).1)

theorem scover0_B (c : Dev nD) (i : grid0.Coords) (arg3 : Memref sig .tc .vmem S1x512x4 .f32) (harg3 : arg3.IsWhole) (arg4 : Memref sig .tc .vmem S1x512x4 .f32) (harg4 : arg4.IsWhole) (arg5 : Memref sig .tc .vmem S1x512x1 .i32) (harg5 : arg5.IsWhole) (arg6 : Memref sig .tc .vmem S1x512x1 .i32) (harg6 : arg6.IsWhole) (arg7 : Memref sig .tc .vmem S1x512x4 .f32) (harg7 : arg7.IsWhole) (arg8 : Memref sig .tc .vmem S1x512x1 .i32) (harg8 : arg8.IsWhole) (arg9 : Memref sig .tc .vmem S512x1 .f32) (harg9 : arg9.IsWhole) (hc0 : ¬cond0_0 i) (hc1 : ¬cond0_1 i)
    (x0 : Vec F S1x512x4 .f32) (x1 : Vec F S1x512x4 .f32) (x2 : Vec F S1x512x1 .i32) (x3 : Vec F S1x512x1 .i32) (xs0 : Vec F S512x1 .f32) (y : S512x1.Idx) :
    ∃ pc ∈ (kernelRun0_B c i arg3 harg3 arg4 harg4 arg5 harg5 arg6 harg6 arg7 harg7 arg8 harg8 arg9 harg9 hc0 hc1 x0 x1 x2 x3 xs0).1, y ∈ pc.1.set :=
  View.cover_of_tiledL (kernelRun0_B c i arg3 harg3 arg4 harg4 arg5 harg5 arg6 harg6 arg7 harg7 arg8 harg8 arg9 harg9 hc0 hc1 x0 x1 x2 x3 xs0).1 S512x1.size (by sl_kernel_rfl) y

/-- What case B leaves in the scratch. -/
def sout0_B (c : Dev nD) (i : grid0.Coords) (arg3 : Memref sig .tc .vmem S1x512x4 .f32) (harg3 : arg3.IsWhole) (arg4 : Memref sig .tc .vmem S1x512x4 .f32) (harg4 : arg4.IsWhole) (arg5 : Memref sig .tc .vmem S1x512x1 .i32) (harg5 : arg5.IsWhole) (arg6 : Memref sig .tc .vmem S1x512x1 .i32) (harg6 : arg6.IsWhole) (arg7 : Memref sig .tc .vmem S1x512x4 .f32) (harg7 : arg7.IsWhole) (arg8 : Memref sig .tc .vmem S1x512x1 .i32) (harg8 : arg8.IsWhole) (arg9 : Memref sig .tc .vmem S512x1 .f32) (harg9 : arg9.IsWhole) (hc0 : ¬cond0_0 i) (hc1 : ¬cond0_1 i)
    (x0 : Vec F S1x512x4 .f32) (x1 : Vec F S1x512x4 .f32) (x2 : Vec F S1x512x1 .i32) (x3 : Vec F S1x512x1 .i32) (xs0 : Vec F S512x1 .f32) : Vec F S512x1 .f32 :=
  VS0_0.read (Elt F) (VS0_0.writes (Elt F) VS0_0.junk (kernelRun0_B c i arg3 harg3 arg4 harg4 arg5 harg5 arg6 harg6 arg7 harg7 arg8 harg8 arg9 harg9 hc0 hc1 x0 x1 x2 x3 xs0).1)

theorem cover0_C_4 (c : Dev nD) (i : grid0.Coords) (arg3 : Memref sig .tc .vmem S1x512x4 .f32) (harg3 : arg3.IsWhole) (arg4 : Memref sig .tc .vmem S1x512x4 .f32) (harg4 : arg4.IsWhole) (arg5 : Memref sig .tc .vmem S1x512x1 .i32) (harg5 : arg5.IsWhole) (arg6 : Memref sig .tc .vmem S1x512x1 .i32) (harg6 : arg6.IsWhole) (arg7 : Memref sig .tc .vmem S1x512x4 .f32) (harg7 : arg7.IsWhole) (arg8 : Memref sig .tc .vmem S1x512x1 .i32) (harg8 : arg8.IsWhole) (arg9 : Memref sig .tc .vmem S512x1 .f32) (harg9 : arg9.IsWhole) (hc0 : ¬cond0_0 i) (hc1 : cond0_1 i)
    (x0 : Vec F S1x512x4 .f32) (x1 : Vec F S1x512x4 .f32) (x2 : Vec F S1x512x1 .i32) (x3 : Vec F S1x512x1 .i32) (xs0 : Vec F S512x1 .f32) (y : S1x512x4.Idx) :
    ∃ pc ∈ (kernelRun0_C c i arg3 harg3 arg4 harg4 arg5 harg5 arg6 harg6 arg7 harg7 arg8 harg8 arg9 harg9 hc0 hc1 x0 x1 x2 x3 xs0).1, y ∈ pc.1.set :=
  View.cover_of_tiledL (kernelRun0_C c i arg3 harg3 arg4 harg4 arg5 harg5 arg6 harg6 arg7 harg7 arg8 harg8 arg9 harg9 hc0 hc1 x0 x1 x2 x3 xs0).1 S1x512x4.size (by sl_kernel_rfl) y
theorem cover0_C_5 (c : Dev nD) (i : grid0.Coords) (arg3 : Memref sig .tc .vmem S1x512x4 .f32) (harg3 : arg3.IsWhole) (arg4 : Memref sig .tc .vmem S1x512x4 .f32) (harg4 : arg4.IsWhole) (arg5 : Memref sig .tc .vmem S1x512x1 .i32) (harg5 : arg5.IsWhole) (arg6 : Memref sig .tc .vmem S1x512x1 .i32) (harg6 : arg6.IsWhole) (arg7 : Memref sig .tc .vmem S1x512x4 .f32) (harg7 : arg7.IsWhole) (arg8 : Memref sig .tc .vmem S1x512x1 .i32) (harg8 : arg8.IsWhole) (arg9 : Memref sig .tc .vmem S512x1 .f32) (harg9 : arg9.IsWhole) (hc0 : ¬cond0_0 i) (hc1 : cond0_1 i)
    (x0 : Vec F S1x512x4 .f32) (x1 : Vec F S1x512x4 .f32) (x2 : Vec F S1x512x1 .i32) (x3 : Vec F S1x512x1 .i32) (xs0 : Vec F S512x1 .f32) (y : S1x512x1.Idx) :
    ∃ pc ∈ (kernelRun0_C c i arg3 harg3 arg4 harg4 arg5 harg5 arg6 harg6 arg7 harg7 arg8 harg8 arg9 harg9 hc0 hc1 x0 x1 x2 x3 xs0).2.1, y ∈ pc.1.set :=
  View.cover_of_tiledL (kernelRun0_C c i arg3 harg3 arg4 harg4 arg5 harg5 arg6 harg6 arg7 harg7 arg8 harg8 arg9 harg9 hc0 hc1 x0 x1 x2 x3 xs0).2.1 S1x512x1.size (by sl_kernel_rfl) y
theorem scover0_C (c : Dev nD) (i : grid0.Coords) (arg3 : Memref sig .tc .vmem S1x512x4 .f32) (harg3 : arg3.IsWhole) (arg4 : Memref sig .tc .vmem S1x512x4 .f32) (harg4 : arg4.IsWhole) (arg5 : Memref sig .tc .vmem S1x512x1 .i32) (harg5 : arg5.IsWhole) (arg6 : Memref sig .tc .vmem S1x512x1 .i32) (harg6 : arg6.IsWhole) (arg7 : Memref sig .tc .vmem S1x512x4 .f32) (harg7 : arg7.IsWhole) (arg8 : Memref sig .tc .vmem S1x512x1 .i32) (harg8 : arg8.IsWhole) (arg9 : Memref sig .tc .vmem S512x1 .f32) (harg9 : arg9.IsWhole) (hc0 : ¬cond0_0 i) (hc1 : cond0_1 i)
    (x0 : Vec F S1x512x4 .f32) (x1 : Vec F S1x512x4 .f32) (x2 : Vec F S1x512x1 .i32) (x3 : Vec F S1x512x1 .i32) (xs0 : Vec F S512x1 .f32) (y : S512x1.Idx) :
    ∃ pc ∈ (kernelRun0_C c i arg3 harg3 arg4 harg4 arg5 harg5 arg6 harg6 arg7 harg7 arg8 harg8 arg9 harg9 hc0 hc1 x0 x1 x2 x3 xs0).2.2.1, y ∈ pc.1.set :=
  View.cover_of_tiledL (kernelRun0_C c i arg3 harg3 arg4 harg4 arg5 harg5 arg6 harg6 arg7 harg7 arg8 harg8 arg9 harg9 hc0 hc1 x0 x1 x2 x3 xs0).2.2.1 S512x1.size (by sl_kernel_rfl) y

/-- What case C leaves in the boxes' result window, in the keep words' result window, and in the scratch. -/
def out0_C_4 (c : Dev nD) (i : grid0.Coords) (arg3 : Memref sig .tc .vmem S1x512x4 .f32) (harg3 : arg3.IsWhole) (arg4 : Memref sig .tc .vmem S1x512x4 .f32) (harg4 : arg4.IsWhole) (arg5 : Memref sig .tc .vmem S1x512x1 .i32) (harg5 : arg5.IsWhole) (arg6 : Memref sig .tc .vmem S1x512x1 .i32) (harg6 : arg6.IsWhole) (arg7 : Memref sig .tc .vmem S1x512x4 .f32) (harg7 : arg7.IsWhole) (arg8 : Memref sig .tc .vmem S1x512x1 .i32) (harg8 : arg8.IsWhole) (arg9 : Memref sig .tc .vmem S512x1 .f32) (harg9 : arg9.IsWhole) (hc0 : ¬cond0_0 i) (hc1 : cond0_1 i)
    (x0 : Vec F S1x512x4 .f32) (x1 : Vec F S1x512x4 .f32) (x2 : Vec F S1x512x1 .i32) (x3 : Vec F S1x512x1 .i32) (xs0 : Vec F S512x1 .f32) : Vec F S1x512x4 .f32 :=
  VO0_4.read (Elt F) (VO0_4.writes (Elt F) VO0_4.junk (kernelRun0_C c i arg3 harg3 arg4 harg4 arg5 harg5 arg6 harg6 arg7 harg7 arg8 harg8 arg9 harg9 hc0 hc1 x0 x1 x2 x3 xs0).1)
def out0_C_5 (c : Dev nD) (i : grid0.Coords) (arg3 : Memref sig .tc .vmem S1x512x4 .f32) (harg3 : arg3.IsWhole) (arg4 : Memref sig .tc .vmem S1x512x4 .f32) (harg4 : arg4.IsWhole) (arg5 : Memref sig .tc .vmem S1x512x1 .i32) (harg5 : arg5.IsWhole) (arg6 : Memref sig .tc .vmem S1x512x1 .i32) (harg6 : arg6.IsWhole) (arg7 : Memref sig .tc .vmem S1x512x4 .f32) (harg7 : arg7.IsWhole) (arg8 : Memref sig .tc .vmem S1x512x1 .i32) (harg8 : arg8.IsWhole) (arg9 : Memref sig .tc .vmem S512x1 .f32) (harg9 : arg9.IsWhole) (hc0 : ¬cond0_0 i) (hc1 : cond0_1 i)
    (x0 : Vec F S1x512x4 .f32) (x1 : Vec F S1x512x4 .f32) (x2 : Vec F S1x512x1 .i32) (x3 : Vec F S1x512x1 .i32) (xs0 : Vec F S512x1 .f32) : Vec F S1x512x1 .i32 :=
  VO0_5.read (Elt F) (VO0_5.writes (Elt F) VO0_5.junk (kernelRun0_C c i arg3 harg3 arg4 harg4 arg5 harg5 arg6 harg6 arg7 harg7 arg8 harg8 arg9 harg9 hc0 hc1 x0 x1 x2 x3 xs0).2.1)
def sout0_C (c : Dev nD) (i : grid0.Coords) (arg3 : Memref sig .tc .vmem S1x512x4 .f32) (harg3 : arg3.IsWhole) (arg4 : Memref sig .tc .vmem S1x512x4 .f32) (harg4 : arg4.IsWhole) (arg5 : Memref sig .tc .vmem S1x512x1 .i32) (harg5 : arg5.IsWhole) (arg6 : Memref sig .tc .vmem S1x512x1 .i32) (harg6 : arg6.IsWhole) (arg7 : Memref sig .tc .vmem S1x512x4 .f32) (harg7 : arg7.IsWhole) (arg8 : Memref sig .tc .vmem S1x512x1 .i32) (harg8 : arg8.IsWhole) (arg9 : Memref sig .tc .vmem S512x1 .f32) (harg9 : arg9.IsWhole) (hc0 : ¬cond0_0 i) (hc1 : cond0_1 i)
    (x0 : Vec F S1x512x4 .f32) (x1 : Vec F S1x512x4 .f32) (x2 : Vec F S1x512x1 .i32) (x3 : Vec F S1x512x1 .i32) (xs0 : Vec F S512x1 .f32) : Vec F S512x1 .f32 :=
  VS0_0.read (Elt F) (VS0_0.writes (Elt F) VS0_0.junk (kernelRun0_C c i arg3 harg3 arg4 harg4 arg5 harg5 arg6 harg6 arg7 harg7 arg8 harg8 arg9 harg9 hc0 hc1 x0 x1 x2 x3 xs0).2.2.1)

/-- The placeholders for a result window at a point that stores nothing into it (never consulted: the window is
    neither written back there nor read at the next point). -/
def idle4 : Vec F S1x512x4 .f32 := VO0_4.read (Elt F) VO0_4.junk
def idle5 : Vec F S1x512x1 .i32 := VO0_5.read (Elt F) VO0_5.junk

/-! ## Point by point -/

/-- What the two result windows' staging buffers and the scratch hold after the body at position `n`. -/
def outsAt0 (c : Dev nD) : (n : ℕ) → n < cfg0.N → Vec F S1x512x4 .f32 × Vec F S1x512x1 .i32 × Vec F S512x1 .f32
  | 0, hn => (idle4, idle5, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 8 = 0 then
      (idle4, idle5, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => (fun h => by (try dsimp only at h); omega) ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 8 = 7 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2,
         out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2,
         sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2)
      else
        (idle4, idle5, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2)

/-- At a first column block: case A's contents. -/
theorem outsAt0_A (c : Dev nD) (t : Fin cfg0.N) (h0 : t.val % 8 = 0) (h1 : ¬t.val % 8 = 7) :
    outsAt0 m c t.val t.isLt = (idle4, idle5, sout0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans rfl

/-- At a middle column block: case B's contents, over what the point before left. -/
theorem outsAt0_B (c : Dev nD) (t : Fin cfg0.N) (h0 : ¬t.val % 8 = 0) (h1 : ¬t.val % 8 = 7) :
    outsAt0 m c t.val t.isLt = (idle4, idle5, sout0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- At a last column block: case C's contents, over what the point before left. -/
theorem outsAt0_C (c : Dev nD) (t : Fin cfg0.N) (h0 : ¬t.val % 8 = 0) (h1 : t.val % 8 = 7) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2,
      out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2,
      sout0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the plain one (the scratch at anything);
    afterwards the scratch at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl
theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

/-! ## The pipeline's proof data -/

/-- Half of the full share: the two windows that read the boxes' array hold one half each, and so do the two
    that read the class words' column. -/
abbrev halfL : PosShare TreeShare := fullShare.left
abbrev halfR : PosShare TreeShare := fullShare.right

/-- The proof data on core `c`: the arrays as the region finds them; after the body each input's buffer at its
    block and the results' at `outsAt0`; the invariant `PhiS`; nothing owed; each shared input array split in halves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
  Φ t := PhiS m c t.val (Nat.le_of_lt_succ t.isLt)
  q w := match w with
    | ⟨0, _⟩ => halfL
    | ⟨1, _⟩ => halfR
    | ⟨2, _⟩ => halfL
    | ⟨3, _⟩ => halfR
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem leaves_in0 (c : Dev nD) (t : Fin cfg0.N) : (dats m 0 c).leavesExact 0 t = owns (c : Thread nD τ) (ms0_0 t) fullShare (iblk m c 0 t) := by
  unfold Dat.leavesExact; rw [liveAt0_0 t, after0_0]
theorem leaves_in1 (c : Dev nD) (t : Fin cfg0.N) : (dats m 0 c).leavesExact 1 t = owns (c : Thread nD τ) (ms0_1 t) fullShare (iblk m c 1 t) := by
  unfold Dat.leavesExact; rw [liveAt0_1 t, after0_1]
theorem leaves_in2 (c : Dev nD) (t : Fin cfg0.N) : (dats m 0 c).leavesExact 2 t = owns (c : Thread nD τ) (ms0_2 t) fullShare (iblk m c 2 t) := by
  unfold Dat.leavesExact; rw [liveAt0_2 t, after0_2]
theorem leaves_in3 (c : Dev nD) (t : Fin cfg0.N) : (dats m 0 c).leavesExact 3 t = owns (c : Thread nD τ) (ms0_3 t) fullShare (iblk m c 3 t) := by
  unfold Dat.leavesExact; rw [liveAt0_3 t, after0_3]

set_option maxHeartbeats 4800000 in
/-- The body at any point: a case split on the column block, each case its run. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [leaves_in0, leaves_in1, leaves_in2, leaves_in3]
  have hN : t.val < 512 := lt_of_lt_of_eq t.isLt (show cfg0.N = 512 from N_0)
  by_cases h0 : t.val % 8 = 0
  · have h1 : ¬t.val % 8 = 7 := by omega
    rw [Dat.leavesExact_idle (dats m 0 c) 4 t (idleAt0_4 t (fun h => h1 ((hcond0_1 t).mp h))) (noFlush0_4 t (fun h => h1 ((hcond0_1 t).mp h)))]
    rw [Dat.leavesExact_idle (dats m 0 c) 5 t (idleAt0_5 t (fun h => h1 ((hcond0_1 t).mp h))) (noFlush0_5 t (fun h => h1 ((hcond0_1 t).mp h)))]
    rw [outsAt0_A m c t h0 h1]
    unfold sout0_A; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ ((hcond0_0 t).mpr h0) (fun h => h1 ((hcond0_1 t).mp h)) (iblk m c 0 t) (iblk m c 1 t) (iblk m c 2 t) (iblk m c 3 t)).2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hg]
      · isplitl [HS0]
        · unfold owns; iexists _; isplitr
          swap; · iexact HS0
          ipureintro; exact View.read_writes_of_cover _ _ _ _ _ (scover0_A c _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ ((hcond0_0 t).mpr h0) (fun h => h1 ((hcond0_1 t).mp h)) (iblk m c 0 t) (iblk m c 1 t) (iblk m c 2 t) (iblk m c 3 t)).2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      iintro ⟨H0, H1, H2, H3, H4, H5, ⟨%es0, HS0⟩⟩
      isplitl [HS0 Hg]
      · isplitl [HS0]
        · unfold owns; iexists _; isplitr
          swap; · iexact HS0
          ipureintro; exact View.read_writes_of_cover _ _ _ _ _ (scover0_A c _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
  · have hz : t.val ≠ 0 := fun h => h0 (by rw [h])
    by_cases h1 : t.val % 8 = 7
    · rw [show (dats m 0 c).leavesExact 4 t = owns (c : Thread nD τ) (ms0_4 t) fullShare ((dats m 0 c).after 4 t) from by
        unfold Dat.leavesExact; rw [liveAt0_4 t ((hcond0_1 t).mpr h1)], after0_4]
      rw [show (dats m 0 c).leavesExact 5 t = owns (c : Thread nD τ) (ms0_5 t) fullShare ((dats m 0 c).after 5 t) from by
        unfold Dat.leavesExact; rw [liveAt0_5 t ((hcond0_1 t).mpr h1)], after0_5]
      rw [outsAt0_C m c t h0 h1]
      unfold out0_C_4 out0_C_5 sout0_C; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩⟩
      iapply ((kernelRun0_C c (grid0.coords t) _ _ _ _ _ _ _ _ _ _ _ _ _ _ (fun h => h0 ((hcond0_0 t).mp h)) ((hcond0_1 t).mpr h1) (iblk m c 0 t) (iblk m c 1 t) (iblk m c 2 t) (iblk m c 3 t) _).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      iintro ⟨H0, H1, H2, H3, ⟨%e4, H4⟩, ⟨%e5, H5⟩, ⟨%es0, HS0⟩⟩
      isplitl [HS0 Hg]
      · isplitl [HS0]
        · unfold owns; iexists _; isplitr
          swap; · iexact HS0
          ipureintro; exact View.read_writes_of_cover _ _ _ _ _ (scover0_C c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_C_4 c _ _ _ _ _ _ _ _ _ _ _ _ _ _ _ _ _ _ _ _ _ _)
      unfold owns; iexists _; isplitr
      swap; · iexact H5
      ipureintro; exact View.read_writes_of_cover _ _ _ _ _ (cover0_C_5 c _ _ _ _ _ _ _ _ _ _ _ _ _ _ _ _ _ _ _ _ _ _)
    · rw [Dat.leavesExact_idle (dats m 0 c) 4 t (idleAt0_4 t (fun h => h1 ((hcond0_1 t).mp h))) (noFlush0_4 t (fun h => h1 ((hcond0_1 t).mp h)))]
      rw [Dat.leavesExact_idle (dats m 0 c) 5 t (idleAt0_5 t (fun h => h1 ((hcond0_1 t).mp h))) (noFlush0_5 t (fun h => h1 ((hcond0_1 t).mp h)))]
      rw [outsAt0_B m c t h0 h1]
      unfold sout0_B; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ (fun h => h0 ((hcond0_0 t).mp h)) (fun h => h1 ((hcond0_1 t).mp h)) (iblk m c 0 t) (iblk m c 1 t) (iblk m c 2 t) (iblk m c 3 t) _).2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hg]
      · isplitl [HS0]
        · unfold owns; iexists _; isplitr
          swap; · iexact HS0
          ipureintro; exact View.read_writes_of_cover _ _ _ _ _ (scover0_B c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point, -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the plain one back, the running sums forgotten; -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- so after the last point. -/
theorem hout (c : Dev nD) : (dats m 0 c).Φ (Fin.last cfg0.N) ⊢ Pipeline.ΦA spec0 c :=
  Phi_out m c _ (by rw [Fin.val_last]; have : cfg0.N = 512 := N_0; omega)

end Cert.KernelIdeal.Fr

end
-- ==== Proof.KI.Exit.lean ====
/-
  The buffers' contents when the region is left and when the program ends: at the region's exit every array of
  the pipeline holds what the write-backs left in it and every other buffer what it held at the region's entry;
  the five host lines after the region compute from that.
-/
import proofs.«136803_j33380485824748_1_alg».proof.Proof.KI.Data

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host lines allocate no buffer. -/
theorem hostOps0_fresh : ∀ op ∈ (hostOps0 : List (HloOp τ sig (Elt F))), op.fresh = ∅ := by
  intro _ h; (repeat (cases h with | head => rfl | tail _ h => ?_)); exact nomatch h
theorem hostOps1_fresh : ∀ op ∈ (hostOps1 : List (HloOp τ sig (Elt F))), op.fresh = ∅ := by
  intro _ h; (repeat (cases h with | head => rfl | tail _ h => ?_)); exact nomatch h

/-- Core `c`'s buffers when the region is left: the pipeline's arrays at their final contents, the rest as the
    region found them. -/
def W1 (c : Dev nD) : Valuation τ sig (Elt F) :=
  Pipeline.withArrays spec0 c (V0 m c) (fun w => (dats m 0 c).arrAt w cfg0.N)

/-- Core `c`'s buffers when the program ends: after the host lines that follow the region. -/
def Wfin (c : Dev nD) : Valuation τ sig (Elt F) := StableHlo.after hostOps1 (W1 m c)

end Cert.KernelIdeal.Fr

end
-- ==== Proof.KI.Launch.lean ====
/-
  The launch: the program as three stretches — the host line before the region, the region, the host lines after
  it — run one after the other from the launch memory.

  Two of the region's input windows read the boxes' array and two read the class words' column; each pair holds
  its array in two halves of the full share for the region's duration: at the region's entry the array's whole
  share is split, at its exit — an input array ends as it began — the halves are joined again. The host lines
  after the region then read the keep words the region wrote and compute the keep bits beside them.
-/
import proofs.«136803_j33380485824748_1_alg».proof.Proof.KI.Exit
import Idealize.ShloMosaic.Lib.Pipeline.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at their shares -/

/-- The pipeline's arrays, window by window, at the shares the proof data state. -/
theorem arrays_eq' (c : Dev nD) (G : (w : Fin cfg0.W) → Buf (Elt F) ((cfg0.win w).arr.view.loc (c : Thread nD τ))) :
    ((dats m 0 c).arrays G : sProp 𝕄) = iprop(
      (((c : Thread nD τ).loc main_arg0) ↦{halfL} G 0) ∗ (((c : Thread nD τ).loc main_arg0) ↦{halfR} G 1)
      ∗ (((c : Thread nD τ).loc main_v0) ↦{halfL} G 2) ∗ (((c : Thread nD τ).loc main_v0) ↦{halfR} G 3)
      ∗ (((c : Thread nD τ).loc main_v1_0) ↦{fullShare} G 4) ∗ (((c : Thread nD τ).loc main_v1_1) ↦{fullShare} G 5)) := by
  unfold Dat.arrays
  rw [bigSep_W0, (arr_whole0 0).set_eq_univ, (arr_whole0 2).set_eq_univ, (arr_whole0 4).set_eq_univ, (arr_whole0 5).set_eq_univ]
  rfl

/-- The buffers behind the windows' arrays, whole at contents `Vr`, listed. -/
theorem arrBufs_eq' (c : Dev nD) (Vr : (b : Ref sig .tc) → Buf (Elt F) ((c : Thread nD τ).loc b)) :
    (Pipeline.arrBufs spec0 c Vr : sProp 𝕄) = iprop(
      (((c : Thread nD τ).loc main_arg0) ↦{fullShare} Vr main_arg0) ∗ (((c : Thread nD τ).loc main_v0) ↦{fullShare} Vr main_v0)
      ∗ (((c : Thread nD τ).loc main_v1_0) ↦{fullShare} Vr main_v1_0) ∗ (((c : Thread nD τ).loc main_v1_1) ↦{fullShare} Vr main_v1_1)) := by
  unfold Pipeline.arrBufs
  exact bigSep_eq_bigSepL_of_eq [main_arg0, main_v0, main_v1_0, main_v1_1] (by decide) (by decide) _

/-- ENTRY: the arrays' buffers, each whole, make the pipeline's arrays at the same contents, the two shared ones
    split in halves. -/
theorem arrays_split (c : Dev nD) (Vr : (b : Ref sig .tc) → Buf (Elt F) ((c : Thread nD τ).loc b))
    (G : (w : Fin cfg0.W) → Buf (Elt F) ((cfg0.win w).arr.view.loc (c : Thread nD τ))) (hG : ∀ w, G w = Vr (Pipeline.arrRef spec0 w)) :
    (Pipeline.arrBufs spec0 c Vr : sProp 𝕄) ⊢ (dats m 0 c).arrays G := by
  rw [arrBufs_eq', arrays_eq', hG 0, hG 1, hG 2, hG 3, hG 4, hG 5]
  iintro ⟨H0, H2, H4, H5⟩
  ihave H0 := (pointsTo_share (PosShare.mem_left_op_right fullShare)).1 $$ H0
  icases H0 with ⟨H0, H1⟩
  ihave H2 := (pointsTo_share (PosShare.mem_left_op_right fullShare)).1 $$ H2
  icases H2 with ⟨H2, H3⟩
  isplitl [H0]; · iexact H0
  isplitl [H1]; · iexact H1
  isplitl [H2]; · iexact H2
  isplitl [H3]; · iexact H3
  isplitl [H4]; · iexact H4
  iexact H5

/-- EXIT: the pipeline's arrays, the two windows of each shared array at the same contents, make the arrays'
    buffers whole again. -/
theorem arrays_join (c : Dev nD) (Vr : (b : Ref sig .tc) → Buf (Elt F) ((c : Thread nD τ).loc b))
    (G : (w : Fin cfg0.W) → Buf (Elt F) ((cfg0.win w).arr.view.loc (c : Thread nD τ))) (hG : ∀ w, G w = Vr (Pipeline.arrRef spec0 w)) :
    (dats m 0 c).arrays G ⊢ (Pipeline.arrBufs spec0 c Vr : sProp 𝕄) := by
  rw [arrBufs_eq', arrays_eq', hG 0, hG 1, hG 2, hG 3, hG 4, hG 5]
  iintro ⟨H0, H1, H2, H3, H4, H5⟩
  isplitl [H0 H1]
  · iapply (pointsTo_share (PosShare.mem_left_op_right fullShare)).2
    isplitl [H0] <;> iassumption
  isplitl [H2 H3]
  · iapply (pointsTo_share (PosShare.mem_left_op_right fullShare)).2
    isplitl [H2] <;> iassumption
  isplitl [H4]; · iexact H4
  iexact H5

/-! ## The segments -/

/-- The pipeline library's algebra is the whole user algebra. -/
abbrev EP : Emb (UR sig nD τ) (MT nD τ sig Unit (Elt F) ℕ (UR sig nD τ) ℕ) := emb₁
abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm

/-- What rides beside the buffers through the host lines: the core's `owes` and its generator register. -/
abbrev R (c : Dev nD) : sProp 𝕄 :=
  iprop((∃ W, owes (c : Thread nD τ) (0 : CellTallies nD τ sig Unit) W) ∗ ∃ r, prngReg c r)

/-- The host line before the region, over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    hostOps0_fresh (V₀ m) R

/-- The host lines after the region, from the region's exit contents. -/
def seg1 : Pipeline.HostSeg (Name := ℕ) (U := UR sig nD τ) (pcfgs (F := F)) defs₀ 𝒱₀ L lv :=
  Pipeline.HostSeg.ofOps _ _ _ _ _ (Pipeline.ucRefs τ sig) hostOps1 (fun op h => Pipeline.sub_ucRefs op ((List.forall_iff_forall_mem.mp hostOps1_sub) op h))
    hostOps1_fresh (W1 m) R

/-! ## Entry and exit of the region -/

/-- An input window's array ends as the region found it. -/
theorem arrAt_in' (c : Dev nD) (w : Fin cfg0.W) (hw : (cfg0.win w).isOut = false) (n : ℕ) :
    (dats m 0 c).arrAt w n = V m c (Pipeline.arrRef spec0 w) :=
  ((dats m 0 c).arrAt_in w hw n).trans (A_eq m c w)

/-- The library's exit valuation read at a window's array, for windows that may share arrays: the two windows of a
    shared array holding the same contents, whichever of them is asked the answer is the same. -/
theorem withArrays_arr' (c : Dev nD) (Vv : Valuation τ sig (Elt F))
    (A : (w : Fin cfg0.W) → Buf (Elt F) ((spec0 w).arr.view.loc (c : Thread nD τ)))
    (h01 : A 0 = A 1) (h23 : A 2 = A 3) (w : Fin cfg0.W) :
    Pipeline.withArrays spec0 c Vv A (Proc.devRef .tc (Pipeline.arrRef spec0 w)) = A w := by
  unfold Pipeline.withArrays
  have h : ∃ w', Proc.devRef .tc (Pipeline.arrRef spec0 w') = Proc.devRef (τ := τ) .tc (Pipeline.arrRef spec0 w) := ⟨w, rfl⟩
  rw [dif_pos h]
  suffices ∀ (w' : Fin cfg0.W) (e : Proc.devRef .tc (Pipeline.arrRef spec0 w') = Proc.devRef (τ := τ) .tc (Pipeline.arrRef spec0 w)),
      cast (congrArg (fun b' : DevRef τ sig => b'.ty.Contents (Elt F)) e) (A w') = A w from this _ h.choose_spec
  intro w' e
  have e' : Pipeline.arrRef spec0 w' = Pipeline.arrRef spec0 w := Proc.devRef_injective (τ := τ) _ e
  fin_cases w <;> fin_cases w' <;> first
    | rfl
    | exact absurd e' (by decide)
    | exact h01
    | exact h01.symm
    | exact h23
    | exact h23.symm

/-- At the region's exit each window's array holds its final contents. -/
theorem W1_arr (c : Dev nD) (w : Fin cfg0.W) :
    W1 m c (Proc.devRef .tc (Pipeline.arrRef spec0 w)) = (dats m 0 c).arrAt w cfg0.N := by
  unfold W1
  exact withArrays_arr' c (V0 m c) (fun w => (dats m 0 c).arrAt w cfg0.N)
    ((arrAt_in' m c 0 rfl _).trans (arrAt_in' m c 1 rfl _).symm) ((arrAt_in' m c 2 rfl _).trans (arrAt_in' m c 3 rfl _).symm) w

/-- A buffer that is no window's array leaves the region as it entered it. -/
theorem W1_rest (c : Dev nD) (b : Ref sig .tc) (hb : ∀ w, Pipeline.arrRef spec0 w ≠ b) :
    W1 m c (Proc.devRef .tc b) = V m c b := by
  unfold W1; exact Pipeline.withArrays_of_ne spec0 c (V0 m c) _ b hb

/-- ENTRY: the unscoped buffers as the host line left them are the pipeline's arrays at their entry contents and
    the buffers that bypass the region. -/
theorem entry_bufs (c : Dev nD) :
    (StableHlo.held (c : Thread nD τ) (Pipeline.ucRefs τ sig) (V0 m c) : sProp 𝕄)
      ⊢ iprop((dats m 0 c).arrays ((dats m 0 c).arrAt · 0) ∗ Pipeline.unscopedRest spec0 c (V m c)) := by
  rw [← Pipeline.unscopedBufs_held c (V0 m c), Pipeline.unscopedBufs_split₀ cfgs 0 winFacts₀0.arr_unscoped c (V m c)]
  exact sep_mono (arrays_split m c (V m c) _ (fun w => A_eq m c w)) .rfl

/-- EXIT: the arrays at their final contents and the bypassing buffers are the unscoped buffers at the exit contents. -/
theorem exit_bufs (c : Dev nD) :
    iprop((dats m 0 c).arrays ((dats m 0 c).arrAt · cfg0.N) ∗ Pipeline.unscopedRest spec0 c (V m c))
      ⊢ (StableHlo.held (c : Thread nD τ) (Pipeline.ucRefs τ sig) (W1 m c) : sProp 𝕄) := by
  rw [← Pipeline.unscopedBufs_held c (W1 m c), Pipeline.unscopedBufs_split₀ cfgs 0 winFacts₀0.arr_unscoped c (fun b => W1 m c (Proc.devRef .tc b))]
  refine sep_mono (arrays_join m c (fun b => W1 m c (Proc.devRef .tc b)) _ (fun w => (W1_arr m c w).symm)) (Entails.of_eq ?_)
  unfold Pipeline.unscopedRest
  refine bigSep_congr fun b hb => ?_
  rw [show (fun b => W1 m c (Proc.devRef .tc b)) b = V m c b from W1_rest m c b (fun w hw => (Finset.mem_sdiff.mp hb).2 (Finset.mem_image.mpr ⟨w, Finset.mem_univ _, hw⟩))]

-- a library lemma stated over the pinned configuration unifies only when unification may unfold plain definitions in a metavariable's type
set_option backward.isDefEq.respectTransparency.types false in
/-- THE REGION: entered from what the first host line left — the arrays into the pipeline (the shared ones split in
    halves), the generator register into the invariant, every other buffer bypassing —, left with the arrays at their
    final contents (the halves joined). -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest spec0 c (V m c)
  hentry c := by
    iintro ⟨⟨Hh, ⟨%W, HO⟩, Hg⟩, -, -⟩
    ihave H := (entry_bufs m c) $$ Hh
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun _ _ => Or.inl trivial
      iexact HO
    isplitl [Hg]; · iexact Hg
    iexact Hr
  hin c := (show _ ⊢ Pipeline.ΦA spec0 c from by
      unfold Pipeline.ΦA
      iintro ⟨Hg, -, Hr⟩
      isplitl [Hr] <;> iassumption).trans (hin m c)
  hout c := by
    refine (hout m c).trans ?_
    rw [Pipeline.ownSems0_none]; unfold Pipeline.ΦA
    iintro ⟨Hr, Hg⟩
    isplitl [Hg]; · iexact Hg
    isplitr; · iempintro
    iexact Hr
  hexit c := by
    iintro ⟨Ha, HO, Hg, Hr⟩
    ihave Hh := (exit_bufs m c) $$ [Ha Hr]
    · isplitl [Ha] <;> iassumption
    imodintro
    isplitl [Hh]; · iexact Hh
    isplitl [HO]
    · unfold Pipeline.Dat.owesAt Pipeline.owesWithin
      icases HO with ⟨%W, -, HO⟩; iexists W; iexact HO
    iexact Hg

/-- @main as the three segments. -/
abbrev segs : List (Pipeline.Seg (pcfgs (F := F)) adm (dats m) () defs₀ 𝒱₀ L lv) := [.host (seg0 m), .region (reg0 m), .host (seg1 m)]

/-- What is held at the end: the unscoped buffers at the final contents, and the generator register. -/
abbrev Tₙ (c : Dev nD) : sProp 𝕄 :=
  iprop(StableHlo.held (c : Thread nD τ) (Pipeline.ucRefs τ sig) (Wfin m c) ∗ ∃ r, prngReg c r)

/-- The physical post: every unscoped buffer of every core at the final contents. -/
def QC : PUnit × MemSt nD τ sig (Elt F) → Prop := fun r =>
  ∀ c : Dev nD, ∀ b ∈ (Finset.univ.filter fun b : Ref sig .tc => ¬ b.isScoped),
    r.2.mem ((c : Thread nD τ).loc b) = Wfin m c (Proc.devRef .tc b)

-- the launch theorem's implicit arguments are found by unifying its conclusion with this one, which takes unfolding plain definitions in a metavariable's type
set_option backward.isDefEq.respectTransparency.types false in
/-- At the compiled mesh, for any float values, from any memory with zero counters: every weakly fair execution of
    @main on the TensorCores terminates, and in every final state every unscoped buffer holds the final contents. -/
theorem run_main : θ_run defs (onTc (τ := τ) (main (F := F))) (s₀ m ρ) (QC m) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c)) (Tₙ := Tₙ m)
    (hch := ⟨fun _ => .rfl, fun _ => .rfl, fun _ => .rfl, fun c => by
      show iprop(StableHlo.held (c : Thread nD τ) (Pipeline.ucRefs τ sig) (StableHlo.after hostOps1 (W1 m c)) ∗ R c)
        ⊢ iprop(Tₙ m c ∗ ∃ W, owes (c : Thread nD τ) (0 : CellTallies nD τ sig Unit) W)
      dsimp only [Tₙ]; unfold Wfin
      iintro ⟨Hh, HO, Hg⟩
      isplitr [HO]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, Hg, -⟩, -⟩
      imodintro
      isplitl [Hh]; · iexact Hh
      isplitl [HO]; · iexists ∅; iexact HO
      iexists _; iexact Hg)
    (QY := fun c s => ∀ b ∈ (Finset.univ.filter fun b : Ref sig .tc => ¬ b.isScoped), s.mem ((c : Thread nD τ).loc b) = Wfin m c (Proc.devRef .tc b))
    (hfin := fun c s' => by
      dsimp only [Tₙ]
      rw [← Pipeline.unscopedBufs_held c (Wfin m c)]
      unfold unscopedBufs
      iintro ⟨⟨Hh, -⟩, HSI⟩
      imodintro
      iapply (pointsTo_read_all (Finset.univ.filter fun b : Ref sig .tc => ¬ b.isScoped) (fun b => (c : Thread nD τ).loc b) (fun b => Wfin m c (Proc.devRef .tc b)) s')
      isplitl [Hh] <;> iassumption)
    (hQ := fun _ h => h)

/-- info: 'Cert.KernelIdeal.Fr.run_main' depends on axioms: [propext, Classical.choice, Quot.sound] -/
#guard_msgs in #print axioms run_main

end Cert.KernelIdeal.Fr

end
-- ==== Proof.KI.Tail.lean ====
/-
  What the buffers hold when the region is left and when the program ends, buffer by buffer.

  When the region is left, each of the pipeline's arrays holds what its window's write-backs left and every other
  buffer what it held when the region was entered. Two pairs of windows read one array each (the boxes, and the
  class words as a column); no window writes those back, so whichever window of the pair is asked, the array is as
  the region found it, which for the boxes is as launched (the one host line before the region writes only the
  column of class words). The two result arrays have one window each.

  The five host lines after the region write only their own results: the boxes' result array and the two
  arguments end as the region left them. The last result is the keep words' result array with its unit axis
  dropped, compared with the zero word: at (b, n) the bit "the keep word of box n of batch b is not zero".
-/
import proofs.«136803_j33380485824748_1_alg».proof.Proof.KI.Exit
import Idealize.ShloMosaic.Lib.ValueIdx
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is left -/

/-- The exit valuation at a window's array: whichever window of that array is picked, its final contents. -/
theorem withArrays_at (c : Dev nD) (V : Valuation τ sig (Elt F))
    (A : (w : Fin 6) → Buf (Elt F) ((spec0 w).arr.view.loc (c.tc : Thread nD τ))) (b : Ref sig .tc)
    (X : (Proc.devRef (τ := τ) .tc b).ty.Contents (Elt F)) (hex : ∃ w, Pipeline.arrRef spec0 w = b)
    (hX : ∀ (w : Fin 6) (e : Proc.devRef (τ := τ) .tc (Pipeline.arrRef spec0 w) = Proc.devRef .tc b),
      cast (congrArg (fun b' : DevRef τ sig => b'.ty.Contents (Elt F)) e) (A w) = X) :
    Pipeline.withArrays spec0 c V A (Proc.devRef .tc b) = X := by
  unfold Pipeline.withArrays
  have h : ∃ w', Proc.devRef (τ := τ) .tc (Pipeline.arrRef spec0 w') = Proc.devRef .tc b := by
    obtain ⟨w, e⟩ := hex
    exact ⟨w, congrArg _ e⟩
  rw [dif_pos h]
  exact hX _ h.choose_spec

/-- The boxes' result array holds what the write-backs of window 4 left. -/
theorem W1_v1_0 (c : Dev nD) : W1 m c (Proc.devRef .tc main_v1_0) = (dats m 0 c).arrAt 4 cfg0.N := by
  unfold W1
  have hne : ∀ w : Fin 6, w ≠ 4 → Pipeline.arrRef spec0 w ≠ main_v1_0 := by decide
  refine withArrays_at c _ _ main_v1_0 _ ⟨4, rfl⟩ (fun w => ?_)
  by_cases hw : w = 4
  · subst hw; exact fun e => rfl
  · exact fun e => absurd (Proc.devRef_injective _ e) (hne w hw)

/-- The keep words' result array holds what the write-backs of window 5 left. -/
theorem W1_v1_1 (c : Dev nD) : W1 m c (Proc.devRef .tc main_v1_1) = (dats m 0 c).arrAt 5 cfg0.N := by
  unfold W1
  have hne : ∀ w : Fin 6, w ≠ 5 → Pipeline.arrRef spec0 w ≠ main_v1_1 := by decide
  refine withArrays_at c _ _ main_v1_1 _ ⟨5, rfl⟩ (fun w => ?_)
  by_cases hw : w = 5
  · subst hw; exact fun e => rfl
  · exact fun e => absurd (Proc.devRef_injective _ e) (hne w hw)

/-- The one host line before the region writes neither argument. -/
theorem not_written0 (b : Ref sig .tc) (hb : b ≠ main_v0) :
    ∀ op ∈ (hostOps0 : List (HloOp τ sig (Elt F))), Proc.devRef .tc b ∉ op.writes := by
  intro op hop
  simp only [List.mem_cons, List.mem_nil_iff, or_false] at hop
  subst hop
  simp only [StableHlo.reshape_writes, Finset.mem_singleton]
  exact StableHlo.devRef_ne_of_ne hb

/-- The boxes reach the region as launched. -/
theorem V_at_arg0 (c : Dev nD) : V m c main_arg0 = m ((c : Thread nD τ).loc main_arg0) :=
  StableHlo.after_of_forall_not_mem (b := Proc.devRef .tc main_arg0) hostOps0 (V₀ m c) (not_written0 main_arg0 (by decide))

/-- The class words reach the region as launched. -/
theorem V_at_arg1 (c : Dev nD) : V m c main_arg1 = m ((c : Thread nD τ).loc main_arg1) :=
  StableHlo.after_of_forall_not_mem (b := Proc.devRef .tc main_arg1) hostOps0 (V₀ m c) (not_written0 main_arg1 (by decide))

/-- The boxes' array, read by two windows and written back by none, leaves the region as launched. -/
theorem W1_arg0 (c : Dev nD) : W1 m c (Proc.devRef .tc main_arg0) = m ((c : Thread nD τ).loc main_arg0) := by
  unfold W1
  have hne : ∀ w : Fin 6, w ≠ 0 → w ≠ 1 → Pipeline.arrRef spec0 w ≠ main_arg0 := by decide
  have h10 : (dats m 0 c).arrAt 0 cfg0.N = (dats m 0 c).A 0 := (dats m 0 c).arrAt_in 0 rfl cfg0.N
  have h20 : (dats m 0 c).A 0 = V m c main_arg0 := A_eq m c 0
  have h11 : (dats m 0 c).arrAt 1 cfg0.N = (dats m 0 c).A 1 := (dats m 0 c).arrAt_in 1 rfl cfg0.N
  have h21 : (dats m 0 c).A 1 = V m c main_arg0 := A_eq m c 1
  have e0 : (dats m 0 c).arrAt 0 cfg0.N = m ((c : Thread nD τ).loc main_arg0) := h10.trans (h20.trans (V_at_arg0 m c))
  have e1 : (dats m 0 c).arrAt 1 cfg0.N = m ((c : Thread nD τ).loc main_arg0) := h11.trans (h21.trans (V_at_arg0 m c))
  refine withArrays_at c _ _ main_arg0 _ ⟨0, rfl⟩ (fun w => ?_)
  by_cases hw0 : w = 0
  · subst hw0
    intro e
    exact (cast_eq _ _).trans e0
  by_cases hw1 : w = 1
  · subst hw1
    intro e
    exact (cast_eq _ _).trans e1
  exact fun e => absurd (Proc.devRef_injective _ e) (hne w hw0 hw1)

/-- The class words' array is no window's: it leaves the region as it entered, as launched. -/
theorem W1_arg1 (c : Dev nD) : W1 m c (Proc.devRef .tc main_arg1) = m ((c : Thread nD τ).loc main_arg1) := by
  unfold W1
  exact (Pipeline.withArrays_of_ne spec0 c _ _ main_arg1 (by decide)).trans (V_at_arg1 m c)

/-! ## The buffers when the program ends -/

/-- The five host lines after the region write only their own results. -/
theorem not_written1 (b : Ref sig .tc)
    (hb : b ≠ main_v2 ∧ b ≠ main_c ∧ b ≠ main_v3 ∧ b ≠ main_v4 ∧ b ≠ main_v5) :
    ∀ op ∈ (hostOps1 : List (HloOp τ sig (Elt F))), Proc.devRef .tc b ∉ op.writes := by
  obtain ⟨h2, hc, h3, h4, h5⟩ := hb
  intro op hop
  simp only [List.mem_cons, List.mem_nil_iff, or_false] at hop
  rcases hop with rfl | rfl | rfl | rfl | rfl <;>
    simp only [StableHlo.unary_writes, StableHlo.binary_writes, StableHlo.nullary_writes, StableHlo.reshape_writes,
      Finset.mem_singleton] <;>
    exact StableHlo.devRef_ne_of_ne ‹_›

/-- The boxes' result array ends as the region left it. -/
theorem Wfin_v1_0 (c : Dev nD) : Wfin m c (Proc.devRef .tc main_v1_0) = (dats m 0 c).arrAt 4 cfg0.N := by
  unfold Wfin
  exact (StableHlo.after_of_forall_not_mem (b := Proc.devRef .tc main_v1_0) hostOps1 (W1 m c)
    (not_written1 main_v1_0 (by decide))).trans (W1_v1_0 m c)

/-- The boxes end as launched. -/
theorem Wfin_arg0 (c : Dev nD) : Wfin m c (Proc.devRef .tc main_arg0) = m ((c : Thread nD τ).loc main_arg0) := by
  unfold Wfin
  exact (StableHlo.after_of_forall_not_mem (b := Proc.devRef .tc main_arg0) hostOps1 (W1 m c)
    (not_written1 main_arg0 (by decide))).trans (W1_arg0 m c)

/-- The class words end as launched. -/
theorem Wfin_arg1 (c : Dev nD) : Wfin m c (Proc.devRef .tc main_arg1) = m ((c : Thread nD τ).loc main_arg1) := by
  unfold Wfin
  exact (StableHlo.after_of_forall_not_mem (b := Proc.devRef .tc main_arg1) hostOps1 (W1 m c)
    (not_written1 main_arg1 (by decide))).trans (W1_arg1 m c)

/-- The keep bits: the keep words' result array, its unit axis dropped, compared with zero. -/
theorem Wfin_v5 (c : Dev nD) : (Wfin m c (Proc.devRef .tc main_v5) : S8x4096.Idx → BitVec 1)
    = cmpi .ne (shapeCast S8x4096 ((dats m 0 c).arrAt 5 cfg0.N : S8x4096x1.Idx → BitVec 32) shapeCasts_S8x4096x1_S8x4096)
        (broadcastInDim S8x4096 ![] bcast_S_S8x4096 (constantI S_ 32 0#32)) := by
  unfold Wfin
  show StableHlo.after hostOps1 (W1 m c) (Proc.devRef .tc main_v5) = _
  after_results
  rw [W1_v1_1]
  rfl

/-- A keep bit at an index: the stored keep word there compared with zero. -/
theorem Wfin_v5_at (c : Dev nD) (b : Fin 8) (n : Fin 4096) :
    Wfin m c (Proc.devRef .tc main_v5) (ix2 b n) = IntOp.cmpi .ne ((dats m 0 c).arrAt 5 cfg0.N (ix3 b n 0)) 0#32 := by
  refine (congrFun (Wfin_v5 m c) (ix2 b n)).trans ?_
  show IntOp.cmpi .ne (shapeCast S8x4096 ((dats m 0 c).arrAt 5 cfg0.N : S8x4096x1.Idx → BitVec 32) shapeCasts_S8x4096x1_S8x4096 (ix2 b n)) 0#32 = _
  refine congrArg (fun x => IntOp.cmpi .ne x 0#32) ?_
  refine shapeCast_apply _ _ (ix2 b n) (ix3 b n 0) ?_
  rw [Shape.rowMajor_val_three, Shape.rowMajor_val_two]
  show (b.val * 4096 + n.val) * 1 + 0 = b.val * 4096 + n.val
  omega

end Cert.KernelIdeal.Fr

end
-- ==== Proof.KI.FrameOf.lean ====
/-
  The program runs and leaves its two argument arrays as it found them.

  At the end every buffer that outlives the program holds its final contents; the two argument arrays are among
  those buffers, no line of the program writes them, and so their final contents are the launch's.
-/
import proofs.«136803_j33380485824748_1_alg».proof.Proof.KI.Launch
import proofs.«136803_j33380485824748_1_alg».proof.Proof.KI.Tail

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two argument arrays are among the buffers that outlive the program. -/
theorem arg0_unscoped : main_arg0 ∈ (Finset.univ.filter fun b : Ref sig .tc => ¬ b.isScoped) := by decide
theorem arg1_unscoped : main_arg1 ∈ (Finset.univ.filter fun b : Ref sig .tc => ¬ b.isScoped) := by decide

/-- The program runs and leaves its two argument arrays as launched. -/
theorem frame_run : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c main_arg0 arg0_unscoped).trans (Wfin_arg0 m c),
      (h c main_arg1 arg1_unscoped).trans (Wfin_arg1 m c)⟩)
    (run_main m ρ)

end Cert.KernelIdeal.Fr

end
-- ==== Proof.KI.Pieces.lean ====
/-
  What each case of the kernel body leaves, as the body's own arithmetic of the input blocks.

  The body keeps running row sums in a scratch. At every point it adds the block's contribution (the areas of the
  column block's boxes that count for each row box, summed along the row) to what the scratch holds: at a first
  column block that is the zero splat stored just before and read back, elsewhere what the point before left. At a
  last column block the finished sums are read back once more, compared with the threshold, and the result is
  stored as the keep words and, as a number, scaled into the boxes. Every store and load goes through the whole
  buffer, so what a buffer reads after the body is the payload of the last store into it.
-/
import proofs.«136803_j33380485824748_1_alg».proof.Proof.KI.Data
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole-buffer rectangle's offsets are zero on every axis. -/
theorem hz2 : (![0, 0] : Fin 2 → Nat) = fun _ => 0 := funext fun a => by fin_cases a <;> rfl
theorem hz3 : (![0, 0, 0] : Fin 3 → Nat) = fun _ => 0 := funext fun a => by fin_cases a <;> rfl

/-- The running row sums after a block: what was there plus the block's contribution. -/
abbrev acc (i : grid0.Coords) (x0 : Vec F S1x512x4 .f32) (x1 : Vec F S1x512x4 .f32) (x2 : Vec F S1x512x1 .i32) (x3 : Vec F S1x512x1 .i32) (v61 : Vec F S512x1 .f32) : FVec F S512x1 .f32 :=
  k0_pay1 (BitVec.ofNat 32 (i 1).val) (BitVec.ofNat 32 (i 2).val) (k0_pay16 x1) (k0_pay17 x0 x1) (k0_pay18 x2 x3) v61

/-- At a first column block the running sums are reset to the zero splat, read back, and the block's contribution
    is added: the later of the two stores covers, and the load between them reads the zero splat. -/
theorem sout0_A_eq (c : Dev nD) (i : grid0.Coords) (arg3 : Memref sig .tc .vmem S1x512x4 .f32) (harg3 : arg3.IsWhole) (arg4 : Memref sig .tc .vmem S1x512x4 .f32) (harg4 : arg4.IsWhole) (arg5 : Memref sig .tc .vmem S1x512x1 .i32) (harg5 : arg5.IsWhole) (arg6 : Memref sig .tc .vmem S1x512x1 .i32) (harg6 : arg6.IsWhole) (arg7 : Memref sig .tc .vmem S1x512x4 .f32) (harg7 : arg7.IsWhole) (arg8 : Memref sig .tc .vmem S1x512x1 .i32) (harg8 : arg8.IsWhole) (arg9 : Memref sig .tc .vmem S512x1 .f32) (harg9 : arg9.IsWhole) (hc0 : cond0_0 i) (hc1 : ¬cond0_1 i)
    (x0 : Vec F S1x512x4 .f32) (x1 : Vec F S1x512x4 .f32) (x2 : Vec F S1x512x1 .i32) (x3 : Vec F S1x512x1 .i32) :
    sout0_A c i arg3 harg3 arg4 harg4 arg5 harg5 arg6 harg6 arg7 harg7 arg8 harg8 arg9 harg9 hc0 hc1 x0 x1 x2 x3 = acc i x0 x1 x2 x3 (k0_pay5 (F := F)) := by
  unfold sout0_A
  rw [View.read_writes_eq_canon _ _ _ (scover0_A c i arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S512x1) hz2]
  simp only [View.readAt_eq_ld, harg3.read_unread, harg4.read_unread, harg5.read_unread, harg6.read_unread,
    harg9.read_unread, View.ld_unit_zero (S := S1x512x4) hz3, View.ld_unit_zero (S := S1x512x1) hz3,
    View.ld_unit_zero (S := S512x1) hz2, View.readCov_unit_zero (S := S512x1) _ hz2]

/-- At a middle column block the block's contribution is added to what the point before left: one covering store. -/
theorem sout0_B_eq (c : Dev nD) (i : grid0.Coords) (arg3 : Memref sig .tc .vmem S1x512x4 .f32) (harg3 : arg3.IsWhole) (arg4 : Memref sig .tc .vmem S1x512x4 .f32) (harg4 : arg4.IsWhole) (arg5 : Memref sig .tc .vmem S1x512x1 .i32) (harg5 : arg5.IsWhole) (arg6 : Memref sig .tc .vmem S1x512x1 .i32) (harg6 : arg6.IsWhole) (arg7 : Memref sig .tc .vmem S1x512x4 .f32) (harg7 : arg7.IsWhole) (arg8 : Memref sig .tc .vmem S1x512x1 .i32) (harg8 : arg8.IsWhole) (arg9 : Memref sig .tc .vmem S512x1 .f32) (harg9 : arg9.IsWhole) (hc0 : ¬cond0_0 i) (hc1 : ¬cond0_1 i)
    (x0 : Vec F S1x512x4 .f32) (x1 : Vec F S1x512x4 .f32) (x2 : Vec F S1x512x1 .i32) (x3 : Vec F S1x512x1 .i32) (xs0 : Vec F S512x1 .f32) :
    sout0_B c i arg3 harg3 arg4 harg4 arg5 harg5 arg6 harg6 arg7 harg7 arg8 harg8 arg9 harg9 hc0 hc1 x0 x1 x2 x3 xs0 = acc i x0 x1 x2 x3 xs0 := by
  unfold sout0_B
  rw [View.read_writes_eq_canon _ _ _ (scover0_B c i arg3 harg3 arg4 harg4 arg5 harg5 arg6 harg6 arg7 harg7 arg8 harg8 arg9 harg9 hc0 hc1 x0 x1 x2 x3 xs0)]
  unfold kernelRun0_B
  dsimp only
  sl_unfold_words
  rw [View.canon_unit_zero (S := S512x1) hz2]
  simp only [View.readAt_eq_ld, harg3.read_unread, harg4.read_unread, harg5.read_unread, harg6.read_unread,
    harg9.read_unread, View.ld_unit_zero (S := S1x512x4) hz3, View.ld_unit_zero (S := S1x512x1) hz3,
    View.ld_unit_zero (S := S512x1) hz2, View.readCov_unit_zero (S := S512x1) _ hz2]

/-- At a last column block the scratch is updated in the same way, -/
theorem sout0_C_eq (c : Dev nD) (i : grid0.Coords) (arg3 : Memref sig .tc .vmem S1x512x4 .f32) (harg3 : arg3.IsWhole) (arg4 : Memref sig .tc .vmem S1x512x4 .f32) (harg4 : arg4.IsWhole) (arg5 : Memref sig .tc .vmem S1x512x1 .i32) (harg5 : arg5.IsWhole) (arg6 : Memref sig .tc .vmem S1x512x1 .i32) (harg6 : arg6.IsWhole) (arg7 : Memref sig .tc .vmem S1x512x4 .f32) (harg7 : arg7.IsWhole) (arg8 : Memref sig .tc .vmem S1x512x1 .i32) (harg8 : arg8.IsWhole) (arg9 : Memref sig .tc .vmem S512x1 .f32) (harg9 : arg9.IsWhole) (hc0 : ¬cond0_0 i) (hc1 : cond0_1 i)
    (x0 : Vec F S1x512x4 .f32) (x1 : Vec F S1x512x4 .f32) (x2 : Vec F S1x512x1 .i32) (x3 : Vec F S1x512x1 .i32) (xs0 : Vec F S512x1 .f32) :
    sout0_C c i arg3 harg3 arg4 harg4 arg5 harg5 arg6 harg6 arg7 harg7 arg8 harg8 arg9 harg9 hc0 hc1 x0 x1 x2 x3 xs0 = acc i x0 x1 x2 x3 xs0 := by
  unfold sout0_C
  rw [View.read_writes_eq_canon _ _ _ (scover0_C c i arg3 harg3 arg4 harg4 arg5 harg5 arg6 harg6 arg7 harg7 arg8 harg8 arg9 harg9 hc0 hc1 x0 x1 x2 x3 xs0)]
  unfold kernelRun0_C
  dsimp only
  sl_unfold_words
  rw [View.canon_unit_zero (S := S512x1) hz2]
  simp only [View.readAt_eq_ld, harg3.read_unread, harg4.read_unread, harg5.read_unread, harg6.read_unread,
    harg9.read_unread, View.ld_unit_zero (S := S1x512x4) hz3, View.ld_unit_zero (S := S1x512x1) hz3,
    View.ld_unit_zero (S := S512x1) hz2, View.readCov_unit_zero (S := S512x1) _ hz2]

/-- the keep words are computed from the finished sums read back from the scratch, -/
theorem out0_C_5_eq (c : Dev nD) (i : grid0.Coords) (arg3 : Memref sig .tc .vmem S1x512x4 .f32) (harg3 : arg3.IsWhole) (arg4 : Memref sig .tc .vmem S1x512x4 .f32) (harg4 : arg4.IsWhole) (arg5 : Memref sig .tc .vmem S1x512x1 .i32) (harg5 : arg5.IsWhole) (arg6 : Memref sig .tc .vmem S1x512x1 .i32) (harg6 : arg6.IsWhole) (arg7 : Memref sig .tc .vmem S1x512x4 .f32) (harg7 : arg7.IsWhole) (arg8 : Memref sig .tc .vmem S1x512x1 .i32) (harg8 : arg8.IsWhole) (arg9 : Memref sig .tc .vmem S512x1 .f32) (harg9 : arg9.IsWhole) (hc0 : ¬cond0_0 i) (hc1 : cond0_1 i)
    (x0 : Vec F S1x512x4 .f32) (x1 : Vec F S1x512x4 .f32) (x2 : Vec F S1x512x1 .i32) (x3 : Vec F S1x512x1 .i32) (xs0 : Vec F S512x1 .f32) :
    out0_C_5 c i arg3 harg3 arg4 harg4 arg5 harg5 arg6 harg6 arg7 harg7 arg8 harg8 arg9 harg9 hc0 hc1 x0 x1 x2 x3 xs0
      = k0_pay3 (k0_pay8 x0) (k0_pay9 x0) (k0_pay10 x0) (k0_pay11 x0) (acc i x0 x1 x2 x3 xs0) := by
  unfold out0_C_5
  rw [View.read_writes_eq_canon _ _ _ (cover0_C_5 c i arg3 harg3 arg4 harg4 arg5 harg5 arg6 harg6 arg7 harg7 arg8 harg8 arg9 harg9 hc0 hc1 x0 x1 x2 x3 xs0)]
  unfold kernelRun0_C
  dsimp only
  sl_unfold_words
  rw [View.canon_unit_zero (S := S1x512x1) hz3]
  simp only [View.readAt_eq_ld, harg3.read_unread, harg4.read_unread, harg5.read_unread, harg6.read_unread,
    harg9.read_unread, View.ld_unit_zero (S := S1x512x4) hz3, View.ld_unit_zero (S := S1x512x1) hz3,
    View.ld_unit_zero (S := S512x1) hz2, View.readCov_unit_zero (S := S512x1) _ hz2]

/-- and the boxes are scaled by them. -/
theorem out0_C_4_eq (c : Dev nD) (i : grid0.Coords) (arg3 : Memref sig .tc .vmem S1x512x4 .f32) (harg3 : arg3.IsWhole) (arg4 : Memref sig .tc .vmem S1x512x4 .f32) (harg4 : arg4.IsWhole) (arg5 : Memref sig .tc .vmem S1x512x1 .i32) (harg5 : arg5.IsWhole) (arg6 : Memref sig .tc .vmem S1x512x1 .i32) (harg6 : arg6.IsWhole) (arg7 : Memref sig .tc .vmem S1x512x4 .f32) (harg7 : arg7.IsWhole) (arg8 : Memref sig .tc .vmem S1x512x1 .i32) (harg8 : arg8.IsWhole) (arg9 : Memref sig .tc .vmem S512x1 .f32) (harg9 : arg9.IsWhole) (hc0 : ¬cond0_0 i) (hc1 : cond0_1 i)
    (x0 : Vec F S1x512x4 .f32) (x1 : Vec F S1x512x4 .f32) (x2 : Vec F S1x512x1 .i32) (x3 : Vec F S1x512x1 .i32) (xs0 : Vec F S512x1 .f32) :
    out0_C_4 c i arg3 harg3 arg4 harg4 arg5 harg5 arg6 harg6 arg7 harg7 arg8 harg8 arg9 harg9 hc0 hc1 x0 x1 x2 x3 xs0
      = k0_pay4 (k0_pay6 x0) (k0_pay8 x0) (k0_pay9 x0) (k0_pay10 x0) (k0_pay11 x0) (acc i x0 x1 x2 x3 xs0) := by
  unfold out0_C_4
  rw [View.read_writes_eq_canon _ _ _ (cover0_C_4 c i arg3 harg3 arg4 harg4 arg5 harg5 arg6 harg6 arg7 harg7 arg8 harg8 arg9 harg9 hc0 hc1 x0 x1 x2 x3 xs0)]
  unfold kernelRun0_C
  dsimp only
  sl_unfold_words
  rw [View.canon_unit_zero (S := S1x512x4) hz3]
  simp only [View.readAt_eq_ld, harg3.read_unread, harg4.read_unread, harg5.read_unread, harg6.read_unread,
    harg9.read_unread, View.ld_unit_zero (S := S1x512x4) hz3, View.ld_unit_zero (S := S1x512x1) hz3,
    View.ld_unit_zero (S := S512x1) hz2, View.readCov_unit_zero (S := S512x1) _ hz2]

end Cert.KernelIdeal.Fr

end
-- ==== Proof.Spec.lean ====
/-
  The mathematics both programs compute, stated once over the two argument arrays, index by index.

  `box` holds 8 batches of 4096 boxes `(x1, y1, x2, y2)`, `cls` one class word per box. Box `j` counts for box `i`
  of the same batch when it lies inside it (four comparisons), has the same class and is another box; the areas
  of the boxes that count are summed over `j`, and box `i` is kept when that sum is at most the fixed fraction of
  its own area (plus the fixed epsilon). The results are the boxes scaled by their keep bit, and the keep bits.

  The kernel adds the 4096 terms of a row in eight blocks of 512 onto a running value that starts at zero;
  `accUpTo` is that running value and `accUpTo_last` says it ends at the whole sum: addition of extended reals is
  associative and commutative and `0` is neutral, and nothing else is used (no distributivity, so no finiteness).
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The boxes' array shape and the class words' array shape. -/
abbrev SBox : Shape := ⟨3, ![8, 4096, 4]⟩
abbrev SCls : Shape := ⟨2, ![8, 4096]⟩

/-- The fraction `0.8` and the epsilon `1e-9` as the float patterns both programs spell (never evaluated). -/
abbrev frac : EReal := Ideal.ofBits .f32 0x3F4CCCCD#32
abbrev eps : EReal := Ideal.ofBits .f32 0x3089705F#32

section
variable (box : SBox.Idx → EReal) (cls : SCls.Idx → BitVec 32)

/-- Coordinate `k` of box `n` of batch `b`. -/
def crd (b : Fin 8) (n : Fin 4096) (k : Fin 4) : EReal := box (ix3 b n k)

/-- A box's area. -/
def area (b : Fin 8) (n : Fin 4096) : EReal := (crd box b n 2 - crd box b n 0) * (crd box b n 3 - crd box b n 1)

/-- "Another box": one exactly off the diagonal. -/
def ndiag (i j : Fin 4096) : BitVec 1 := if i = j then 0#1 else 1#1

/-- Box `j` counts for box `i`: inside it, of its class, and not itself (the six bits anded left to right). -/
def valid (b : Fin 8) (i j : Fin 4096) : BitVec 1 :=
  ((((Ideal.cmp .oge (crd box b j 0) (crd box b i 0) &&& Ideal.cmp .oge (crd box b j 1) (crd box b i 1))
        &&& Ideal.cmp .ole (crd box b j 2) (crd box b i 2))
      &&& Ideal.cmp .ole (crd box b j 3) (crd box b i 3))
    &&& IntOp.cmpi .eq (cls (ix2 b i)) (cls (ix2 b j)))
  &&& ndiag i j

/-- The term box `j` contributes to box `i`'s sum. -/
def term (b : Fin 8) (i j : Fin 4096) : EReal := if valid box cls b i j = 1#1 then area box b j else 0

/-- The summed area of the boxes that count for box `i`. -/
def total (b : Fin 8) (i : Fin 4096) : EReal := ∑ j : Fin 4096, term box cls b i j

/-- The threshold of box `i`. -/
def thr (b : Fin 8) (i : Fin 4096) : EReal := frac * (area box b i + eps)

/-- The keep bit computed from a summed area `s`, and box `i`'s keep bit. -/
def keepOf (b : Fin 8) (i : Fin 4096) (s : EReal) : BitVec 1 := Ideal.cmp .ole s (thr box b i)
def keep (b : Fin 8) (i : Fin 4096) : BitVec 1 := keepOf box b i (total box cls b i)

/-- A keep bit as the number it scales a box by. -/
def bitF (k : BitVec 1) : EReal := if k = 1#1 then 1 else 0

/-- The two results. -/
def outBox : SBox.Idx → EReal := fun y => box y * bitF (keep box cls (y 0) (y 1))
def outKeep : SCls.Idx → BitVec 1 := fun y => keep box cls (y 0) (y 1)

theorem outBox_ix3 (b : Fin 8) (n : Fin 4096) (k : Fin 4) :
    outBox box cls (ix3 b n k) = box (ix3 b n k) * bitF (keep box cls b n) := rfl
theorem outKeep_ix2 (b : Fin 8) (n : Fin 4096) : outKeep box cls (ix2 b n) = keep box cls b n := rfl

end

/-! ## A row's sum taken in eight blocks of 512 -/

/-- Position `jj` of block `J` of a row of 4096. -/
def at512 (J : Fin 8) (jj : Fin 512) : Fin 4096 := ⟨J.val * 512 + jj.val, by have := J.isLt; have := jj.isLt; omega⟩

/-- Block `J`'s part of a row's sum. -/
def blk (f : Fin 4096 → EReal) (J : Fin 8) : EReal := ∑ jj : Fin 512, f (at512 J jj)

/-- The running value after block `J`: zero plus the first block's part, then each later block's part added on. -/
def accUpTo (f : Fin 4096 → EReal) : (J : ℕ) → J < 8 → EReal
  | 0, h => 0 + blk f ⟨0, h⟩
  | J + 1, h => accUpTo f J (by omega) + blk f ⟨J + 1, h⟩

end Cert.Spec

end
-- ==== Proof.KI.Blocks.lean ====
/-
  Where each window's block sits in its array.

  The grid is 8 × 8 × 8 with the last axis fastest, so point `t` has batch `t / 64`, row block `t / 8 % 8` and
  column block `t % 8`. The boxes' array is read through two windows of 512 boxes: one follows the row block,
  the other the column block; the class words' column is read the same way. A block's coordinate on an axis is
  always the block index times the block's size plus the coordinate inside the block, so a block read at
  `(0, r, k)` is the array read at `(batch, block · 512 + r, k)`. The arrays are those the launch holds: the one
  host line before the region only writes the class words' column, which is the class words' array reshaped.
-/
import proofs.«136803_j33380485824748_1_alg».proof.Proof.KI.Data
import proofs.«136803_j33380485824748_1_alg».proof.Proof.Spec
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Spec Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The grid point's three coordinates: the batch, the row block and the column block (the last axis fastest). -/
def bOf (t : Fin cfg0.N) : Fin 8 := ⟨t.val / 64, by have h : t.val < 512 := lt_of_lt_of_eq t.isLt (show cfg0.N = 512 from N_0); omega⟩
def IOf (t : Fin cfg0.N) : Fin 8 := ⟨t.val / 8 % 8, Nat.mod_lt _ (by decide)⟩
def JOf (t : Fin cfg0.N) : Fin 8 := ⟨t.val % 8, Nat.mod_lt _ (by decide)⟩

theorem coords_0 : ∀ t : Fin cfg0.N, ((grid0.coords t) 0).val = t.val / 64 :=
  (by decide +kernel : ∀ t : Fin grid0.N, ((grid0.coords t) 0).val = t.val / 64)
theorem coords_1 : ∀ t : Fin cfg0.N, ((grid0.coords t) 1).val = t.val / 8 % 8 :=
  (by decide +kernel : ∀ t : Fin grid0.N, ((grid0.coords t) 1).val = t.val / 8 % 8)
theorem coords_2 : ∀ t : Fin cfg0.N, ((grid0.coords t) 2).val = t.val % 8 :=
  (by decide +kernel : ∀ t : Fin grid0.N, ((grid0.coords t) 2).val = t.val % 8)

/-- The block index of each window on each axis, decided over the 512 points. -/
theorem idx0 : ∀ t : Fin cfg0.N, win0_0.index t (0 : Fin 3) = t.val / 64 ∧ win0_0.index t (1 : Fin 3) = t.val / 8 % 8 ∧ win0_0.index t (2 : Fin 3) = 0 :=
  (by decide +kernel : ∀ t : Fin grid0.N, win0_0.index t (0 : Fin 3) = t.val / 64 ∧ win0_0.index t (1 : Fin 3) = t.val / 8 % 8 ∧ win0_0.index t (2 : Fin 3) = 0)
theorem idx1 : ∀ t : Fin cfg0.N, win0_1.index t (0 : Fin 3) = t.val / 64 ∧ win0_1.index t (1 : Fin 3) = t.val % 8 ∧ win0_1.index t (2 : Fin 3) = 0 :=
  (by decide +kernel : ∀ t : Fin grid0.N, win0_1.index t (0 : Fin 3) = t.val / 64 ∧ win0_1.index t (1 : Fin 3) = t.val % 8 ∧ win0_1.index t (2 : Fin 3) = 0)
theorem idx2 : ∀ t : Fin cfg0.N, win0_2.index t (0 : Fin 3) = t.val / 64 ∧ win0_2.index t (1 : Fin 3) = t.val / 8 % 8 ∧ win0_2.index t (2 : Fin 3) = 0 :=
  (by decide +kernel : ∀ t : Fin grid0.N, win0_2.index t (0 : Fin 3) = t.val / 64 ∧ win0_2.index t (1 : Fin 3) = t.val / 8 % 8 ∧ win0_2.index t (2 : Fin 3) = 0)
theorem idx3 : ∀ t : Fin cfg0.N, win0_3.index t (0 : Fin 3) = t.val / 64 ∧ win0_3.index t (1 : Fin 3) = t.val % 8 ∧ win0_3.index t (2 : Fin 3) = 0 :=
  (by decide +kernel : ∀ t : Fin grid0.N, win0_3.index t (0 : Fin 3) = t.val / 64 ∧ win0_3.index t (1 : Fin 3) = t.val % 8 ∧ win0_3.index t (2 : Fin 3) = 0)

/-- Each input window's block, read at an index of the block, is the array read at the global index: the batch
    is the point's, the row is the point's row block (resp. column block) times 512 plus the row inside the block. -/
theorem iblk0_at (c : Dev nD) (t : Fin cfg0.N) (r : Fin 512) (k : Fin 4) :
    iblk m c 0 t (ix3 0 r k) = V m c main_arg0 (ix3 (bOf t) (at512 (IOf t) r) k) := by
  obtain ⟨e0, e1, e2⟩ := idx0 t
  show V m c main_arg0 (((cfg0.win 0).blk t).view.emb (ix3 0 r k)) = V m c main_arg0 (ix3 (bOf t) (at512 (IOf t) r) k)
  refine congrArg (V m c main_arg0) ?_
  funext a; apply Fin.ext
  match a with
  | ⟨0, _⟩ => show win0_0.index t (0 : Fin 3) * 1 + 1 * 0 = t.val / 64; omega
  | ⟨1, _⟩ => show win0_0.index t (1 : Fin 3) * 512 + 1 * r.val = t.val / 8 % 8 * 512 + r.val; omega
  | ⟨2, _⟩ => show win0_0.index t (2 : Fin 3) * 4 + 1 * k.val = k.val; omega

theorem iblk1_at (c : Dev nD) (t : Fin cfg0.N) (r : Fin 512) (k : Fin 4) :
    iblk m c 1 t (ix3 0 r k) = V m c main_arg0 (ix3 (bOf t) (at512 (JOf t) r) k) := by
  obtain ⟨e0, e1, e2⟩ := idx1 t
  show V m c main_arg0 (((cfg0.win 1).blk t).view.emb (ix3 0 r k)) = V m c main_arg0 (ix3 (bOf t) (at512 (JOf t) r) k)
  refine congrArg (V m c main_arg0) ?_
  funext a; apply Fin.ext
  match a with
  | ⟨0, _⟩ => show win0_1.index t (0 : Fin 3) * 1 + 1 * 0 = t.val / 64; omega
  | ⟨1, _⟩ => show win0_1.index t (1 : Fin 3) * 512 + 1 * r.val = t.val % 8 * 512 + r.val; omega
  | ⟨2, _⟩ => show win0_1.index t (2 : Fin 3) * 4 + 1 * k.val = k.val; omega

theorem iblk2_at (c : Dev nD) (t : Fin cfg0.N) (r : Fin 512) :
    iblk m c 2 t (ix3 0 r 0) = V m c main_v0 (ix3 (bOf t) (at512 (IOf t) r) 0) := by
  obtain ⟨e0, e1, e2⟩ := idx2 t
  show V m c main_v0 (((cfg0.win 2).blk t).view.emb (ix3 0 r 0)) = V m c main_v0 (ix3 (bOf t) (at512 (IOf t) r) 0)
  refine congrArg (V m c main_v0) ?_
  funext a; apply Fin.ext
  match a with
  | ⟨0, _⟩ => show win0_2.index t (0 : Fin 3) * 1 + 1 * 0 = t.val / 64; omega
  | ⟨1, _⟩ => show win0_2.index t (1 : Fin 3) * 512 + 1 * r.val = t.val / 8 % 8 * 512 + r.val; omega
  | ⟨2, _⟩ => show win0_2.index t (2 : Fin 3) * 1 + 1 * 0 = 0; omega

theorem iblk3_at (c : Dev nD) (t : Fin cfg0.N) (r : Fin 512) :
    iblk m c 3 t (ix3 0 r 0) = V m c main_v0 (ix3 (bOf t) (at512 (JOf t) r) 0) := by
  obtain ⟨e0, e1, e2⟩ := idx3 t
  show V m c main_v0 (((cfg0.win 3).blk t).view.emb (ix3 0 r 0)) = V m c main_v0 (ix3 (bOf t) (at512 (JOf t) r) 0)
  refine congrArg (V m c main_v0) ?_
  funext a; apply Fin.ext
  match a with
  | ⟨0, _⟩ => show win0_3.index t (0 : Fin 3) * 1 + 1 * 0 = t.val / 64; omega
  | ⟨1, _⟩ => show win0_3.index t (1 : Fin 3) * 512 + 1 * r.val = t.val % 8 * 512 + r.val; omega
  | ⟨2, _⟩ => show win0_3.index t (2 : Fin 3) * 1 + 1 * 0 = 0; omega

/-- The one host line before the region writes the class words' column only: the boxes' array and the class
    words' array are as launched. -/
theorem V_arg0 (c : Dev nD) : V m c main_arg0 = m ((c : Thread nD τ).loc main_arg0) := by
  show StableHlo.after hostOps0 (V₀ m c) (Proc.devRef .tc main_arg0) = _
  after_results
theorem V_arg1 (c : Dev nD) : V m c main_arg1 = m ((c : Thread nD τ).loc main_arg1) := by
  show StableHlo.after hostOps0 (V₀ m c) (Proc.devRef .tc main_arg1) = _
  after_results

/-- The class words' column is the class words' array reshaped: entry (b, n, 0) is entry (b, n). -/
theorem V_v0_at (c : Dev nD) (b : Fin 8) (n : Fin 4096) :
    V m c main_v0 (ix3 b n 0) = m ((c : Thread nD τ).loc main_arg1) (ix2 b n) := by
  have e : (V m c main_v0 : S8x4096x1.Idx → Elt F .i32)
      = shapeCast S8x4096x1 (m ((c : Thread nD τ).loc main_arg1) : S8x4096.Idx → Elt F .i32) shapeCasts_S8x4096_S8x4096x1 := by
    show StableHlo.after hostOps0 (V₀ m c) (Proc.devRef .tc main_v0) = _
    after_results
    rfl
  refine (congrFun e (ix3 b n 0)).trans ?_
  exact shapeCast_apply (s := S8x4096) (t := S8x4096x1) _ _ (ix3 b n 0) (ix2 b n) (by
    show ((⟨2, ![8, 4096]⟩ : Shape).rowMajor (ix2 b n)).val = ((⟨3, ![8, 4096, 1]⟩ : Shape).rowMajor (ix3 b n 0)).val
    rw [Shape.rowMajor_val_two, Shape.rowMajor_val_three]
    show b.val * 4096 + n.val = (b.val * 4096 + n.val) * 1 + 0
    omega)

end Cert.KernelIdeal.Fr

end
-- ==== Proof.KPay.lean ====
/-
  The kernel body's payloads read at an index, at the ideal instance.

  A step of the body sees a tile of 512 "i" boxes (block `I` of batch `b`) and a tile of 512 "j" boxes (block `J`
  of the same batch), with their class words, and a column of 512 running sums. Read at row `r`:

  * the update of the running sums adds, onto the running sum of row `r`, the sum over the 512 lanes `jj` of the
    area of box `J * 512 + jj` where that box lies inside box `I * 512 + r`, has its class and is another box, and
    of `0` elsewhere: block `J`'s part of the row's sum of terms (`pay_acc`);
  * the running sums start at `0` (`pay_zero`);
  * the keep bit compares the running sum with the fixed fraction of (the box's own area plus the fixed epsilon)
    (`pay_keep`), is stored widened to a word (`pay_out5`), and scales the box's four coordinates (`pay_out4`);
  * a keep bit widened to a word is nonzero exactly when the bit is set (`tail_bit`).

  The layout operations (dropping and adding a unit axis, transposing, slicing a column or a row, broadcasting a
  column along the lanes or a row along the rows) each read their operand at one index, named by its coordinates.
  The global positions `I * 512 + r` and `J * 512 + jj` are computed on 32-bit words; both are below 4096, so the
  words differ exactly when the positions differ.
-/
import proofs.«136803_j33380485824748_1_alg».proof.Proof.Spec
import proofs.«136803_j33380485824748_1_alg».proof.Proof.Gen.KernelIdeal.Skeleton
import Idealize.ShloMosaic.Lib.Pipeline.Value
import Idealize.ShloMosaic.PureOps.Ideal.Laws
import Mathlib.Algebra.BigOperators.Group.Finset.Basic

noncomputable section

open scoped BigOperators

namespace Cert.KernelIdeal.Pay

open Cert.KernelIdeal Cert.KernelIdeal.Gen Cert.Spec Idealize.ShloMosaic Idealize.ShloMosaic.ValueIdx

/-! ## The layout operations of the body at explicit coordinates -/

section Layout
variable {α : Type}

/-- A column vector broadcast along the lanes reads its row. -/
theorem bcRow (v : S512x1.Idx → α) (h : S512x1.Broadcasts S512x512) (r jj : Fin 512) :
    broadcastTo S512x512 v h (ix2 r jj) = v (ix2 r 0) :=
  broadcastTo_apply v h (ix2 r jj) (ix2 r 0) (fun a => match a with | ⟨0, _⟩ => rfl | ⟨1, _⟩ => rfl)

/-- A row vector broadcast along the rows reads its lane. -/
theorem bcCol (v : S1x512.Idx → α) (h : S1x512.Broadcasts S512x512) (r jj : Fin 512) :
    broadcastTo S512x512 v h (ix2 r jj) = v (ix2 0 jj) :=
  broadcastTo_apply v h (ix2 r jj) (ix2 0 jj) (fun a => match a with | ⟨0, _⟩ => rfl | ⟨1, _⟩ => rfl)

/-- A column vector broadcast along four lanes reads its row. -/
theorem bcRow4 (v : S512x1.Idx → α) (h : S512x1.Broadcasts S512x4) (r : Fin 512) (k : Fin 4) :
    broadcastTo S512x4 v h (ix2 r k) = v (ix2 r 0) :=
  broadcastTo_apply v h (ix2 r k) (ix2 r 0) (fun a => match a with | ⟨0, _⟩ => rfl | ⟨1, _⟩ => rfl)

/-- Dropping the leading unit axis of a tile of boxes. -/
theorem castDrop4 (v : S1x512x4.Idx → α) (h : S1x512x4.ShapeCasts S512x4) (r : Fin 512) (k : Fin 4) :
    shapeCast S512x4 v h (ix2 r k) = v (ix3 0 r k) := by
  refine shapeCast_apply v h (ix2 r k) (ix3 0 r k) ?_
  rw [Shape.rowMajor_val_three, Shape.rowMajor_val_two]
  show (0 * 512 + r.val) * 4 + k.val = r.val * 4 + k.val
  omega

/-- Adding the leading unit axis back onto a tile of boxes. -/
theorem castAdd4 (v : S512x4.Idx → α) (h : S512x4.ShapeCasts S1x512x4) (r : Fin 512) (k : Fin 4) :
    shapeCast S1x512x4 v h (ix3 0 r k) = v (ix2 r k) := by
  refine shapeCast_apply v h (ix3 0 r k) (ix2 r k) ?_
  rw [Shape.rowMajor_val_three, Shape.rowMajor_val_two]
  show r.val * 4 + k.val = (0 * 512 + r.val) * 4 + k.val
  omega

/-- Dropping the leading unit axis of a tile of class words. -/
theorem castDrop1 (v : S1x512x1.Idx → α) (h : S1x512x1.ShapeCasts S512x1) (r : Fin 512) :
    shapeCast S512x1 v h (ix2 r 0) = v (ix3 0 r 0) := by
  refine shapeCast_apply v h (ix2 r 0) (ix3 0 r 0) ?_
  rw [Shape.rowMajor_val_three, Shape.rowMajor_val_two]
  show (0 * 512 + r.val) * 1 + 0 = r.val * 1 + 0
  omega

/-- Adding the leading unit axis back onto a column of words. -/
theorem castAdd1 (v : S512x1.Idx → α) (h : S512x1.ShapeCasts S1x512x1) (r : Fin 512) :
    shapeCast S1x512x1 v h (ix3 0 r 0) = v (ix2 r 0) := by
  refine shapeCast_apply v h (ix3 0 r 0) (ix2 r 0) ?_
  rw [Shape.rowMajor_val_three, Shape.rowMajor_val_two]
  show r.val * 1 + 0 = (0 * 512 + r.val) * 1 + 0
  omega

/-- A vector of 512 viewed as a column. -/
theorem castCol (v : S512.Idx → α) (h : S512.ShapeCasts S512x1) (r : Fin 512) :
    shapeCast S512x1 v h (ix2 r 0) = v (ix1 r) := by
  refine shapeCast_apply v h (ix2 r 0) (ix1 r) ?_
  rw [Shape.rowMajor_val_one, Shape.rowMajor_val_two]
  show r.val = r.val * 1 + 0
  omega

/-- The transpose of a tile of boxes: coordinate `k` of box `jj`. -/
theorem transBox (v : S512x4.Idx → α) (h : S512x4.Transposes [1, 0] S4x512) (k : Fin 4) (jj : Fin 512) :
    transpose S4x512 [1, 0] v h (ix2 k jj) = v (ix2 jj k) :=
  transpose_apply [1, 0] v h (ix2 k jj) (ix2 jj k) (fun b => match b with | ⟨0, _⟩ => rfl | ⟨1, _⟩ => rfl)

/-- The transpose of a column of words is the row of them. -/
theorem transCol (v : S512x1.Idx → α) (h : S512x1.Transposes [1, 0] S1x512) (jj : Fin 512) :
    transpose S1x512 [1, 0] v h (ix2 0 jj) = v (ix2 jj 0) :=
  transpose_apply [1, 0] v h (ix2 0 jj) (ix2 jj 0) (fun b => match b with | ⟨0, _⟩ => rfl | ⟨1, _⟩ => rfl)

/-- Column `c` of a tile of boxes, as a column vector. -/
theorem sliceCol (c : Fin 4) (v : S512x4.Idx → α) (h : S512x4.Slices ![0, c.val] S512x1) (r : Fin 512) :
    extractStridedSlice S512x1 ![0, c.val] v h (ix2 r 0) = v (ix2 r c) :=
  extractStridedSlice_apply ![0, c.val] v h (ix2 r 0) (ix2 r c) (fun a => match a with
    | ⟨0, _⟩ => by show r.val = 0 + r.val; omega
    | ⟨1, _⟩ => by show c.val = c.val + 0; omega)

/-- Row `c` of a transposed tile of boxes, as a row vector. -/
theorem sliceRow (c : Fin 4) (v : S4x512.Idx → α) (h : S4x512.Slices ![c.val, 0] S1x512) (jj : Fin 512) :
    extractStridedSlice S1x512 ![c.val, 0] v h (ix2 0 jj) = v (ix2 c jj) :=
  extractStridedSlice_apply ![c.val, 0] v h (ix2 0 jj) (ix2 c jj) (fun a => match a with
    | ⟨0, _⟩ => by show c.val = c.val + 0; omega
    | ⟨1, _⟩ => by show jj.val = 0 + jj.val; omega)

end Layout

/-! ## The tiles' pieces at explicit coordinates -/

section Reads
variable (x0 x1 : Vec Ideal S1x512x4 .f32) (x2 x3 : Vec Ideal S1x512x1 .i32)

/-- Box `r` of the row tile, coordinate `k`. -/
theorem pay6_at (r : Fin 512) (k : Fin 4) : k0_pay6 (F := Ideal) x0 (ix2 r k) = x0 (ix3 0 r k) :=
  castDrop4 x0 _ r k

theorem pay8_at (r : Fin 512) : k0_pay8 (F := Ideal) x0 (ix2 r 0) = x0 (ix3 0 r 0) :=
  by
  unfold k0_pay8
  exact (sliceCol 0 (k0_pay6 x0) slices_S512x4_o0_0_S512x1 r).trans (pay6_at x0 r 0)
theorem pay9_at (r : Fin 512) : k0_pay9 (F := Ideal) x0 (ix2 r 0) = x0 (ix3 0 r 1) :=
  by
  unfold k0_pay9
  exact (sliceCol 1 (k0_pay6 x0) slices_S512x4_o0_1_S512x1 r).trans (pay6_at x0 r 1)
theorem pay10_at (r : Fin 512) : k0_pay10 (F := Ideal) x0 (ix2 r 0) = x0 (ix3 0 r 2) :=
  by
  unfold k0_pay10
  exact (sliceCol 2 (k0_pay6 x0) slices_S512x4_o0_2_S512x1 r).trans (pay6_at x0 r 2)
theorem pay11_at (r : Fin 512) : k0_pay11 (F := Ideal) x0 (ix2 r 0) = x0 (ix3 0 r 3) :=
  by
  unfold k0_pay11
  exact (sliceCol 3 (k0_pay6 x0) slices_S512x4_o0_3_S512x1 r).trans (pay6_at x0 r 3)

/-- Coordinate `k` of box `jj` of the column tile, transposed. -/
theorem pay7_at (k : Fin 4) (jj : Fin 512) : k0_pay7 (F := Ideal) x1 (ix2 k jj) = x1 (ix3 0 jj k) :=
  (transBox _ _ k jj).trans (castDrop4 x1 _ jj k)

theorem pay12_at (jj : Fin 512) : k0_pay12 (F := Ideal) x1 (ix2 0 jj) = x1 (ix3 0 jj 0) :=
  by
  unfold k0_pay12
  exact (sliceRow 0 (k0_pay7 x1) slices_S4x512_o0_0_S1x512 jj).trans (pay7_at x1 0 jj)
theorem pay13_at (jj : Fin 512) : k0_pay13 (F := Ideal) x1 (ix2 0 jj) = x1 (ix3 0 jj 1) :=
  by
  unfold k0_pay13
  exact (sliceRow 1 (k0_pay7 x1) slices_S4x512_o1_0_S1x512 jj).trans (pay7_at x1 1 jj)
theorem pay14_at (jj : Fin 512) : k0_pay14 (F := Ideal) x1 (ix2 0 jj) = x1 (ix3 0 jj 2) :=
  by
  unfold k0_pay14
  exact (sliceRow 2 (k0_pay7 x1) slices_S4x512_o2_0_S1x512 jj).trans (pay7_at x1 2 jj)
theorem pay15_at (jj : Fin 512) : k0_pay15 (F := Ideal) x1 (ix2 0 jj) = x1 (ix3 0 jj 3) :=
  by
  unfold k0_pay15
  exact (sliceRow 3 (k0_pay7 x1) slices_S4x512_o3_0_S1x512 jj).trans (pay7_at x1 3 jj)

/-- The area of box `jj` of the column tile. -/
theorem pay16_at (jj : Fin 512) : k0_pay16 (F := Ideal) x1 (ix2 0 jj)
    = (x1 (ix3 0 jj 2) - x1 (ix3 0 jj 0)) * (x1 (ix3 0 jj 3) - x1 (ix3 0 jj 1)) := by
  show (k0_pay14 (F := Ideal) x1 (ix2 0 jj) - k0_pay12 (F := Ideal) x1 (ix2 0 jj))
      * (k0_pay15 (F := Ideal) x1 (ix2 0 jj) - k0_pay13 (F := Ideal) x1 (ix2 0 jj)) = _
  rw [pay12_at, pay13_at, pay14_at, pay15_at]

/-- The four containment comparisons of box `jj` of the column tile in box `r` of the row tile. -/
theorem pay17_at (r jj : Fin 512) : k0_pay17 (F := Ideal) x0 x1 (ix2 r jj)
    = (((Ideal.cmp .oge (x1 (ix3 0 jj 0)) (x0 (ix3 0 r 0)) &&& Ideal.cmp .oge (x1 (ix3 0 jj 1)) (x0 (ix3 0 r 1)))
        &&& Ideal.cmp .ole (x1 (ix3 0 jj 2)) (x0 (ix3 0 r 2)))
      &&& Ideal.cmp .ole (x1 (ix3 0 jj 3)) (x0 (ix3 0 r 3))) := by
  show (((Ideal.cmp .oge (broadcastTo S512x512 (k0_pay12 (F := Ideal) x1) _ (ix2 r jj)) (broadcastTo S512x512 (k0_pay8 (F := Ideal) x0) _ (ix2 r jj))
          &&& Ideal.cmp .oge (broadcastTo S512x512 (k0_pay13 (F := Ideal) x1) _ (ix2 r jj)) (broadcastTo S512x512 (k0_pay9 (F := Ideal) x0) _ (ix2 r jj)))
        &&& Ideal.cmp .ole (broadcastTo S512x512 (k0_pay14 (F := Ideal) x1) _ (ix2 r jj)) (broadcastTo S512x512 (k0_pay10 (F := Ideal) x0) _ (ix2 r jj)))
      &&& Ideal.cmp .ole (broadcastTo S512x512 (k0_pay15 (F := Ideal) x1) _ (ix2 r jj)) (broadcastTo S512x512 (k0_pay11 (F := Ideal) x0) _ (ix2 r jj))) = _
  rw [bcCol, bcCol, bcCol, bcCol, bcRow, bcRow, bcRow, bcRow,
    pay12_at, pay13_at, pay14_at, pay15_at, pay8_at, pay9_at, pay10_at, pay11_at]

/-- The class comparison of box `r` of the row tile with box `jj` of the column tile. -/
theorem pay18_at (r jj : Fin 512) : k0_pay18 (F := Ideal) x2 x3 (ix2 r jj)
    = IntOp.cmpi .eq (x2 (ix3 0 r 0)) (x3 (ix3 0 jj 0)) := by
  show IntOp.cmpi .eq (broadcastTo S512x512 (shapeCast S512x1 x2 _) _ (ix2 r jj))
      (broadcastTo S512x512 (transpose S1x512 [1, 0] (shapeCast S512x1 x3 _) _) _ (ix2 r jj)) = _
  rw [bcRow, bcCol, transCol, castDrop1, castDrop1]

end Reads

/-! ## Words: the global position of a row and of a lane, the diagonal bit, a keep bit widened and read back -/

section Words

/-- Block `I` times 512 plus position `r`, computed on 32-bit words, is the word of the global position. -/
theorem word_at512 (I : Fin 8) (r : Fin 512) :
    BitVec.ofNat 32 I.val * 512#32 + BitVec.ofNat 32 (0 * 512 + r.val) = BitVec.ofNat 32 (at512 I r).val := by
  show _ = BitVec.ofNat 32 (I.val * 512 + r.val)
  rw [Nat.zero_mul, Nat.zero_add, BitVec.ofNat_add, BitVec.ofNat_mul]

/-- Two positions below 4096 differ as 32-bit words exactly when they differ. -/
theorem ne_word (i j : Fin 4096) :
    IntOp.cmpi .ne (BitVec.ofNat 32 i.val) (BitVec.ofNat 32 j.val) = ndiag i j := by
  have hi := i.isLt
  have hj := j.isLt
  unfold ndiag
  by_cases h : i = j
  · subst h
    rw [if_pos rfl]
    show BitVec.ofBool (BitVec.ofNat 32 i.val != BitVec.ofNat 32 i.val) = 0#1
    rw [bne_self_eq_false]
    rfl
  · rw [if_neg h]
    have hne : BitVec.ofNat 32 i.val ≠ BitVec.ofNat 32 j.val := by
      intro e
      have e' := congrArg BitVec.toNat e
      rw [BitVec.toNat_ofNat, BitVec.toNat_ofNat] at e'
      exact h (Fin.ext (by omega))
    show BitVec.ofBool (BitVec.ofNat 32 i.val != BitVec.ofNat 32 j.val) = 1#1
    rw [bne_iff_ne.2 hne]
    rfl

/-- A keep bit widened to a word and converted is the number it scales by. -/
theorem sitofp_bit (kb : BitVec 1) : (((kb.setWidth 32).toInt : ℝ) : EReal) = bitF kb := by
  rcases BitVec.eq_zero_or_eq_one kb with h | h <;> subst h
  · have e : ((0#1).setWidth 32).toInt = 0 := by decide
    rw [e]; simp [bitF]
  · have e : ((1#1).setWidth 32).toInt = 1 := by decide
    rw [e]; simp [bitF]

/-- A keep bit widened to a word is nonzero exactly when it is set. -/
theorem tail_bit (k : BitVec 1) : IntOp.cmpi .ne (k.setWidth 32) 0#32 = k := by
  rcases BitVec.eq_zero_or_eq_one k with h | h <;> subst h <;> decide

end Words

/-! ## The payloads of the body at explicit coordinates -/

section Payloads
variable (box : SBox.Idx → EReal) (cls : SCls.Idx → BitVec 32) (b : Fin 8) (I J : Fin 8)
  (x0 x1 : Vec Ideal S1x512x4 .f32) (x2 x3 : Vec Ideal S1x512x1 .i32) (a : Vec Ideal S512x1 .f32)

/-- The running sums start at zero. -/
theorem pay_zero (r : Fin 512) : k0_pay5 (F := Ideal) (ix2 r 0) = 0 := by
  unfold k0_pay5
  exact (congrFun (shapeCast_self _ _) _).trans Ideal.ofBits_zero_f32

/-- The keep bit of box `r` of the row tile from the running sum. -/
theorem pay_keep (h0 : ∀ (r : Fin 512) (k : Fin 4), x0 (ix3 0 r k) = box (ix3 b (at512 I r) k)) (r : Fin 512) :
    k0_pay2 (F := Ideal) (k0_pay8 x0) (k0_pay9 x0) (k0_pay10 x0) (k0_pay11 x0) a (ix2 r 0)
      = keepOf box b (at512 I r) (a (ix2 r 0)) := by
  show Ideal.cmp .ole (a (ix2 r 0))
      (frac * ((k0_pay10 (F := Ideal) x0 (ix2 r 0) - k0_pay8 (F := Ideal) x0 (ix2 r 0))
          * (k0_pay11 (F := Ideal) x0 (ix2 r 0) - k0_pay9 (F := Ideal) x0 (ix2 r 0)) + eps)) = _
  rw [pay8_at, pay9_at, pay10_at, pay11_at, h0, h0, h0, h0]
  rfl

/-- The stored keep word. -/
theorem pay_out5 (h0 : ∀ (r : Fin 512) (k : Fin 4), x0 (ix3 0 r k) = box (ix3 b (at512 I r) k)) (r : Fin 512) :
    k0_pay3 (F := Ideal) (k0_pay8 x0) (k0_pay9 x0) (k0_pay10 x0) (k0_pay11 x0) a (ix3 0 r 0)
      = (keepOf box b (at512 I r) (a (ix2 r 0))).setWidth 32 := by
  unfold k0_pay3
  refine (castAdd1 _ _ r).trans ?_
  show (k0_pay2 (F := Ideal) (k0_pay8 x0) (k0_pay9 x0) (k0_pay10 x0) (k0_pay11 x0) a (ix2 r 0)).setWidth 32 = _
  rw [pay_keep box b I x0 a h0 r]

/-- The stored box: the box scaled by its keep bit. -/
theorem pay_out4 (h0 : ∀ (r : Fin 512) (k : Fin 4), x0 (ix3 0 r k) = box (ix3 b (at512 I r) k)) (r : Fin 512) (k : Fin 4) :
    k0_pay4 (F := Ideal) (k0_pay6 x0) (k0_pay8 x0) (k0_pay9 x0) (k0_pay10 x0) (k0_pay11 x0) a (ix3 0 r k)
      = box (ix3 b (at512 I r) k) * bitF (keepOf box b (at512 I r) (a (ix2 r 0))) := by
  unfold k0_pay4
  refine (castAdd4 _ _ r k).trans ?_
  show k0_pay6 (F := Ideal) x0 (ix2 r k) * broadcastTo S512x4 _ _ (ix2 r k) = _
  rw [bcRow4, pay6_at, h0]
  show _ * (((((k0_pay2 (F := Ideal) (k0_pay8 x0) (k0_pay9 x0) (k0_pay10 x0) (k0_pay11 x0) a (ix2 r 0)).setWidth 32).toInt : ℝ) : EReal)) = _
  rw [sitofp_bit, pay_keep box b I x0 a h0 r]

end Payloads

/-! ## The block's part added onto the running sums -/

section Acc

/-- The source index of a lane sum: row `r`, lane `jj`. -/
theorem lift_at (h : S512x512.Reduces [1] S512) (r jj : Fin 512) : h.lift (ix1 r) jj = ix2 r jj :=
  funext fun c => Fin.ext (match c with | ⟨0, _⟩ => rfl | ⟨1, _⟩ => rfl)

/-- The sum over the lanes of row `r`, as a plain sum over the 512 lanes. -/
theorem rowSum (v : FVec Ideal S512x512 .f32) (h : S512x512.Reduces [1] S512) (hφ : FKind.Formats .f32)
    (hacc : (0x00000000#32 : BitVec 32) = FKind.add.neutral .f32 hφ) (r : Fin 512) :
    multiReduction .add [1] S512 v 0x00000000#32 h hφ hacc (ix1 r) = ∑ jj : Fin 512, v (ix2 r jj) := by
  refine (Ideal.multiReduction_add_single v _ h hφ hacc (ix1 r)).trans ?_
  exact Finset.sum_congr rfl (fun jj _ => congrArg v (lift_at h r jj))

variable (box : SBox.Idx → EReal) (cls : SCls.Idx → BitVec 32) (b : Fin 8) (I J : Fin 8)
  (x0 x1 : Vec Ideal S1x512x4 .f32) (x2 x3 : Vec Ideal S1x512x1 .i32) (a : Vec Ideal S512x1 .f32)

/-- The not-diagonal bit of the pair (row `r` of block `I`, lane `jj` of block `J`). -/
theorem diag_at (hI : S512x1.Iotas .tc 32 [0]) (hJ : S1x512.Iotas .tc 32 [1])
    (hr : S512x1.Broadcasts S512x512) (hc : S1x512.Broadcasts S512x512) (r jj : Fin 512) :
    cmpi .ne
        (broadcastTo S512x512 (addi (broadcast S512x1 (Scalar.muli (BitVec.ofNat 32 I.val) 512#32)) (iota .tc S512x1 32 [0] hI)) hr)
        (broadcastTo S512x512 (addi (broadcast S1x512 (Scalar.muli (BitVec.ofNat 32 J.val) 512#32)) (iota .tc S1x512 32 [1] hJ)) hc)
        (ix2 r jj)
      = ndiag (at512 I r) (at512 J jj) := by
  show IntOp.cmpi .ne (broadcastTo S512x512 _ hr (ix2 r jj)) (broadcastTo S512x512 _ hc (ix2 r jj)) = _
  rw [bcRow, bcCol]
  show IntOp.cmpi .ne (BitVec.ofNat 32 I.val * 512#32 + BitVec.ofNat 32 (0 * 512 + r.val))
      (BitVec.ofNat 32 J.val * 512#32 + BitVec.ofNat 32 (0 * 512 + jj.val)) = _
  rw [word_at512, word_at512]
  exact ne_word _ _

/-- The term of the pair (row `r` of block `I`, lane `jj` of block `J`). -/
theorem term_at
    (h0 : ∀ (r : Fin 512) (k : Fin 4), x0 (ix3 0 r k) = box (ix3 b (at512 I r) k))
    (h1 : ∀ (r : Fin 512) (k : Fin 4), x1 (ix3 0 r k) = box (ix3 b (at512 J r) k))
    (h2 : ∀ r : Fin 512, x2 (ix3 0 r 0) = cls (ix2 b (at512 I r)))
    (h3 : ∀ r : Fin 512, x3 (ix3 0 r 0) = cls (ix2 b (at512 J r))) (r jj : Fin 512) :
    Scalar.select
        (IntOp.andi (IntOp.andi (k0_pay17 (F := Ideal) x0 x1 (ix2 r jj)) (k0_pay18 (F := Ideal) x2 x3 (ix2 r jj)))
          (ndiag (at512 I r) (at512 J jj)))
        (k0_pay16 (F := Ideal) x1 (ix2 0 jj)) (0 : EReal)
      = term box cls b (at512 I r) (at512 J jj) := by
  rw [pay17_at, pay18_at, pay16_at, h0, h0, h0, h0, h1, h1, h1, h1, h2, h3]
  rfl

/-- One step of the running sums: block `J`'s part of row `r`'s sum is added on. -/
theorem pay_acc
    (h0 : ∀ (r : Fin 512) (k : Fin 4), x0 (ix3 0 r k) = box (ix3 b (at512 I r) k))
    (h1 : ∀ (r : Fin 512) (k : Fin 4), x1 (ix3 0 r k) = box (ix3 b (at512 J r) k))
    (h2 : ∀ r : Fin 512, x2 (ix3 0 r 0) = cls (ix2 b (at512 I r)))
    (h3 : ∀ r : Fin 512, x3 (ix3 0 r 0) = cls (ix2 b (at512 J r))) (r : Fin 512) :
    k0_pay1 (F := Ideal) (BitVec.ofNat 32 I.val) (BitVec.ofNat 32 J.val) (k0_pay16 x1) (k0_pay17 x0 x1) (k0_pay18 x2 x3) a (ix2 r 0)
      = a (ix2 r 0) + blk (term box cls b (at512 I r)) J := by
  unfold k0_pay1
  refine (congrFun (shapeCast_self _ _) _).trans ?_
  show a (ix2 r 0) + shapeCast S512x1 _ _ (ix2 r 0) = _
  refine congrArg (a (ix2 r 0) + ·) ?_
  refine (castCol _ _ r).trans ?_
  refine (rowSum _ _ _ _ r).trans ?_
  unfold blk
  refine Finset.sum_congr rfl (fun jj _ => ?_)
  show Scalar.select
      (IntOp.andi (IntOp.andi (k0_pay17 (F := Ideal) x0 x1 (ix2 r jj)) (k0_pay18 (F := Ideal) x2 x3 (ix2 r jj)))
        (cmpi .ne (broadcastTo S512x512 _ _) (broadcastTo S512x512 _ _) (ix2 r jj)))
      (broadcastTo S512x512 (shapeCast S1x512 (k0_pay16 (F := Ideal) x1) _) _ (ix2 r jj))
      (Ideal.ofBits .f32 0#32) = _
  rw [diag_at, bcCol, congrFun (shapeCast_self _ _) _, Ideal.ofBits_zero_f32]
  exact term_at box cls b I J x0 x1 x2 x3 h0 h1 h2 h3 r jj

end Acc

end Cert.KernelIdeal.Pay

end
-- ==== Proof.SpecSum.lean ====
/-
  A row's sum taken in eight blocks of 512 is the whole sum.

  The running value after block `J` is the sum of the first `J + 1` block parts (induction on `J`: `0` is neutral,
  one more block is one more summand at the top). The eight block parts together are a double sum over
  `Fin 8 × Fin 512`, and `(J, jj) ↦ J * 512 + jj` is a bijection onto `Fin 4096` (quotient and remainder by 512),
  so the double sum is the sum over `Fin 4096`. Only commutativity and associativity of `+` are used.
-/
import proofs.«136803_j33380485824748_1_alg».proof.Proof.Spec
import Mathlib.Algebra.BigOperators.Fin
import Mathlib.Data.Fintype.BigOperators

noncomputable section

open scoped BigOperators

namespace Cert.Spec

/-- Block and position as a bijection `Fin 8 × Fin 512 ≃ Fin 4096`: quotient and remainder by 512. -/
def at512Equiv : Fin 8 × Fin 512 ≃ Fin 4096 where
  toFun p := at512 p.1 p.2
  invFun k := (⟨k.val / 512, by have := k.isLt; omega⟩, ⟨k.val % 512, by omega⟩)
  left_inv := by
    rintro ⟨J, jj⟩
    have hJ := J.isLt
    have hj := jj.isLt
    refine Prod.ext (Fin.ext ?_) (Fin.ext ?_)
    · show (J.val * 512 + jj.val) / 512 = J.val
      omega
    · show (J.val * 512 + jj.val) % 512 = jj.val
      omega
  right_inv := by
    intro k
    refine Fin.ext ?_
    show k.val / 512 * 512 + k.val % 512 = k.val
    omega

theorem at512Equiv_apply (J : Fin 8) (jj : Fin 512) : at512Equiv (J, jj) = at512 J jj := rfl

/-- The eight block parts together are the whole sum. -/
theorem sum_blk (f : Fin 4096 → EReal) : ∑ J : Fin 8, blk f J = ∑ k : Fin 4096, f k := by
  unfold blk
  rw [← Fintype.sum_prod_type' (fun J jj => f (at512 J jj))]
  exact Fintype.sum_equiv at512Equiv _ _ (fun _ => rfl)

/-- The running value after block `J` is the sum of the block parts up to `J`. -/
theorem accUpTo_eq (f : Fin 4096 → EReal) :
    ∀ (J : ℕ) (h : J < 8), accUpTo f J h = ∑ J' : Fin (J + 1), blk f ⟨J'.val, by have := J'.isLt; omega⟩
  | 0, h => by
      show 0 + blk f ⟨0, h⟩ = _
      rw [zero_add, Fin.sum_univ_one]
      rfl
  | J + 1, h => by
      show accUpTo f J (by omega) + blk f ⟨J + 1, h⟩ = _
      rw [accUpTo_eq f J (by omega), Fin.sum_univ_castSucc (n := J + 1)]
      rfl

/-- After the last block the running value is the whole sum. -/
theorem accUpTo_last (f : Fin 4096 → EReal) : accUpTo f 7 (by omega) = ∑ k : Fin 4096, f k := by
  rw [accUpTo_eq f 7 (by omega), ← sum_blk f]

end Cert.Spec

end
-- ==== Proof.KI.Acc.lean ====
/-
  What the kernel leaves at each grid point, in the specification's terms.

  The grid is 8 × 8 × 8 with the column block fastest: point `t` works on batch `t / 64`, row block `t / 8 % 8` and
  column block `t % 8`; its four input tiles are the stretches of the boxes' array and of the class words that those
  numbers name. One step of the body adds, onto the running sum of each row of the row block, the column block's part
  of that row's sum of terms. So after point `t` the scratch holds the running value of each row's sum up to column
  block `t % 8`: zero plus the first block's part at a first column block, and one more block's part over what the
  point before left elsewhere (the point before has the same batch and row block and the column block before).
  After the eighth block the running value is the whole sum, from which the keep bit and the scaled box are computed:
  the two result windows at a last column block hold the specification's two results at the row block's boxes.
-/
import proofs.«136803_j33380485824748_1_alg».proof.Proof.KI.Pieces
import proofs.«136803_j33380485824748_1_alg».proof.Proof.KI.Blocks
import proofs.«136803_j33380485824748_1_alg».proof.Proof.KPay
import proofs.«136803_j33380485824748_1_alg».proof.Proof.SpecSum

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Spec Cert.KernelIdeal.Pay Idealize.ShloMosaic.ValueIdx

variable (m : (ℓ : Loc nD τ sig) → Buf (Elt Ideal) ℓ) (c : Dev nD)

/-! ## The two argument arrays, the four input blocks of a point, and what the point before left -/

/-- The boxes and the class words. -/
abbrev box : SBox.Idx → EReal := m ((c : Thread nD τ).loc main_arg0)
abbrev cls : SCls.Idx → BitVec 32 := m ((c : Thread nD τ).loc main_arg1)

/-- The row tile and the column tile of boxes, and of class words, at point `t`. -/
abbrev xb0 (t : Fin cfg0.N) : Vec Ideal S1x512x4 .f32 := iblk m c 0 t
abbrev xb1 (t : Fin cfg0.N) : Vec Ideal S1x512x4 .f32 := iblk m c 1 t
abbrev xb2 (t : Fin cfg0.N) : Vec Ideal S1x512x1 .i32 := iblk m c 2 t
abbrev xb3 (t : Fin cfg0.N) : Vec Ideal S1x512x1 .i32 := iblk m c 3 t

/-- The point before `t`, and the running row sums it left. -/
abbrev prevPt (t : Fin cfg0.N) : Fin cfg0.N := ⟨t.val - 1, Nat.lt_of_le_of_lt (Nat.sub_le _ _) t.isLt⟩
abbrev xsPrev (t : Fin cfg0.N) : Vec Ideal S512x1 .f32 :=
  (outsAt0 (F := Ideal) m c (t.val - 1) (Nat.lt_of_le_of_lt (Nat.sub_le _ _) t.isLt)).2.2

/-- Each tile is the stretch of its array that the point's batch and block name. -/
theorem xb0_at (t : Fin cfg0.N) (r : Fin 512) (k : Fin 4) :
    xb0 m c t (ix3 0 r k) = box m c (ix3 (bOf t) (at512 (IOf t) r) k) :=
  (iblk0_at m c t r k).trans (congrFun (V_arg0 m c) _)
theorem xb1_at (t : Fin cfg0.N) (r : Fin 512) (k : Fin 4) :
    xb1 m c t (ix3 0 r k) = box m c (ix3 (bOf t) (at512 (JOf t) r) k) :=
  (iblk1_at m c t r k).trans (congrFun (V_arg0 m c) _)
theorem xb2_at (t : Fin cfg0.N) (r : Fin 512) :
    xb2 m c t (ix3 0 r 0) = cls m c (ix2 (bOf t) (at512 (IOf t) r)) :=
  (iblk2_at m c t r).trans (V_v0_at m c (bOf t) (at512 (IOf t) r))
theorem xb3_at (t : Fin cfg0.N) (r : Fin 512) :
    xb3 m c t (ix3 0 r 0) = cls m c (ix2 (bOf t) (at512 (JOf t) r)) :=
  (iblk3_at m c t r).trans (V_v0_at m c (bOf t) (at512 (JOf t) r))

/-! ## The running value of a row's sum, by the column block's number -/

theorem accUpTo_of_zero (f : Fin 4096 → EReal) (J : Fin 8) (h : J.val = 0) :
    accUpTo f J.val J.isLt = 0 + blk f J := by
  obtain ⟨j, hj⟩ := J
  dsimp only at h
  subst h
  rfl

theorem accUpTo_of_succ (f : Fin 4096 → EReal) (J : Fin 8) (j' : ℕ) (hj' : j' < 8) (h : J.val = j' + 1) :
    accUpTo f J.val J.isLt = accUpTo f j' hj' + blk f J := by
  obtain ⟨j, hj⟩ := J
  dsimp only at h
  subst h
  rfl

theorem accUpTo_of_last (f : Fin 4096 → EReal) (J : Fin 8) (h : J.val = 7) :
    accUpTo f J.val J.isLt = ∑ k : Fin 4096, f k := by
  obtain ⟨j, hj⟩ := J
  dsimp only at h
  subst h
  exact accUpTo_last f

/-! ## One step of the running sums at a point -/

/-- The two grid coordinates the body reads are the row block's and the column block's numbers. -/
theorem acc_coords (t : Fin cfg0.N) (x0 x1 : Vec Ideal S1x512x4 .f32) (x2 x3 : Vec Ideal S1x512x1 .i32)
    (a : Vec Ideal S512x1 .f32) :
    acc (F := Ideal) (grid0.coords t) x0 x1 x2 x3 a
      = k0_pay1 (F := Ideal) (BitVec.ofNat 32 (IOf t).val) (BitVec.ofNat 32 (JOf t).val) (k0_pay16 x1) (k0_pay17 x0 x1)
          (k0_pay18 x2 x3) a := by
  show k0_pay1 (F := Ideal) (BitVec.ofNat 32 ((grid0.coords t) 1).val) (BitVec.ofNat 32 ((grid0.coords t) 2).val)
      (k0_pay16 x1) (k0_pay17 x0 x1) (k0_pay18 x2 x3) a = _
  rw [coords_1 t, coords_2 t]
  rfl

/-- At point `t` the column block's part of each row's sum of terms is added onto the running sums. -/
theorem acc_step (t : Fin cfg0.N) (a : Vec Ideal S512x1 .f32) (r : Fin 512) :
    acc (F := Ideal) (grid0.coords t) (xb0 m c t) (xb1 m c t) (xb2 m c t) (xb3 m c t) a (ix2 r 0)
      = a (ix2 r 0) + blk (term (box m c) (cls m c) (bOf t) (at512 (IOf t) r)) (JOf t) :=
  (congrFun (acc_coords t (xb0 m c t) (xb1 m c t) (xb2 m c t) (xb3 m c t) a) (ix2 r 0)).trans
    (pay_acc (box m c) (cls m c) (bOf t) (IOf t) (JOf t) (xb0 m c t) (xb1 m c t) (xb2 m c t) (xb3 m c t) a
      (xb0_at m c t) (xb1_at m c t) (xb2_at m c t) (xb3_at m c t) r)

/-- The numbers of a point's batch, row block and column block. -/
theorem bOf_val (t : Fin cfg0.N) : (bOf t).val = t.val / 64 := rfl
theorem IOf_val (t : Fin cfg0.N) : (IOf t).val = t.val / 8 % 8 := rfl
theorem JOf_val (t : Fin cfg0.N) : (JOf t).val = t.val % 8 := rfl

/-- Off a first column block: the point before has the same batch and row block and the column block before, so
    adding this block's part onto what it left gives the running value up to this block. -/
theorem acc_next (t : Fin cfg0.N) (h0 : ¬t.val % 8 = 0) (r : Fin 512)
    (ihp : xsPrev m c t (ix2 r 0)
      = accUpTo (term (box m c) (cls m c) (bOf (prevPt t)) (at512 (IOf (prevPt t)) r)) (JOf (prevPt t)).val
          (JOf (prevPt t)).isLt) :
    acc (F := Ideal) (grid0.coords t) (xb0 m c t) (xb1 m c t) (xb2 m c t) (xb3 m c t) (xsPrev m c t) (ix2 r 0)
      = accUpTo (term (box m c) (cls m c) (bOf t) (at512 (IOf t) r)) (JOf t).val (JOf t).isLt := by
  have hb : bOf (prevPt t) = bOf t := Fin.ext (by rw [bOf_val, bOf_val]; show (t.val - 1) / 64 = t.val / 64; omega)
  have hI : IOf (prevPt t) = IOf t :=
    Fin.ext (by rw [IOf_val, IOf_val]; show (t.val - 1) / 8 % 8 = t.val / 8 % 8; omega)
  have hJ : (JOf t).val = (JOf (prevPt t)).val + 1 := by
    rw [JOf_val, JOf_val]; show t.val % 8 = (t.val - 1) % 8 + 1; omega
  rw [hb, hI] at ihp
  refine (acc_step m c t (xsPrev m c t) r).trans ?_
  exact (congrArg (· + blk (term (box m c) (cls m c) (bOf t) (at512 (IOf t) r)) (JOf t)) ihp).trans
    (accUpTo_of_succ _ (JOf t) (JOf (prevPt t)).val (JOf (prevPt t)).isLt hJ).symm

/-! ## The running row sums after a point -/

theorem scratch_aux : ∀ (n : ℕ) (t : Fin cfg0.N), t.val = n → ∀ r : Fin 512,
    (outsAt0 (F := Ideal) m c t.val t.isLt).2.2 (ix2 r 0)
      = accUpTo (term (box m c) (cls m c) (bOf t) (at512 (IOf t) r)) (JOf t).val (JOf t).isLt := by
  intro n
  induction n using Nat.strong_induction_on with
  | _ n ih =>
    intro t ht r
    by_cases h0 : t.val % 8 = 0
    · have h1 : ¬t.val % 8 = 7 := by omega
      rw [outsAt0_A m c t h0 h1]; dsimp only
      refine (congrFun (sout0_A_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (xb0 m c t) (xb1 m c t) (xb2 m c t) (xb3 m c t)) (ix2 r 0)).trans ?_
      refine (acc_step m c t (k0_pay5 (F := Ideal)) r).trans ?_
      rw [pay_zero r]
      exact (accUpTo_of_zero _ (JOf t) ((JOf_val t).trans h0)).symm
    · have ihp := ih (t.val - 1) (by omega) (prevPt t) rfl r
      by_cases h1 : t.val % 8 = 7
      · rw [outsAt0_C m c t h0 h1]; dsimp only
        refine (congrFun (sout0_C_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (xb0 m c t) (xb1 m c t) (xb2 m c t) (xb3 m c t) (xsPrev m c t)) (ix2 r 0)).trans ?_
        exact acc_next m c t h0 r ihp
      · rw [outsAt0_B m c t h0 h1]; dsimp only
        refine (congrFun (sout0_B_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (xb0 m c t) (xb1 m c t) (xb2 m c t) (xb3 m c t) (xsPrev m c t)) (ix2 r 0)).trans ?_
        exact acc_next m c t h0 r ihp

/-- After point `t` the scratch holds, for each row of the point's row block, the running value of that row's sum of
    terms up to the point's column block. -/
theorem scratch_at (t : Fin cfg0.N) (r : Fin 512) :
    (outsAt0 (F := Ideal) m c t.val t.isLt).2.2 (ix2 r 0)
      = accUpTo (term (box m c) (cls m c) (bOf t) (at512 (IOf t) r)) (JOf t).val (JOf t).isLt :=
  scratch_aux m c t.val t rfl r

/-! ## The two results at a last column block -/

/-- At a last column block the updated running sums are the whole sums. -/
theorem accC_at (t : Fin cfg0.N) (h0 : ¬t.val % 8 = 0) (h1 : t.val % 8 = 7) (r : Fin 512) :
    acc (F := Ideal) (grid0.coords t) (xb0 m c t) (xb1 m c t) (xb2 m c t) (xb3 m c t) (xsPrev m c t) (ix2 r 0)
      = total (box m c) (cls m c) (bOf t) (at512 (IOf t) r) := by
  have e : (outsAt0 (F := Ideal) m c t.val t.isLt).2.2 (ix2 r 0)
      = acc (F := Ideal) (grid0.coords t) (xb0 m c t) (xb1 m c t) (xb2 m c t) (xb3 m c t) (xsPrev m c t) (ix2 r 0) := by
    rw [outsAt0_C m c t h0 h1]; dsimp only
    exact congrFun (sout0_C_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (xb0 m c t) (xb1 m c t) (xb2 m c t) (xb3 m c t) (xsPrev m c t)) (ix2 r 0)
  exact e.symm.trans ((scratch_at m c t r).trans (accUpTo_of_last _ (JOf t) ((JOf_val t).trans h1)))

/-- The boxes' result window holds the row block's boxes scaled by their keep bits. -/
theorem out4_at (t : Fin cfg0.N) (h7 : t.val % 8 = 7) (r : Fin 512) (k : Fin 4) :
    (outsAt0 (F := Ideal) m c t.val t.isLt).1 (ix3 0 r k)
      = outBox (box m c) (cls m c) (ix3 (bOf t) (at512 (IOf t) r) k) := by
  have h0 : ¬t.val % 8 = 0 := by omega
  have h1 := h7
  rw [outsAt0_C m c t h0 h1]; dsimp only
  refine (congrFun (out0_C_4_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (xb0 m c t) (xb1 m c t) (xb2 m c t) (xb3 m c t) (xsPrev m c t)) (ix3 0 r k)).trans ?_
  refine (pay_out4 (box m c) (bOf t) (IOf t) (xb0 m c t)
    (acc (F := Ideal) (grid0.coords t) (xb0 m c t) (xb1 m c t) (xb2 m c t) (xb3 m c t) (xsPrev m c t))
    (xb0_at m c t) r k).trans ?_
  exact (congrArg (fun s => box m c (ix3 (bOf t) (at512 (IOf t) r) k) * bitF (keepOf (box m c) (bOf t) (at512 (IOf t) r) s))
    (accC_at m c t h0 h1 r)).trans (outBox_ix3 (box m c) (cls m c) (bOf t) (at512 (IOf t) r) k).symm

/-- The keep words' result window holds the row block's keep bits, widened to words. -/
theorem out5_at (t : Fin cfg0.N) (h7 : t.val % 8 = 7) (r : Fin 512) :
    (outsAt0 (F := Ideal) m c t.val t.isLt).2.1 (ix3 0 r 0)
      = (keep (box m c) (cls m c) (bOf t) (at512 (IOf t) r)).setWidth 32 := by
  have h0 : ¬t.val % 8 = 0 := by omega
  have h1 := h7
  rw [outsAt0_C m c t h0 h1]; dsimp only
  refine (congrFun (out0_C_5_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (xb0 m c t) (xb1 m c t) (xb2 m c t) (xb3 m c t) (xsPrev m c t)) (ix3 0 r 0)).trans ?_
  refine (pay_out5 (box m c) (bOf t) (IOf t) (xb0 m c t)
    (acc (F := Ideal) (grid0.coords t) (xb0 m c t) (xb1 m c t) (xb2 m c t) (xb3 m c t) (xsPrev m c t))
    (xb0_at m c t) r).trans ?_
  exact congrArg (fun s => (keepOf (box m c) (bOf t) (at512 (IOf t) r) s).setWidth 32) (accC_at m c t h0 h1 r)

end Cert.KernelIdeal.Fr

end
-- ==== Proof.KI.Cover.lean ====
/-
  The write-back side: where the two result windows' blocks sit, and that they fill the result arrays.

  Both result windows follow the row block, like the first window of the boxes, and are written back only at the
  last column block (`t % 8 = 7`). Row `n` of batch `b` lies in the block of the point
  `b · 64 + (n / 512) · 8 + 7`, at position `n % 512`; so every index of a result array is covered by a point
  that writes back, and the array ends holding one whole-array contents `G` as soon as each such point leaves
  `G`'s values of its block in the window's buffer.
-/
import proofs.«136803_j33380485824748_1_alg».proof.Proof.KI.Blocks
import proofs.«136803_j33380485824748_1_alg».proof.Proof.Spec
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Spec Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two result windows move as the row-block window of the boxes does: decided over the 512 points. -/
theorem idx4 : ∀ t : Fin cfg0.N, win0_4.index t (0 : Fin 3) = t.val / 64 ∧ win0_4.index t (1 : Fin 3) = t.val / 8 % 8 ∧ win0_4.index t (2 : Fin 3) = 0 :=
  (by decide +kernel : ∀ t : Fin grid0.N, win0_4.index t (0 : Fin 3) = t.val / 64 ∧ win0_4.index t (1 : Fin 3) = t.val / 8 % 8 ∧ win0_4.index t (2 : Fin 3) = 0)
theorem idx5 : ∀ t : Fin cfg0.N, win0_5.index t (0 : Fin 3) = t.val / 64 ∧ win0_5.index t (1 : Fin 3) = t.val / 8 % 8 ∧ win0_5.index t (2 : Fin 3) = 0 :=
  (by decide +kernel : ∀ t : Fin grid0.N, win0_5.index t (0 : Fin 3) = t.val / 64 ∧ win0_5.index t (1 : Fin 3) = t.val / 8 % 8 ∧ win0_5.index t (2 : Fin 3) = 0)

/-- A result window's block of any whole-array contents, read at an index of the block, is the contents at the
    global index. -/
theorem oblk4_at (G : S8x4096x4.Idx → Elt F .f32) (t : Fin cfg0.N) (r : Fin 512) (k : Fin 4) :
    ((cfg0.win 4).blk t).view.read (Elt F) G (ix3 0 r k) = G (ix3 (bOf t) (at512 (IOf t) r) k) := by
  obtain ⟨e0, e1, e2⟩ := idx4 t
  show G (((cfg0.win 4).blk t).view.emb (ix3 0 r k)) = G (ix3 (bOf t) (at512 (IOf t) r) k)
  refine congrArg G ?_
  funext a; apply Fin.ext
  match a with
  | ⟨0, _⟩ => show win0_4.index t (0 : Fin 3) * 1 + 1 * 0 = t.val / 64; omega
  | ⟨1, _⟩ => show win0_4.index t (1 : Fin 3) * 512 + 1 * r.val = t.val / 8 % 8 * 512 + r.val; omega
  | ⟨2, _⟩ => show win0_4.index t (2 : Fin 3) * 4 + 1 * k.val = k.val; omega
theorem oblk5_at (G : S8x4096x1.Idx → Elt F .i32) (t : Fin cfg0.N) (r : Fin 512) :
    ((cfg0.win 5).blk t).view.read (Elt F) G (ix3 0 r 0) = G (ix3 (bOf t) (at512 (IOf t) r) 0) := by
  obtain ⟨e0, e1, e2⟩ := idx5 t
  show G (((cfg0.win 5).blk t).view.emb (ix3 0 r 0)) = G (ix3 (bOf t) (at512 (IOf t) r) 0)
  refine congrArg G ?_
  funext a; apply Fin.ext
  match a with
  | ⟨0, _⟩ => show win0_5.index t (0 : Fin 3) * 1 + 1 * 0 = t.val / 64; omega
  | ⟨1, _⟩ => show win0_5.index t (1 : Fin 3) * 512 + 1 * r.val = t.val / 8 % 8 * 512 + r.val; omega
  | ⟨2, _⟩ => show win0_5.index t (2 : Fin 3) * 1 + 1 * 0 = 0; omega

/-- What a point writes back of a result window is what the body left in its staging buffer there. -/
theorem flushed4_eq (c : Dev nD) (t : Fin cfg0.N) : (dats m 0 c).flushed 4 t = (outsAt0 m c t.val t.isLt).1 := by
  show (cfg0.win 4).cut (grid0.coords t) ((dats m 0 c).after 4 t) = _
  rw [after0_4]
  rfl
theorem flushed5_eq (c : Dev nD) (t : Fin cfg0.N) : (dats m 0 c).flushed 5 t = (outsAt0 m c t.val t.isLt).2.1 := by
  show (cfg0.win 5).cut (grid0.coords t) ((dats m 0 c).after 5 t) = _
  rw [after0_5]
  rfl

/-- An index of a result array is in point `t`'s block iff each coordinate is in the block's range on its axis. -/
theorem mem_blk4 (t : Fin cfg0.N) (i : S8x4096x4.Idx) :
    i ∈ ((cfg0.win 4).blk t).view.set ↔ ∀ a : Fin 3, win0_4.index t a * S1x512x4.size a ≤ (i a).val ∧ (i a).val < win0_4.index t a * S1x512x4.size a + S1x512x4.size a := by
  show i ∈ ((View.whole main_v1_0).slice (win0_4.rect t)).set ↔ _
  rw [View.set_slice_whole, Rect.mem_set_unit]
  exact Iff.rfl
theorem mem_blk5 (t : Fin cfg0.N) (i : S8x4096x1.Idx) :
    i ∈ ((cfg0.win 5).blk t).view.set ↔ ∀ a : Fin 3, win0_5.index t a * S1x512x1.size a ≤ (i a).val ∧ (i a).val < win0_5.index t a * S1x512x1.size a + S1x512x1.size a := by
  show i ∈ ((View.whole main_v1_1).slice (win0_5.rect t)).set ↔ _
  rw [View.set_slice_whole, Rect.mem_set_unit]
  exact Iff.rfl

/-- The point that writes back row `n` of batch `b`: the batch's, the row's block, the last column block. -/
def ptOf (b : Fin 8) (n : Fin 4096) : Fin cfg0.N :=
  ⟨b.val * 64 + n.val / 512 * 8 + 7, lt_of_lt_of_eq (by have := b.isLt; have := n.isLt; omega : b.val * 64 + n.val / 512 * 8 + 7 < 512) N_0.symm⟩

theorem ptOf_val (b : Fin 8) (n : Fin 4096) : (ptOf b n).val = b.val * 64 + n.val / 512 * 8 + 7 := rfl
theorem ptOf_last (b : Fin 8) (n : Fin 4096) : (ptOf b n).val % 8 = 7 := by rw [ptOf_val]; omega
theorem bOf_ptOf (b : Fin 8) (n : Fin 4096) : bOf (ptOf b n) = b :=
  Fin.ext (by show (b.val * 64 + n.val / 512 * 8 + 7) / 64 = b.val; have := b.isLt; have := n.isLt; omega)
theorem IOf_ptOf (b : Fin 8) (n : Fin 4096) : (IOf (ptOf b n)).val = n.val / 512 := by
  show (b.val * 64 + n.val / 512 * 8 + 7) / 8 % 8 = n.val / 512; have := b.isLt; have := n.isLt; omega
/-- Row `n` is position `n % 512` of its block. -/
theorem at512_ptOf (b : Fin 8) (n : Fin 4096) :
    at512 (IOf (ptOf b n)) ⟨n.val % 512, Nat.mod_lt _ (by decide)⟩ = n :=
  Fin.ext (by show (IOf (ptOf b n)).val * 512 + n.val % 512 = n.val; rw [IOf_ptOf]; omega)
/-- A last-column-block point is the covering point of each row of its block. -/
theorem ptOf_of_last (t : Fin cfg0.N) (h : t.val % 8 = 7) (r : Fin 512) : ptOf (bOf t) (at512 (IOf t) r) = t :=
  Fin.ext (by
    show t.val / 64 * 64 + (t.val / 8 % 8 * 512 + r.val) / 512 * 8 + 7 = t.val
    have := r.isLt; omega)

/-- Every index of a result array is in the block of a point that writes the window back. -/
theorem cover4 (i : S8x4096x4.Idx) : ∃ t : Fin cfg0.N, (cfg0.win 4).flush t = true ∧ i ∈ ((cfg0.win 4).blk t).view.set := by
  have h0 : (i 0).val < 8 := (i 0).isLt
  have h1 : (i 1).val < 4096 := (i 1).isLt
  have h2 : (i 2).val < 4 := (i 2).isLt
  refine ⟨ptOf ⟨(i 0).val, h0⟩ ⟨(i 1).val, h1⟩, (flush0_4 _).mpr (ptOf_last _ _), ?_⟩
  rw [mem_blk4]
  obtain ⟨e0, e1, e2⟩ := idx4 (ptOf ⟨(i 0).val, h0⟩ ⟨(i 1).val, h1⟩)
  rw [ptOf_val] at e0 e1
  intro a
  match a with
  | ⟨0, _⟩ => show win0_4.index (ptOf ⟨(i 0).val, h0⟩ ⟨(i 1).val, h1⟩) (0 : Fin 3) * 1 ≤ (i 0).val ∧ (i 0).val < win0_4.index (ptOf ⟨(i 0).val, h0⟩ ⟨(i 1).val, h1⟩) (0 : Fin 3) * 1 + 1; dsimp only at e0 e1; omega
  | ⟨1, _⟩ => show win0_4.index (ptOf ⟨(i 0).val, h0⟩ ⟨(i 1).val, h1⟩) (1 : Fin 3) * 512 ≤ (i 1).val ∧ (i 1).val < win0_4.index (ptOf ⟨(i 0).val, h0⟩ ⟨(i 1).val, h1⟩) (1 : Fin 3) * 512 + 512; dsimp only at e0 e1; omega
  | ⟨2, _⟩ => show win0_4.index (ptOf ⟨(i 0).val, h0⟩ ⟨(i 1).val, h1⟩) (2 : Fin 3) * 4 ≤ (i 2).val ∧ (i 2).val < win0_4.index (ptOf ⟨(i 0).val, h0⟩ ⟨(i 1).val, h1⟩) (2 : Fin 3) * 4 + 4; omega
theorem cover5 (i : S8x4096x1.Idx) : ∃ t : Fin cfg0.N, (cfg0.win 5).flush t = true ∧ i ∈ ((cfg0.win 5).blk t).view.set := by
  have h0 : (i 0).val < 8 := (i 0).isLt
  have h1 : (i 1).val < 4096 := (i 1).isLt
  have h2 : (i 2).val < 1 := (i 2).isLt
  refine ⟨ptOf ⟨(i 0).val, h0⟩ ⟨(i 1).val, h1⟩, (flush0_5 _).mpr (ptOf_last _ _), ?_⟩
  rw [mem_blk5]
  obtain ⟨e0, e1, e2⟩ := idx5 (ptOf ⟨(i 0).val, h0⟩ ⟨(i 1).val, h1⟩)
  rw [ptOf_val] at e0 e1
  intro a
  match a with
  | ⟨0, _⟩ => show win0_5.index (ptOf ⟨(i 0).val, h0⟩ ⟨(i 1).val, h1⟩) (0 : Fin 3) * 1 ≤ (i 0).val ∧ (i 0).val < win0_5.index (ptOf ⟨(i 0).val, h0⟩ ⟨(i 1).val, h1⟩) (0 : Fin 3) * 1 + 1; dsimp only at e0 e1; omega
  | ⟨1, _⟩ => show win0_5.index (ptOf ⟨(i 0).val, h0⟩ ⟨(i 1).val, h1⟩) (1 : Fin 3) * 512 ≤ (i 1).val ∧ (i 1).val < win0_5.index (ptOf ⟨(i 0).val, h0⟩ ⟨(i 1).val, h1⟩) (1 : Fin 3) * 512 + 512; dsimp only at e0 e1; omega
  | ⟨2, _⟩ => show win0_5.index (ptOf ⟨(i 0).val, h0⟩ ⟨(i 1).val, h1⟩) (2 : Fin 3) * 1 ≤ (i 2).val ∧ (i 2).val < win0_5.index (ptOf ⟨(i 0).val, h0⟩ ⟨(i 1).val, h1⟩) (2 : Fin 3) * 1 + 1; omega

/-- Two contents of a block agree when they agree at every `(0, r, k)`. -/
theorem ext_blk4 {α : Type} (X Y : S1x512x4.Idx → α) (h : ∀ (r : Fin 512) (k : Fin 4), X (ix3 0 r k) = Y (ix3 0 r k)) : X = Y := by
  funext j
  have e : j = ix3 (0 : Fin 1) (⟨(j 1).val, (j 1).isLt⟩ : Fin 512) (⟨(j 2).val, (j 2).isLt⟩ : Fin 4) := by
    funext a
    match a with
    | ⟨0, _⟩ => exact Fin.ext (by show (j 0).val = 0; have : (j 0).val < 1 := (j 0).isLt; omega)
    | ⟨1, _⟩ => rfl
    | ⟨2, _⟩ => rfl
  rw [e]; exact h _ _
theorem ext_blk5 {α : Type} (X Y : S1x512x1.Idx → α) (h : ∀ r : Fin 512, X (ix3 0 r 0) = Y (ix3 0 r 0)) : X = Y := by
  funext j
  have e : j = ix3 (0 : Fin 1) (⟨(j 1).val, (j 1).isLt⟩ : Fin 512) (0 : Fin 1) := by
    funext a
    match a with
    | ⟨0, _⟩ => exact Fin.ext (by show (j 0).val = 0; have : (j 0).val < 1 := (j 0).isLt; omega)
    | ⟨1, _⟩ => rfl
    | ⟨2, _⟩ => exact Fin.ext (by show (j 2).val = 0; have : (j 2).val < 1 := (j 2).isLt; omega)
  rw [e]; exact h _

/-- The result arrays after the region: when at every last-column-block point the body leaves, at each position of
    the window's buffer, the value of one whole-array contents `G` at the global index, the array ends holding `G`. -/
theorem final4 (c : Dev nD) (G : S8x4096x4.Idx → Elt F .f32)
    (h : ∀ t : Fin cfg0.N, t.val % 8 = 7 → ∀ (r : Fin 512) (k : Fin 4),
      (outsAt0 m c t.val t.isLt).1 (ix3 0 r k) = G (ix3 (bOf t) (at512 (IOf t) r) k)) :
    (dats m 0 c).arrAt 4 cfg0.N = G :=
  (dats m 0 c).arrAt_eq_of_cover 4 G
    (fun t hf => (flushed4_eq m c t).trans (ext_blk4 _ _ fun r k => (h t ((flush0_4 t).mp hf) r k).trans (oblk4_at G t r k).symm))
    cover4
theorem final5 (c : Dev nD) (G : S8x4096x1.Idx → Elt F .i32)
    (h : ∀ t : Fin cfg0.N, t.val % 8 = 7 → ∀ r : Fin 512,
      (outsAt0 m c t.val t.isLt).2.1 (ix3 0 r 0) = G (ix3 (bOf t) (at512 (IOf t) r) 0)) :
    (dats m 0 c).arrAt 5 cfg0.N = G :=
  (dats m 0 c).arrAt_eq_of_cover 5 G
    (fun t hf => (flushed5_eq m c t).trans (ext_blk5 _ _ fun r => (h t ((flush0_5 t).mp hf) r).trans (oblk5_at G t r).symm))
    cover5

end Cert.KernelIdeal.Fr

end
-- ==== Proof.KI.Result.lean ====
/-
  The idealized kernel's run, read: its two results are the specified arrays of its two arguments.

  The region leaves the boxes' result array holding every box scaled by its keep bit, and a column of words
  holding every keep bit widened; both arrays are filled block by block at the last column block of each row
  block, where the running row sums are complete. The host lines after the region compare each word with zero,
  which gives the bit back. The argument arrays are left as launched.
-/
import proofs.«136803_j33380485824748_1_alg».proof.Proof.KI.FrameOf
import proofs.«136803_j33380485824748_1_alg».proof.Proof.KI.Acc
import proofs.«136803_j33380485824748_1_alg».proof.Proof.KI.Cover
import proofs.«136803_j33380485824748_1_alg».proof.Proof.KPay
import proofs.«136803_j33380485824748_1_alg».proof.Proof.Spec

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Spec Idealize.ShloMosaic.ValueIdx

open Cert.KernelIdeal.Pay

variable (m : (ℓ : Loc nD τ sig) → Buf (Elt Ideal) ℓ) (ρ : Dev nD → PrngReg)

/-- The two result arrays and the two argument arrays are among the buffers that outlive the program. -/
theorem v1_0_unscoped : main_v1_0 ∈ (Finset.univ.filter fun b : Ref sig .tc => ¬ b.isScoped) := by decide
theorem v5_unscoped : main_v5 ∈ (Finset.univ.filter fun b : Ref sig .tc => ¬ b.isScoped) := by decide

/-- The keep bits as the region leaves them: one word per box, the bit widened. -/
def keepW (box : SBox.Idx → EReal) (cls : SCls.Idx → BitVec 32) : S8x4096x1.Idx → BitVec 32 :=
  fun y => (keep box cls (y 0) (y 1)).setWidth 32

/-- The boxes' result array ends holding every box scaled by its keep bit. -/
theorem box_final (c : Dev nD) : Wfin m c (Proc.devRef .tc main_v1_0) = outBox (box m c) (cls m c) :=
  (Wfin_v1_0 m c).trans (final4 m c (outBox (box m c) (cls m c)) (fun t h7 r k => out4_at m c t h7 r k))

/-- The keep words' array ends holding every keep bit widened to a word, -/
theorem words_final (c : Dev nD) : (dats m 0 c).arrAt 5 cfg0.N = keepW (box m c) (cls m c) :=
  final5 m c (keepW (box m c) (cls m c)) (fun t h7 r => out5_at m c t h7 r)

/-- and the host lines after the region turn each word back into its bit. -/
theorem keep_final_at (c : Dev nD) (b : Fin 8) (n : Fin 4096) :
    Wfin m c (Proc.devRef .tc main_v5) (ix2 b n) = outKeep (box m c) (cls m c) (ix2 b n) := by
  rw [Wfin_v5_at, words_final]
  exact tail_bit (keep (box m c) (cls m c) b n)
theorem keep_final (c : Dev nD) : Wfin m c (Proc.devRef .tc main_v5) = outKeep (box m c) (cls m c) := by
  funext y
  rw [eq_ix2 y]
  exact keep_final_at m c (y 0) (y 1)

/-- The program runs; its results are the two specified arrays of its arguments, which it leaves as launched. -/
theorem value_run : θ_run (defs (F := Ideal)) (onTc (τ := τ) (main (F := Ideal))) ⟨m, fun _ => 0, ρ⟩ (fun r => ∀ c : Dev nD,
      r.2.mem ((c.tc : Thread nD τ).loc main_v1_0) = outBox (m ((c.tc : Thread nD τ).loc main_arg0)) (m ((c.tc : Thread nD τ).loc main_arg1))
      ∧ r.2.mem ((c.tc : Thread nD τ).loc main_v5) = outKeep (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c main_v1_0 v1_0_unscoped).trans (box_final m c),
      (h c main_v5 v5_unscoped).trans (keep_final m c),
      (h c main_arg0 arg0_unscoped).trans (Wfin_arg0 m c),
      (h c main_arg1 arg1_unscoped).trans (Wfin_arg1 m c)⟩)
    (run_main m ρ)

end Cert.KernelIdeal.Fr

end
-- ==== Proof.RefValue.lean ====
/-
  The reference program's two results are the specification's, index by index.

  Every stage of the program is read at one symbolic index. A box's four coordinates are the four unit slices of the
  box array, each flattened to one value per box; a per-box value spread along the columns (resp. the rows) of the
  8 × 4096 × 4096 array of pairs reads, at (b, i, j), the value of box j (resp. box i) of batch b. The mask at
  (b, i, j) is six bits anded left to right: four comparisons of coordinates, the equality of the two class words,
  and the complement of "row number = column number" taken on 32-bit words, which for numbers below 4096 is i ≠ j.
  The selected term is the column box's area or zero; a row's sum over its 4096 columns starts from zero; the
  threshold is the fixed fraction of the row box's area plus the fixed epsilon; and a one-bit keep word read as a
  number is 0 or 1, by which the box is scaled.
-/
import proofs.«136803_j33380485824748_1_alg».proof.Proof.Gen.ReferenceIdeal.Run
import proofs.«136803_j33380485824748_1_alg».proof.Proof.Gen.ReferenceIdeal.Read
import proofs.«136803_j33380485824748_1_alg».proof.Proof.Spec

noncomputable section

open scoped BigOperators

namespace Cert.ReferenceIdeal.RefValue

open Cert.ReferenceIdeal Cert.ReferenceIdeal.Gen Cert.ReferenceIdeal.Value Cert.ReferenceIdeal.Read Cert.Spec Idealize.ShloMosaic Idealize.ShloMosaic.TcCoe Idealize.ShloMosaic.ValueIdx Idealize.SL.Sem

section
variable (x0 : (⟨S8x4096x4, .f32⟩ : BufTy).Contents (Elt Ideal)) (x1 : (⟨S8x4096, .i32⟩ : BufTy).Contents (Elt Ideal))

/-! ## The four coordinates of a box -/

theorem idx_crd0 (b : Fin 8) (n : Fin 4096) : idx_main_v0 (idx_main_v1 (ix2 b n)) = ix3 b n 0 := by
  funext a; apply Fin.ext
  match a with
  | ⟨0, _⟩ => show (b.val * 4096 + n.val) / 4096 = b.val; omega
  | ⟨1, _⟩ => show (b.val * 4096 + n.val) / 1 % 4096 = n.val; omega
  | ⟨2, _⟩ => rfl

theorem idx_crd1 (b : Fin 8) (n : Fin 4096) : idx_main_v2 (idx_main_v3 (ix2 b n)) = ix3 b n 1 := by
  funext a; apply Fin.ext
  match a with
  | ⟨0, _⟩ => show (b.val * 4096 + n.val) / 4096 = b.val; omega
  | ⟨1, _⟩ => show (b.val * 4096 + n.val) / 1 % 4096 = n.val; omega
  | ⟨2, _⟩ => rfl

theorem idx_crd2 (b : Fin 8) (n : Fin 4096) : idx_main_v4 (idx_main_v5 (ix2 b n)) = ix3 b n 2 := by
  funext a; apply Fin.ext
  match a with
  | ⟨0, _⟩ => show (b.val * 4096 + n.val) / 4096 = b.val; omega
  | ⟨1, _⟩ => show (b.val * 4096 + n.val) / 1 % 4096 = n.val; omega
  | ⟨2, _⟩ => rfl

theorem idx_crd3 (b : Fin 8) (n : Fin 4096) : idx_main_v6 (idx_main_v7 (ix2 b n)) = ix3 b n 3 := by
  funext a; apply Fin.ext
  match a with
  | ⟨0, _⟩ => show (b.val * 4096 + n.val) / 4096 = b.val; omega
  | ⟨1, _⟩ => show (b.val * 4096 + n.val) / 1 % 4096 = n.val; omega
  | ⟨2, _⟩ => rfl

theorem v1_at (b : Fin 8) (n : Fin 4096) : val_main_v1 (F := Ideal) x0 (ix2 b n) = crd x0 b n 0 :=
  (val_main_v1_apply x0 _).trans ((val_main_v0_apply x0 _).trans (congrArg x0 (idx_crd0 b n)))

theorem v3_at (b : Fin 8) (n : Fin 4096) : val_main_v3 (F := Ideal) x0 (ix2 b n) = crd x0 b n 1 :=
  (val_main_v3_apply x0 _).trans ((val_main_v2_apply x0 _).trans (congrArg x0 (idx_crd1 b n)))

theorem v5_at (b : Fin 8) (n : Fin 4096) : val_main_v5 (F := Ideal) x0 (ix2 b n) = crd x0 b n 2 :=
  (val_main_v5_apply x0 _).trans ((val_main_v4_apply x0 _).trans (congrArg x0 (idx_crd2 b n)))

theorem v7_at (b : Fin 8) (n : Fin 4096) : val_main_v7 (F := Ideal) x0 (ix2 b n) = crd x0 b n 3 :=
  (val_main_v7_apply x0 _).trans ((val_main_v6_apply x0 _).trans (congrArg x0 (idx_crd3 b n)))

/-- The product of the two side lengths is the box's area. -/
theorem v10_at (b : Fin 8) (n : Fin 4096) : val_main_v10 (F := Ideal) x0 (ix2 b n) = area x0 b n := by
  rw [val_main_v10_apply, val_main_v8_apply, val_main_v9_apply, v1_at, v3_at, v5_at, v7_at]
  rfl

/-! ## The broadcasts of a per-box value along the row and along the column of the pair array -/

theorem idx_col13 (b : Fin 8) (i j : Fin 4096) : idx_main_v11 (idx_main_v13 (ix3 b i j)) = ix2 b j := by
  funext a; match a with | ⟨0, _⟩ => rfl | ⟨1, _⟩ => rfl
theorem idx_row14 (b : Fin 8) (i j : Fin 4096) : idx_main_v12 (idx_main_v14 (ix3 b i j)) = ix2 b i := by
  funext a; match a with | ⟨0, _⟩ => rfl | ⟨1, _⟩ => rfl
theorem idx_col18 (b : Fin 8) (i j : Fin 4096) : idx_main_v16 (idx_main_v18 (ix3 b i j)) = ix2 b j := by
  funext a; match a with | ⟨0, _⟩ => rfl | ⟨1, _⟩ => rfl
theorem idx_row19 (b : Fin 8) (i j : Fin 4096) : idx_main_v17 (idx_main_v19 (ix3 b i j)) = ix2 b i := by
  funext a; match a with | ⟨0, _⟩ => rfl | ⟨1, _⟩ => rfl
theorem idx_col24 (b : Fin 8) (i j : Fin 4096) : idx_main_v22 (idx_main_v24 (ix3 b i j)) = ix2 b j := by
  funext a; match a with | ⟨0, _⟩ => rfl | ⟨1, _⟩ => rfl
theorem idx_row25 (b : Fin 8) (i j : Fin 4096) : idx_main_v23 (idx_main_v25 (ix3 b i j)) = ix2 b i := by
  funext a; match a with | ⟨0, _⟩ => rfl | ⟨1, _⟩ => rfl
theorem idx_col30 (b : Fin 8) (i j : Fin 4096) : idx_main_v28 (idx_main_v30 (ix3 b i j)) = ix2 b j := by
  funext a; match a with | ⟨0, _⟩ => rfl | ⟨1, _⟩ => rfl
theorem idx_row31 (b : Fin 8) (i j : Fin 4096) : idx_main_v29 (idx_main_v31 (ix3 b i j)) = ix2 b i := by
  funext a; match a with | ⟨0, _⟩ => rfl | ⟨1, _⟩ => rfl
theorem idx_row36 (b : Fin 8) (i j : Fin 4096) : idx_main_v34 (idx_main_v36 (ix3 b i j)) = ix2 b i := by
  funext a; match a with | ⟨0, _⟩ => rfl | ⟨1, _⟩ => rfl
theorem idx_col37 (b : Fin 8) (i j : Fin 4096) : idx_main_v35 (idx_main_v37 (ix3 b i j)) = ix2 b j := by
  funext a; match a with | ⟨0, _⟩ => rfl | ⟨1, _⟩ => rfl
theorem idx_col49 (b : Fin 8) (i j : Fin 4096) : idx_main_v49 (idx_main_call0_v0 (ix3 b i j)) = ix2 b j := by
  funext a; match a with | ⟨0, _⟩ => rfl | ⟨1, _⟩ => rfl
theorem idx_diag (b : Fin 8) (i j : Fin 4096) : idx_main_v44 (idx_main_v47 (ix3 b i j)) = ix2 i j := by
  funext a; match a with | ⟨0, _⟩ => rfl | ⟨1, _⟩ => rfl

theorem v13_at (b : Fin 8) (i j : Fin 4096) : val_main_v13 (F := Ideal) x0 (ix3 b i j) = crd x0 b j 0 :=
  (val_main_v13_apply x0 _).trans ((val_main_v11_apply x0 _).trans
    ((congrArg (val_main_v1 (F := Ideal) x0) (idx_col13 b i j)).trans (v1_at x0 b j)))
theorem v14_at (b : Fin 8) (i j : Fin 4096) : val_main_v14 (F := Ideal) x0 (ix3 b i j) = crd x0 b i 0 :=
  (val_main_v14_apply x0 _).trans ((val_main_v12_apply x0 _).trans
    ((congrArg (val_main_v1 (F := Ideal) x0) (idx_row14 b i j)).trans (v1_at x0 b i)))
theorem v18_at (b : Fin 8) (i j : Fin 4096) : val_main_v18 (F := Ideal) x0 (ix3 b i j) = crd x0 b j 1 :=
  (val_main_v18_apply x0 _).trans ((val_main_v16_apply x0 _).trans
    ((congrArg (val_main_v3 (F := Ideal) x0) (idx_col18 b i j)).trans (v3_at x0 b j)))
theorem v19_at (b : Fin 8) (i j : Fin 4096) : val_main_v19 (F := Ideal) x0 (ix3 b i j) = crd x0 b i 1 :=
  (val_main_v19_apply x0 _).trans ((val_main_v17_apply x0 _).trans
    ((congrArg (val_main_v3 (F := Ideal) x0) (idx_row19 b i j)).trans (v3_at x0 b i)))
theorem v24_at (b : Fin 8) (i j : Fin 4096) : val_main_v24 (F := Ideal) x0 (ix3 b i j) = crd x0 b j 2 :=
  (val_main_v24_apply x0 _).trans ((val_main_v22_apply x0 _).trans
    ((congrArg (val_main_v5 (F := Ideal) x0) (idx_col24 b i j)).trans (v5_at x0 b j)))
theorem v25_at (b : Fin 8) (i j : Fin 4096) : val_main_v25 (F := Ideal) x0 (ix3 b i j) = crd x0 b i 2 :=
  (val_main_v25_apply x0 _).trans ((val_main_v23_apply x0 _).trans
    ((congrArg (val_main_v5 (F := Ideal) x0) (idx_row25 b i j)).trans (v5_at x0 b i)))
theorem v30_at (b : Fin 8) (i j : Fin 4096) : val_main_v30 (F := Ideal) x0 (ix3 b i j) = crd x0 b j 3 :=
  (val_main_v30_apply x0 _).trans ((val_main_v28_apply x0 _).trans
    ((congrArg (val_main_v7 (F := Ideal) x0) (idx_col30 b i j)).trans (v7_at x0 b j)))
theorem v31_at (b : Fin 8) (i j : Fin 4096) : val_main_v31 (F := Ideal) x0 (ix3 b i j) = crd x0 b i 3 :=
  (val_main_v31_apply x0 _).trans ((val_main_v29_apply x0 _).trans
    ((congrArg (val_main_v7 (F := Ideal) x0) (idx_row31 b i j)).trans (v7_at x0 b i)))
theorem v36_at (b : Fin 8) (i j : Fin 4096) : val_main_v36 (F := Ideal) x1 (ix3 b i j) = x1 (ix2 b i) :=
  (val_main_v36_apply x1 _).trans ((val_main_v34_apply x1 _).trans (congrArg x1 (idx_row36 b i j)))
theorem v37_at (b : Fin 8) (i j : Fin 4096) : val_main_v37 (F := Ideal) x1 (ix3 b i j) = x1 (ix2 b j) :=
  (val_main_v37_apply x1 _).trans ((val_main_v35_apply x1 _).trans (congrArg x1 (idx_col37 b i j)))
/-- The area of the column's box, spread over the pair array. -/
theorem call0_v0_at (b : Fin 8) (i j : Fin 4096) : val_main_call0_v0 (F := Ideal) x0 (ix3 b i j) = area x0 b j :=
  (val_main_call0_v0_apply x0 _).trans ((val_main_v49_apply x0 _).trans
    ((congrArg (val_main_v10 (F := Ideal) x0) (idx_col49 b i j)).trans (v10_at x0 b j)))

/-! ## "Another box": the complement of the equality of the row number and the column number -/

theorem ofNat32_inj_of_lt {p q : Nat} (hp : p < 4096) (hq : q < 4096) (h : BitVec.ofNat 32 p = BitVec.ofNat 32 q) : p = q := by
  have := congrArg BitVec.toNat h
  simp only [BitVec.toNat_ofNat] at this
  omega

theorem ndiag_word (i j : Fin 4096) :
    ~~~(IntOp.cmpi .eq (IntOp.addi (BitVec.ofNat 32 i.val) 0#32) (BitVec.ofNat 32 j.val)) = ndiag i j := by
  unfold IntOp.cmpi IntOp.addi ndiag
  rw [BitVec.add_zero]
  by_cases h : i = j
  · subst h; rw [if_pos rfl, beq_self_eq_true]; show ~~~BitVec.ofBool true = 0#1; decide
  · rw [if_neg h]
    have hb : (BitVec.ofNat 32 i.val == BitVec.ofNat 32 j.val) = false :=
      beq_eq_false_iff_ne.mpr fun e => h (Fin.ext (ofNat32_inj_of_lt i.isLt j.isLt e))
    rw [hb]; show ~~~BitVec.ofBool false = 1#1; decide

theorem v47_at (b : Fin 8) (i j : Fin 4096) : val_main_v47 (F := Ideal) (ix3 b i j) = ndiag i j := by
  rw [val_main_v47_apply, val_main_v45_apply, val_main_v44_apply, idx_diag, val_main_v43_apply, val_main_v42_apply,
    val_main_v39_apply, val_main_v40_apply, val_main_v41_apply, val_main_c_apply]
  exact ndiag_word i j

/-! ## The six bits anded, the selected term, the row's sum, the threshold, the keep bit -/

theorem v48_at (b : Fin 8) (i j : Fin 4096) : val_main_v48 (F := Ideal) x0 x1 (ix3 b i j) = valid x0 x1 b i j := by
  rw [val_main_v48_apply, val_main_v46_apply, val_main_v33_apply, val_main_v27_apply, val_main_v21_apply,
    val_main_v15_apply, val_main_v20_apply, val_main_v26_apply, val_main_v32_apply, val_main_v38_apply,
    v13_at, v14_at, v18_at, v19_at, v24_at, v25_at, v30_at, v31_at, v36_at, v37_at, v47_at]
  rfl

theorem v50_at (b : Fin 8) (i j : Fin 4096) : val_main_v50 (F := Ideal) x0 x1 (ix3 b i j) = term x0 x1 b i j := by
  rw [val_main_v50_apply, v48_at, call0_v0_at, val_main_call0_v1_apply, val_main_cst_apply, Ideal.ofBits_def,
    Ideal.ofBits_zero_f32]
  rfl

theorem idx_sum (b : Fin 8) (i k : Fin 4096) : idx_main_v51 (ix2 b i) k = ix3 b i k := by
  funext a; match a with | ⟨0, _⟩ => rfl | ⟨1, _⟩ => rfl | ⟨2, _⟩ => rfl

theorem v51_at (b : Fin 8) (i : Fin 4096) : val_main_v51 (F := Ideal) x0 x1 (ix2 b i) = total x0 x1 b i := by
  rw [val_main_v51_apply, val_main_cst_0_apply, Ideal.ofBits_def, Ideal.ofBits_zero_f32, zero_add]
  unfold total
  refine Finset.sum_congr rfl fun k _ => ?_
  rw [idx_sum]
  exact v50_at x0 x1 b i k

theorem v55_at (b : Fin 8) (i : Fin 4096) : val_main_v55 (F := Ideal) x0 (ix2 b i) = thr x0 b i := by
  rw [val_main_v55_apply, val_main_v54_apply, val_main_cst_2_apply, val_main_v53_apply, v10_at, val_main_v52_apply,
    val_main_cst_1_apply]
  rfl

theorem v56_at (b : Fin 8) (i : Fin 4096) : val_main_v56 (F := Ideal) x0 x1 (ix2 b i) = keep x0 x1 b i := by
  rw [val_main_v56_apply, v51_at, v55_at]
  rfl

/-! ## The keep bit as a number, and the scaled box -/

theorem uitofp_bit (k : BitVec 1) : FloatOps.uitofp (F := Ideal) .f32 k = bitF k := by
  have h : k = 0#1 ∨ k = 1#1 := by revert k; decide
  rcases h with rfl | rfl
  · show (((0#1 : BitVec 1).toNat : ℝ) : EReal) = bitF 0#1
    simp [bitF]
  · show (((1#1 : BitVec 1).toNat : ℝ) : EReal) = bitF 1#1
    simp [bitF]

theorem idx_keepcol (b : Fin 8) (n : Fin 4096) (k : Fin 4) : idx_main_v57 (idx_main_v59 (ix3 b n k)) = ix2 b n := by
  funext a; match a with | ⟨0, _⟩ => rfl | ⟨1, _⟩ => rfl

theorem v60_at (b : Fin 8) (n : Fin 4096) (k : Fin 4) :
    val_main_v60 (F := Ideal) x0 x1 (ix3 b n k) = outBox x0 x1 (ix3 b n k) := by
  rw [val_main_v60_apply, val_main_v59_apply, val_main_v58_apply, val_main_v57_apply, idx_keepcol, v56_at, uitofp_bit,
    outBox_ix3]
  rfl

theorem v60_fun : (val_main_v60 (F := Ideal) x0 x1 : S8x4096x4.Idx → EReal) = outBox x0 x1 := by
  funext y
  obtain ⟨b, n, k, rfl⟩ : ∃ b n k, y = ix3 b n k := ⟨y 0, y 1, y 2, eq_ix3 y⟩
  exact v60_at x0 x1 b n k

theorem v56_fun : (val_main_v56 (F := Ideal) x0 x1 : S8x4096.Idx → BitVec 1) = outKeep x0 x1 := by
  funext y
  obtain ⟨b, n, rfl⟩ : ∃ b n, y = ix2 b n := ⟨y 0, y 1, eq_ix2 y⟩
  exact v56_at x0 x1 b n

end

/-! ## The two results of the reference program -/

theorem ref_box (m : (ℓ : Loc nD τ sig) → Buf (Elt Ideal) ℓ) (c : Dev nD) :
    res_out0 (F := Ideal) m c
      = outBox (m ((c.tc : Thread nD τ).loc main_arg0)) (m ((c.tc : Thread nD τ).loc main_arg1)) :=
  (val_main_v60_eq m c).trans (v60_fun _ _)

theorem ref_keep (m : (ℓ : Loc nD τ sig) → Buf (Elt Ideal) ℓ) (c : Dev nD) :
    res_out1 (F := Ideal) m c
      = outKeep (m ((c.tc : Thread nD τ).loc main_arg0)) (m ((c.tc : Thread nD τ).loc main_arg1)) :=
  (val_main_v56_eq m c).trans (v56_fun _ _)

end Cert.ReferenceIdeal.RefValue

end
-- ==== Proof.lean ====
/-
  The certificate: a pairwise box filter. For each of 8 batches of 4096 boxes the kernel sums, for every box, the
  areas of the other boxes of the same class that lie inside it, and keeps the box when that sum is at most a
  fixed fraction of its own area; it returns the boxes scaled by their keep bit and the keep bits. The kernel
  walks an 8 × 8 × 8 grid, adding a row's 4096 terms in eight blocks of 512 onto running sums it carries in
  scratch between grid points, where the reference takes one sum over all 4096 — the same extended real, by
  associativity and commutativity of addition alone (no distributivity is used, so the precondition is not opened).

  Both kernel programs run, fault nowhere and leave their arguments unchanged (the frames): the program is three
  stretches — a host reshape, the kernel region, five host lines — run one after the other; two pairs of the
  region's input windows read one array each, which they hold in two halves of its share for the region's
  duration. The word-level program and its idealization have the same text (the ideal pass rewrote nothing, so
  the preservation claim is empty), and their frame proofs are one text at the two instances. The reference is a
  straight line of host operations; its run is read back operation by operation. At the ideal instance both
  programs' results are the specification's two functions of the argument arrays.
-/
import proofs.«136803_j33380485824748_1_alg».proof.Defs
import proofs.«136803_j33380485824748_1_alg».proof.Proof.Gen.Kernel
import proofs.«136803_j33380485824748_1_alg».proof.Proof.Gen.KernelIdeal
import proofs.«136803_j33380485824748_1_alg».proof.Proof.Gen.ReferenceIdeal
import proofs.«136803_j33380485824748_1_alg».proof.Proof.Gen.Pre_finite_inputs
import proofs.«136803_j33380485824748_1_alg».proof.Proof.KB.FrameOf
import proofs.«136803_j33380485824748_1_alg».proof.Proof.KI.Result
import proofs.«136803_j33380485824748_1_alg».proof.Proof.RefValue

noncomputable section

namespace Cert.Proof

open Idealize.ShloMosaic Idealize.ShloMosaic.TcCoe Idealize.SL.Sem

theorem frame_k : Cert.frame_Kernel := fun m ρ _ => Cert.Kernel.Fr.frame_run m ρ

theorem frame_ki : Cert.frame_KernelIdeal := fun m ρ _ => Cert.KernelIdeal.Fr.frame_run m ρ

/-- The reference's frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the two arguments both programs end with the specification's masked boxes and
    keep bits of those arguments. -/
theorem algebraic : Cert.algebraic_KernelIdeal_ReferenceIdeal := by
  intro m ρ m' ρ' _ hagree
  refine ⟨_, _, Cert.KernelIdeal.Fr.value_run m ρ, ?_⟩
  refine (θ_run Cert.ReferenceIdeal.defs _ _).mono (fun _ h c => ⟨(h c).1.trans ?_, (h c).2.1.trans ?_, (h c).2.2.1, (h c).2.2.2⟩)
    (Cert.ReferenceIdeal.Value.run (F := Ideal) m' ρ')
  · exact (Cert.ReferenceIdeal.RefValue.ref_box m' c).trans (by rw [(hagree c).1, (hagree c).2])
  · exact (Cert.ReferenceIdeal.RefValue.ref_keep m' c).trans (by rw [(hagree c).1, (hagree c).2])

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
